-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x256x256 : Shape := ⟨4, ![4, 128, 256, 256]⟩
abbrev S2048x3 : Shape := ⟨2, ![2048, 3]⟩
abbrev S2048x1 : Shape := ⟨2, ![2048, 1]⟩
abbrev S2048 : Shape := ⟨1, ![2048]⟩
abbrev S_ : Shape := ⟨0, ![]⟩

class Facts : Prop where
  slices_S2048x3_S2048x1_0_0 : S2048x3.Slices ![0, 0] S2048x1
  shapeCasts_S2048x1_S2048 : S2048x1.ShapeCasts S2048
  slices_S2048x3_S2048x1_0_1 : S2048x3.Slices ![0, 1] S2048x1
  slices_S2048x3_S2048x1_0_2 : S2048x3.Slices ![0, 2] S2048x1
  bcast_S_S4x128x256x256 : S_.BroadcastsInDim S4x128x256x256 (![] : Fin 0 → Fin S4x128x256x256.rank)
  reducesTo_S4x128x256x256_S_d0_1_2_3 : S4x128x256x256.ReducesTo [0, 1, 2, 3] S_
  h_S_ : 0 < S_.numel
  bcast_S_S2048 : S_.BroadcastsInDim S2048 (![] : Fin 0 → Fin S2048.rank)

variable [Facts]

def fn_part1 {F : FTy → Type} [FloatOps F] (main_v3 : IVec S2048 32) (main_v5 : IVec S2048 32) (main_v16 : IVec S2048 1) (main_v18 : IVec S2048 1) : IVec S2048 1 :=
  let main_v19 : IVec S2048 1 := andi main_v16 main_v18
  let main_c_3 : IVec S_ 32 := constantI S_ 32 18#32
  let main_v20 : IVec S2048 32 := broadcastInDim S2048 ![] bcast_S_S2048 main_c_3
  let main_v21 : IVec S2048 1 := cmpi .slt main_v3 main_v20
  let main_v22 : IVec S2048 1 := andi main_v19 main_v21
  let main_c_4 : IVec S_ 32 := constantI S_ 32 0#32
  let main_v23 : IVec S2048 32 := broadcastInDim S2048 ![] bcast_S_S2048 main_c_4
  let main_v24 : IVec S2048 1 := cmpi .sge main_v5 main_v23
  let main_v25 : IVec S2048 1 := andi main_v22 main_v24
  let main_c_5 : IVec S_ 32 := constantI S_ 32 18#32
  let main_v26 : IVec S2048 32 := broadcastInDim S2048 ![] bcast_S_S2048 main_c_5
  let main_v27 : IVec S2048 1 := cmpi .slt main_v5 main_v26
  let main_v28 : IVec S2048 1 := andi main_v25 main_v27
  main_v28

def fn {F : FTy → Type} [FloatOps F] (main_arg0 : FVec F S4x128x256x256 .f32) (main_arg1 : IVec S2048x3 32) : IVec S2048 1 :=
  let main_v0 : IVec S2048x1 32 := (extractStridedSlice S2048x1 ![0, 0] · slices_S2048x3_S2048x1_0_0) main_arg1
  let main_v1 : IVec S2048 32 := shapeCast S2048 main_v0 shapeCasts_S2048x1_S2048
  let main_v2 : IVec S2048x1 32 := (extractStridedSlice S2048x1 ![0, 1] · slices_S2048x3_S2048x1_0_1) main_arg1
  let main_v3 : IVec S2048 32 := shapeCast S2048 main_v2 shapeCasts_S2048x1_S2048
  let main_v4 : IVec S2048x1 32 := (extractStridedSlice S2048x1 ![0, 2] · slices_S2048x3_S2048x1_0_2) main_arg1
  let main_v5 : IVec S2048 32 := shapeCast S2048 main_v4 shapeCasts_S2048x1_S2048
  let main_v6 : FVec F S4x128x256x256 .f32 := Host.absf main_arg0
  let main_cst : FVec F S_ .f32 := constant S_ .f32 0x7F800000#32
  let main_v7 : FVec F S4x128x256x256 .f32 := broadcastInDim S4x128x256x256 ![] bcast_S_S4x128x256x256 main_cst
  let main_v8 : IVec S4x128x256x256 1 := cmpf .olt main_v6 main_v7
  let main_c : IVec S_ 1 := constantI S_ 1 1#1
  let main_v9 : IVec S_ 1 := (fun x v => Host.reduce IntOp.andi x v reducesTo_S4x128x256x256_S_d0_1_2_3 h_S_) main_v8 main_c
  let main_c_0 : IVec S_ 32 := constantI S_ 32 0#32
  let main_v10 : IVec S2048 32 := broadcastInDim S2048 ![] bcast_S_S2048 main_c_0
  let main_v11 : IVec S2048 1 := cmpi .sge main_v1 main_v10
  let main_v12 : IVec S2048 1 := broadcastInDim S2048 ![] bcast_S_S2048 main_v9
  let main_v13 : IVec S2048 1 := andi main_v12 main_v11
  let main_c_1 : IVec S_ 32 := constantI S_ 32 4#32
  let main_v14 : IVec S2048 32 := broadcastInDim S2048 ![] bcast_S_S2048 main_c_1
  let main_v15 : IVec S2048 1 := cmpi .slt main_v1 main_v14
  let main_v16 : IVec S2048 1 := andi main_v13 main_v15
  let main_c_2 : IVec S_ 32 := constantI S_ 32 0#32
  let main_v17 : IVec S2048 32 := broadcastInDim S2048 ![] bcast_S_S2048 main_c_2
  let main_v18 : IVec S2048 1 := cmpi .sge main_v3 main_v17
  fn_part1 (F := F) main_v3 main_v5 main_v16 main_v18
-- ==== Kernel.lean ====
abbrev S4x128x256x256 : Shape := ⟨4, ![4, 128, 256, 256]⟩
abbrev S2048x3 : Shape := ⟨2, ![2048, 3]⟩
abbrev S2048x128x16x16 : Shape := ⟨4, ![2048, 128, 16, 16]⟩
abbrev S16x128x16x16 : Shape := ⟨4, ![16, 128, 16, 16]⟩
abbrev S16 : Shape := ⟨1, ![16]⟩
abbrev S1x1 : Shape := ⟨2, ![1, 1]⟩
abbrev S1 : Shape := ⟨1, ![1]⟩
abbrev S_ : Shape := ⟨0, ![]⟩
abbrev S1x128x16x16 : Shape := ⟨4, ![1, 128, 16, 16]⟩
abbrev S128x16x16 : Shape := ⟨3, ![128, 16, 16]⟩

abbrev nBuf : Space → Nat
  | .hbm => 2
  | .vmem => 2
  | .smem => 1
  | _ => 0

abbrev bufTy : (tb : Table) → Fin (tcTables nBuf tb) → BufTy
  | .hbm, ⟨0, _⟩ => ⟨S4x128x256x256, .f32⟩
  | .hbm, ⟨1, _⟩ => ⟨S2048x128x16x16, .f32⟩
  | .local _ .vmem, ⟨0, _⟩ => ⟨S16x128x16x16, .f32⟩
  | .local _ .vmem, ⟨1, _⟩ => ⟨S16x128x16x16, .f32⟩
  | .local _ .smem, ⟨0, _⟩ => ⟨S2048x3, .i32⟩
  | _, _ => ⟨S4x128x256x256, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c16_i32_0 : BitVec 32 := 16#32
  let v1 : BitVec 32 := Scalar.addi c0_i32 c16_i32_0
  let c1_i32 : BitVec 32 := 1#32
  ⟨c0_i32, v1, c1_i32⟩
def k0_off1 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let c0_i32_8 : BitVec 32 := 0#32
  let c0_i32 : BitVec 32 := 0#32
  let c1_i32 : BitVec 32 := 1#32
  let arg5 : BitVec 32 := Scf.iv c0_i32 c1_i32 k0_t1
  let c1_i32_7 : BitVec 32 := 1#32
  let v3 : BitVec 32 := Scalar.muli arg5 c1_i32_7
  let v4 : BitVec 32 := Scalar.addi c0_i32_8 v3
  let v5 : BitVec 32 := Scalar.addi v0 v4
  let v6 : Index := Scalar.indexCast v5
  let c0 : Index := 0#32
  ![v6.toNat, 0]
def k0_off2 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let c0_i32_8 : BitVec 32 := 0#32
  let c0_i32 : BitVec 32 := 0#32
  let c1_i32 : BitVec 32 := 1#32
  let arg5 : BitVec 32 := Scf.iv c0_i32 c1_i32 k0_t1
  let c1_i32_7 : BitVec 32 := 1#32
  let v3 : BitVec 32 := Scalar.muli arg5 c1_i32_7
  let v4 : BitVec 32 := Scalar.addi c0_i32_8 v3
  let v5 : BitVec 32 := Scalar.addi v0 v4
  let v8 : Index := Scalar.indexCast v5
  let c1 : Index := 1#32
  ![v8.toNat, 1]
def k0_off3 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let c0_i32_8 : BitVec 32 := 0#32
  let c0_i32 : BitVec 32 := 0#32
  let c1_i32 : BitVec 32 := 1#32
  let arg5 : BitVec 32 := Scf.iv c0_i32 c1_i32 k0_t1
  let c1_i32_7 : BitVec 32 := 1#32
  let v3 : BitVec 32 := Scalar.muli arg5 c1_i32_7
  let v4 : BitVec 32 := Scalar.addi c0_i32_8 v3
  let v5 : BitVec 32 := Scalar.addi v0 v4
  let v11 : Index := Scalar.indexCast v5
  let c2 : Index := 2#32
  ![v11.toNat, 2]
def k0_off4 (k0_t1 : Fin k0_t1_loop.trips) : Fin 1 → Nat :=
  let c0_i32_8 : BitVec 32 := 0#32
  let c0_i32 : BitVec 32 := 0#32
  let c1_i32 : BitVec 32 := 1#32
  let arg5 : BitVec 32 := Scf.iv c0_i32 c1_i32 k0_t1
  let c1_i32_7 : BitVec 32 := 1#32
  let v3 : BitVec 32 := Scalar.muli arg5 c1_i32_7
  let v4 : BitVec 32 := Scalar.addi c0_i32_8 v3
  ![v4.toNat]
def k0_off5 (k0_t1 : Fin k0_t1_loop.trips) : Fin 4 → Nat :=
  let c0_i32_8 : BitVec 32 := 0#32
  let c0_i32 : BitVec 32 := 0#32
  let c1_i32 : BitVec 32 := 1#32
  let arg5 : BitVec 32 := Scf.iv c0_i32 c1_i32 k0_t1
  let c1_i32_7 : BitVec 32 := 1#32
  let v3 : BitVec 32 := Scalar.muli arg5 c1_i32_7
  let v4 : BitVec 32 := Scalar.addi c0_i32_8 v3
  let c0_i32_10 : BitVec 32 := 0#32
  let c0_i32_11 : BitVec 32 := 0#32
  let c0_i32_12 : BitVec 32 := 0#32
  ![v4.toNat, 0, 0, 0]
def k0_off6 (v7 : BitVec 32) (v9 : BitVec 32) (v12 : BitVec 32) : Fin 4 → Nat :=
  let c0_i32_13 : BitVec 32 := 0#32
  let c14_i32 : BitVec 32 := 14#32
  let v10 : BitVec 32 := Scalar.muli v9 c14_i32
  let c14_i32_9 : BitVec 32 := 14#32
  let v13 : BitVec 32 := Scalar.muli v12 c14_i32_9
  ![v7.toNat, 0, v10.toNat, v13.toNat]

def k0_chk1 (v7 : BitVec 32) (v9 : BitVec 32) (v12 : BitVec 32) : Prop :=
  (∀ a, (k0_off6 v7 v9 v12) a + S1x128x16x16.size a ≤ S4x128x256x256.size a)
instance k0_chk1.dec : ∀ (v7 : BitVec 32) (v9 : BitVec 32) (v12 : BitVec 32), Decidable (k0_chk1 v7 v9 v12) := fun v7 v9 v12 => decidable_of_iff' _ (Iff.of_eq (k0_chk1.eq_1 v7 v9 v12))
theorem k0_off6_inb : ∀ (v7 : BitVec 32) (v9 : BitVec 32) (v12 : BitVec 32) (k0_hw1 : k0_chk1 v7 v9 v12), ∀ a, (k0_off6 v7 v9 v12) a + S1x128x16x16.size a ≤ S4x128x256x256.size a := fun v7 v9 v12 k0_hw1 => k0_hw1

@[reducible] def k0_t2_loop : Scf.Loop 32 :=
  let c0_i32_3 : BitVec 32 := 0#32
  let c16_i32_4 : BitVec 32 := 16#32
  let v2 : BitVec 32 := Scalar.addi c0_i32_3 c16_i32_4
  let c1_i32_5 : BitVec 32 := 1#32
  ⟨c0_i32_3, v2, c1_i32_5⟩
def k0_off7 (k0_t2 : Fin k0_t2_loop.trips) : Fin 1 → Nat :=
  let c0_i32_8 : BitVec 32 := 0#32
  let c0_i32_3 : BitVec 32 := 0#32
  let c1_i32_5 : BitVec 32 := 1#32
  let arg5 : BitVec 32 := Scf.iv c0_i32_3 c1_i32_5 k0_t2
  let c1_i32_7 : BitVec 32 := 1#32
  let v3 : BitVec 32 := Scalar.muli arg5 c1_i32_7
  let v4 : BitVec 32 := Scalar.addi c0_i32_8 v3
  ![v4.toNat]
def k0_off8 (k0_t2 : Fin k0_t2_loop.trips) : Fin 4 → Nat :=
  let c0_i32_8 : BitVec 32 := 0#32
  let c0_i32_3 : BitVec 32 := 0#32
  let c1_i32_5 : BitVec 32 := 1#32
  let arg5 : BitVec 32 := Scf.iv c0_i32_3 c1_i32_5 k0_t2
  let c1_i32_7 : BitVec 32 := 1#32
  let v3 : BitVec 32 := Scalar.muli arg5 c1_i32_7
  let v4 : BitVec 32 := Scalar.addi c0_i32_8 v3
  let c0_i32_9 : BitVec 32 := 0#32
  let c0_i32_10 : BitVec 32 := 0#32
  let c0_i32_11 : BitVec 32 := 0#32
  ![v4.toNat, 0, 0, 0]
def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x128x16x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

class Facts₀ : Prop where
  numel1_S1x1 : S1x1.numel = 1
  squeezes_S1_S_ : S1.Squeezes S_
  squeezes_S1x128x16x16_S128x16x16 : S1x128x16x16.Squeezes S128x16x16
  inb_S4x128x256x256_S1x128x16x16_0_0_0_0 : ∀ a, (![0, 0, 0, 0] : Fin 4 → Nat) a + S1x128x16x16.size a ≤ S4x128x256x256.size a
  hcc0_scratch0 : 2 + S16.numel ≤ 18
  hrank0 : 0 < grid0.rank
  k0_t1_ok : k0_t1_loop.OK
  k0_off1_inb : ∀ (i : grid0.Coords) (k0_t1 : Fin k0_t1_loop.trips), ∀ a, (k0_off1 i k0_t1) a + S1x1.size a ≤ S2048x3.size a
  k0_off2_inb : ∀ (i : grid0.Coords) (k0_t1 : Fin k0_t1_loop.trips), ∀ a, (k0_off2 i k0_t1) a + S1x1.size a ≤ S2048x3.size a
  k0_off3_inb : ∀ (i : grid0.Coords) (k0_t1 : Fin k0_t1_loop.trips), ∀ a, (k0_off3 i k0_t1) a + S1x1.size a ≤ S2048x3.size a
  k0_off4_inb : ∀ k0_t1 : Fin k0_t1_loop.trips, ∀ a, (k0_off4 k0_t1) a + S1.size a ≤ S16.size a
  k0_off5_inb : ∀ k0_t1 : Fin k0_t1_loop.trips, ∀ a, (k0_off5 k0_t1) a + S1x128x16x16.size a ≤ S16x128x16x16.size a
  k0_t2_ok : k0_t2_loop.OK
  k0_off7_inb : ∀ k0_t2 : Fin k0_t2_loop.trips, ∀ a, (k0_off7 k0_t2) a + S1.size a ≤ S16.size a
  k0_off8_inb : ∀ k0_t2 : Fin k0_t2_loop.trips, ∀ a, (k0_off8 k0_t2) a + S1x128x16x16.size a ≤ S16x128x16x16.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S16x128x16x16.size a ≤ S2048x128x16x16.size a
  hwx0_0 : ∀ i : grid0.Coords, EltTy.bits .f32 = 32 ∨ (Rect.block (s := S2048x128x16x16) S16x128x16x16.size (cc0_transform_1 i) (hinb0_0 i)).WholeWords (EltTy.packing .f32)

variable [Facts₀]

abbrev cc0_scratch0 : DmaSems sig S16 := SemArray.consecutive 2 S16 hcc0_scratch0

abbrev spec0_0 : Pipeline.WinSpec sig grid0.rank :=
  Pipeline.WinSpec.ofSpec (Memref.whole main_v0) S16x128x16x16.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))

class Facts : Prop extends Facts₀ where
  harr0 : ∀ w, (spec0 w).arr.IsWhole

variable [Facts]
-- ==== ReferenceIdeal.lean ====
abbrev S4x128x256x256 : Shape := ⟨4, ![4, 128, 256, 256]⟩
abbrev S2048x3 : Shape := ⟨2, ![2048, 3]⟩
abbrev S2048x1 : Shape := ⟨2, ![2048, 1]⟩
abbrev S2048 : Shape := ⟨1, ![2048]⟩
abbrev S_ : Shape := ⟨0, ![]⟩
abbrev S2048x4 : Shape := ⟨2, ![2048, 4]⟩
abbrev S2048x1x128x16x16 : Shape := ⟨5, ![2048, 1, 128, 16, 16]⟩
abbrev S2048x128x16x16 : Shape := ⟨4, ![2048, 128, 16, 16]⟩

abbrev nBuf : Space → Nat
  | .hbm => 43
  | .vmem => 0
  | .smem => 0
  | _ => 0

abbrev bufTy : (tb : Table) → Fin (tcTables nBuf tb) → BufTy
  | .hbm, ⟨0, _⟩ => ⟨S4x128x256x256, .f32⟩
  | .hbm, ⟨1, _⟩ => ⟨S2048x3, .i32⟩
  | .hbm, ⟨2, _⟩ => ⟨S2048x1, .i32⟩
  | .hbm, ⟨3, _⟩ => ⟨S2048, .i32⟩
  | .hbm, ⟨4, _⟩ => ⟨S2048x1, .i32⟩
  | .hbm, ⟨5, _⟩ => ⟨S2048, .i32⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048x1, .i32⟩
  | .hbm, ⟨10, _⟩ => ⟨S2048, .i32⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S_, .i32⟩
  | .hbm, ⟨29, _⟩ => ⟨S2048, .i32⟩
  | .hbm, ⟨30, _⟩ => ⟨S2048, .i1⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S2048, .i32⟩
  | .hbm, ⟨35, _⟩ => ⟨S2048x1, .i32⟩
  | .hbm, ⟨36, _⟩ => ⟨S_, .i32⟩
  | .hbm, ⟨37, _⟩ => ⟨S2048x1, .i32⟩
  | .hbm, ⟨38, _⟩ => ⟨S2048x1, .i32⟩
  | .hbm, ⟨39, _⟩ => ⟨S2048x1, .i32⟩
  | .hbm, ⟨40, _⟩ => ⟨S2048x4, .i32⟩
  | .hbm, ⟨41, _⟩ => ⟨S2048x1x128x16x16, .f32⟩
  | .hbm, ⟨42, _⟩ => ⟨S2048x128x16x16, .f32⟩
  | _, _ => ⟨S4x128x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_c_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_3 : Ref sig .tc := ⟨.hbm, 21, rfl⟩
abbrev main_v15 : Ref sig .tc := ⟨.hbm, 22, rfl⟩
abbrev main_v16 : Ref sig .tc := ⟨.hbm, 23, rfl⟩
abbrev main_c_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_5 : Ref sig .tc := ⟨.hbm, 28, rfl⟩
abbrev main_v20 : Ref sig .tc := ⟨.hbm, 29, rfl⟩
abbrev main_v21 : Ref sig .tc := ⟨.hbm, 30, rfl⟩
abbrev main_c_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_7 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  slices_S2048x3_S2048x1_0_0 : S2048x3.Slices ![0, 0] S2048x1
  shapeCasts_S2048x1_S2048 : S2048x1.ShapeCasts S2048
  slices_S2048x3_S2048x1_0_1 : S2048x3.Slices ![0, 1] S2048x1
  bcast_S_S2048 : S_.BroadcastsInDim S2048 (![] : Fin 0 → Fin S2048.rank)
  slices_S2048x3_S2048x1_0_2 : S2048x3.Slices ![0, 2] S2048x1
  bcast_S2048_S2048x1_0 : S2048.BroadcastsInDim S2048x1 (![0] : Fin 1 → Fin S2048x1.rank)
  bcast_S_S2048x1 : S_.BroadcastsInDim S2048x1 (![] : Fin 0 → Fin S2048x1.rank)
  concatenates_S2048x1_S2048x1_S2048x1_S2048x1_S2048x4_d1 : Shape.Concatenates [S2048x1, S2048x1, S2048x1, S2048x1] S2048x4 1
  shapeCasts_S2048x1x128x16x16_S2048x128x16x16 : S2048x1x128x16x16.ShapeCasts S2048x128x16x16
  gather_S4x128x256x256_S2048x4_S2048x1x128x16x16_1234_n_n_n_0123_1_11281616_wf : GatherDims.WF S4x128x256x256 S2048x4 S2048x1x128x16x16 [1, 2, 3, 4] [] [] [0, 1, 2, 3] [] 1 ![1, 128, 16, 16]

variable [Facts₀]

def gather_S4x128x256x256_S2048x4_S2048x1x128x16x16_1234_n_n_n_0123_1_11281616 : GatherDims S4x128x256x256 S2048x4 S2048x1x128x16x16 where
  offsetDims := [1, 2, 3, 4]
  collapsedSliceDims := []
  operandBatchingDims := []
  startIndicesBatchingDims := []
  startIndexMap := [0, 1, 2, 3]
  indexVectorDim := 1
  sliceSizes := ![1, 128, 16, 16]
  wf := gather_S4x128x256x256_S2048x4_S2048x1x128x16x16_1234_n_n_n_0123_1_11281616_wf

class Facts : Prop extends Facts₀ where

variable [Facts]
-- ==== Proof.PatchSpec.lean ====
/-
  The specification both programs meet. Row n of the index table names a batch entry b and a block position
  (h, w); the result's patch n is the 128 × 16 × 16 window of entry b of the input whose top-left corner is
  (14·h, 14·w):  out[n, c, i, j] = input[b_n, c, 14·h_n + i, 14·w_n + j].
  A row is IN RANGE when 0 ≤ b < 4 and 0 ≤ h, w < 18, so that the window lies inside the 256 × 256 plane
  (14·17 + 16 = 254 ≤ 256). The source index is made total by reducing each coordinate modulo its extent;
  on an in-range row the reductions are the identity.
-/
import Idealize.ShloMosaic.Lib.ValueIdx

namespace Cert.PatchSpec

open Idealize.ShloMosaic Idealize.ShloMosaic.ValueIdx

/-- The input, the index table, the result, and one grid step's block of sixteen patches. -/
abbrev SX : Shape := ⟨4, ![4, 128, 256, 256]⟩
abbrev ST : Shape := ⟨2, ![2048, 3]⟩
abbrev SO : Shape := ⟨4, ![2048, 128, 16, 16]⟩
abbrev SB : Shape := ⟨4, ![16, 128, 16, 16]⟩

/-- Column k of row n of the table. -/
abbrev col (tbl : ST.Idx → BitVec 32) (n : Fin 2048) (k : Fin 3) : BitVec 32 := tbl (ix2 n k)

/-- Row n is in range: its batch entry below 4, its block row and block column below 18 (as unsigned words). -/
def RowOk (tbl : ST.Idx → BitVec 32) (n : Fin 2048) : Prop :=
  (col tbl n 0).toNat < 4 ∧ (col tbl n 1).toNat < 18 ∧ (col tbl n 2).toNat < 18

/-- Every row is in range. -/
def TableOk (tbl : ST.Idx → BitVec 32) : Prop := ∀ n, RowOk tbl n

/-- The pixel offset of a block position: the word times 14, as the machine multiplies (modulo 2^32). -/
abbrev off14 (w : BitVec 32) : Nat := (w * 14#32).toNat

/-- On a block position below 18 the offset is 14 times it, at most 238. -/
theorem off14_eq (w : BitVec 32) (h : w.toNat < 18) : off14 w = 14 * w.toNat := by
  unfold off14
  rw [BitVec.toNat_mul]
  have : (14#32 : BitVec 32).toNat = 14 := rfl
  rw [this, Nat.mod_eq_of_lt (by omega)]; omega

/-- Where entry (n, c, i, j) of the result comes from in the input. -/
def src (tbl : ST.Idx → BitVec 32) (n : Fin 2048) (c : Fin 128) (i j : Fin 16) : SX.Idx :=
  ix4 (⟨(col tbl n 0).toNat % 4, Nat.mod_lt _ (by decide)⟩ : Fin 4) c
    (⟨(off14 (col tbl n 1) + i.val) % 256, Nat.mod_lt _ (by decide)⟩ : Fin 256)
    (⟨(off14 (col tbl n 2) + j.val) % 256, Nat.mod_lt _ (by decide)⟩ : Fin 256)

/-- The result as ONE function of the input and the table. -/
def G {α : Type} (x : SX.Idx → α) (tbl : ST.Idx → BitVec 32) : SO.Idx → α :=
  fun o => x (src tbl (o 0) (o 1) (o 2) (o 3))

/-- Grid step t's block: patches 16·t … 16·t + 15. -/
def blockOf {α : Type} (x : SX.Idx → α) (tbl : ST.Idx → BitVec 32) (t : Fin 128) : SB.Idx → α :=
  fun y => x (src tbl ⟨16 * t.val + (y 0).val, by have h0 : (y 0).val < 16 := (y 0).isLt; have := t.isLt; show _ < 2048; omega⟩ (y 1) (y 2) (y 3))

/-- On an in-range row the source coordinates are the plain sums. -/
theorem src_val (tbl : ST.Idx → BitVec 32) (n : Fin 2048) (h : RowOk tbl n) (c : Fin 128) (i j : Fin 16) :
    ((src tbl n c i j) 0).val = (col tbl n 0).toNat ∧ ((src tbl n c i j) 1).val = c.val
      ∧ ((src tbl n c i j) 2).val = 14 * (col tbl n 1).toNat + i.val
      ∧ ((src tbl n c i j) 3).val = 14 * (col tbl n 2).toNat + j.val := by
  obtain ⟨h0, h1, h2⟩ := h
  have hi := i.isLt; have hj := j.isLt
  refine ⟨?_, rfl, ?_, ?_⟩
  · show (col tbl n 0).toNat % 4 = _; exact Nat.mod_eq_of_lt h0
  · show (off14 (col tbl n 1) + i.val) % 256 = _; rw [off14_eq _ h1, Nat.mod_eq_of_lt (by omega)]
  · show (off14 (col tbl n 2) + j.val) % 256 = _; rw [off14_eq _ h2, Nat.mod_eq_of_lt (by omega)]

end Cert.PatchSpec
-- ==== Proof.PreDecode.lean ====
/-
  The precondition decoded. The printed precondition is one bit per row n of the index table: the conjunction of
  "every entry of the input is finite" with six signed comparisons, 0 ≤ c and c < N for each of the three columns of
  the row (N = 4, 18, 18). When the bit is 1 on every row, every row is in range in the specification's sense:
  a 32-bit word that is non-negative as a signed number is below 2^31 as an unsigned one, and on such words the signed
  and the unsigned order agree, so 0 ≤ c < N signed gives c < N unsigned.
-/
import proofs.«427366_j67594195304879_1_alg».proof.Pre_finite_inputs
import proofs.«427366_j67594195304879_1_alg».proof.Proof.Gen.Pre_finite_inputs
import proofs.«427366_j67594195304879_1_alg».proof.Proof.PatchSpec
import Idealize.ShloMosaic.Lib.Pipeline.Value
import Idealize.ShloMosaic.Lib.StableHlo.Predicate

namespace Cert.PreDecode

open Idealize.ShloMosaic Idealize.ShloMosaic.ValueIdx
open Cert.Pre_finite_inputs

/-! ## Words -/

/-- The conjunction of two bits is 1 exactly when both are. -/
theorem andi_eq_one : ∀ (a b : BitVec 1), IntOp.andi a b = 1#1 ↔ a = 1#1 ∧ b = 1#1 := by decide

/-- A word that is non-negative as a signed number is below 2^31 as an unsigned one: its sign bit is clear. -/
theorem toNat_lt_of_sge_zero (w : BitVec 32) (h : IntOp.cmpi .sge w 0#32 = 1#1) : w.toNat < 2 ^ 31 := by
  have hb : (0#32 : BitVec 32).sle w = true := (StableHlo.Predicate.ofBool_eq_one_iff _).mp h
  have hi : (0#32 : BitVec 32).toInt ≤ w.toInt := of_decide_eq_true hb
  have hz : (0#32 : BitVec 32).toInt = 0 := by decide
  have hlt := w.isLt
  rw [hz, BitVec.toInt_eq_toNat_cond] at hi
  split at hi
  · omega
  · omega

/-- A word in [0, N) as a signed number is below N as an unsigned one. -/
theorem toNat_lt_of_signed_range (w : BitVec 32) (N : Nat) (hN : N < 2 ^ 31)
    (h0 : IntOp.cmpi .sge w 0#32 = 1#1) (h1 : IntOp.cmpi .slt w (BitVec.ofNat 32 N) = 1#1) : w.toNat < N := by
  have hw : w.toNat < 2 ^ 31 := toNat_lt_of_sge_zero w h0
  have hb : (BitVec.ofNat 32 N).toNat = N := by
    rw [BitVec.toNat_ofNat]; exact Nat.mod_eq_of_lt (by omega)
  have hlt := (StableHlo.Predicate.slt_iff_toNat hw (by rw [hb]; exact hN)).mp h1
  rw [hb] at hlt
  exact hlt

/-! ## Reading a column -/

/-- Column k of the table, cut out as the [2048, 1] block at offsets (0, k) and flattened to [2048], read at row n, is
    the table's entry (n, k): the flattening keeps the row-major position n·1 + 0 = n, and the block's entry (n, 0) is
    the table's entry (0 + n, k + 0). -/
theorem col_read (x1 : IVec S2048x3 32) (off : Fin 2 → Nat) (k : Fin 3) (h0 : off 0 = 0) (h1 : off 1 = k.val)
    (hs : S2048x3.Slices off S2048x1) (hc : S2048x1.ShapeCasts S2048) (n : Fin 2048) :
    shapeCast S2048 (extractStridedSlice S2048x1 off x1 hs) hc (ix1 n) = x1 (ix2 n k) := by
  have hpos : (S2048x1.rowMajor (ix2 n (0 : Fin 1))).val = (S2048.rowMajor (ix1 n)).val := by
    rw [Shape.rowMajor_val_two, Shape.rowMajor_val_one]
    show n.val * 1 + 0 = n.val
    omega
  rw [shapeCast_apply _ hc (ix1 n) (ix2 n (0 : Fin 1)) hpos]
  refine extractStridedSlice_apply off x1 hs (ix2 n (0 : Fin 1)) (ix2 n k) (fun a => ?_)
  match a with
  | ⟨0, _⟩ => show n.val = off 0 + n.val; rw [h0]; omega
  | ⟨1, _⟩ => show k.val = off 1 + 0; rw [h1]; omega

/-! ## The precondition at a row -/

/-- When the printed precondition holds (its bit is 1 on every row), every row of the table is in range. -/
theorem tableOk_of_pre {F : FTy → Type} [FloatOps F] [Cert.Pre_finite_inputs.Facts]
    (x0 : FVec F Cert.Pre_finite_inputs.S4x128x256x256 .f32) (x1 : IVec Cert.Pre_finite_inputs.S2048x3 32)
    (h : Cert.Pre_finite_inputs.fn (F := F) x0 x1 = (fun _ => 1#1)) :
    Cert.PatchSpec.TableOk x1 := by
  intro n
  have e := congrFun h (ix1 n)
  unfold Cert.Pre_finite_inputs.fn Cert.Pre_finite_inputs.fn_part1 at e
  simp only [andi, cmpi, broadcastInDim, constantI] at e
  simp only [andi_eq_one] at e
  obtain ⟨⟨⟨⟨⟨⟨-, g0⟩, l0⟩, g1⟩, l1⟩, g2⟩, l2⟩ := e
  have r0 := toNat_lt_of_signed_range _ 4 (by decide) g0 l0
  have r1 := toNat_lt_of_signed_range _ 18 (by decide) g1 l1
  have r2 := toNat_lt_of_signed_range _ 18 (by decide) g2 l2
  rw [col_read x1 _ 0 rfl rfl] at r0
  rw [col_read x1 _ 1 rfl rfl] at r1
  rw [col_read x1 _ 2 rfl rfl] at r2
  exact ⟨r0, r1, r2⟩

end Cert.PreDecode
-- ==== Proof.LibPatchGather.lean ====
/-
  Two layout operations of a patch gather read at an index, at any extents, and the words beside them.

  (1) FOUR ONE-COLUMN TABLES JOINED ALONG AXIS 1. Four tables of shape [R, 1] concatenated along axis 1 give a table
      [R, 4] whose column k at row n is piece k at row n.

  (2) A GATHER OF WINDOWS out of a rank-4 array. The operand is [N0, N1, N2, N3], the start indices are a table
      [R, 4] whose row n names one corner (all four operand axes are start-indexed, none collapsed, none batching, the
      index vector on axis 1), and the result is [R, z0, z1, z2, z3]: its leading axis runs over the rows of the table and
      its four trailing axes are the offsets inside a window of extents (z0, z1, z2, z3). Element (n, o0, o1, o2, o3) is the
      operand at, on each axis a, the start index of row n for that axis (read signed and clamped into
      [0, N_a − z_a], so that the window fits) plus the offset o_a.

  (3) WORDS. A word below 2^31 is not negative: the select that replaces negative words keeps it, and read as a signed
      integer it is its unsigned value.

  Nothing here names a program; the statements may be reused wherever a gather of this shape is read.
-/
import Idealize.ShloMosaic.Lib.ValueIdx
import Idealize.ShloMosaic.Lib.Pipeline.Value
import Idealize.ShloMosaic.Lib.StableHlo.Predicate

namespace Cert.LibPatchGather

open Idealize.ShloMosaic Idealize.ShloMosaic.ValueIdx

/-! ## Four one-column tables joined along axis 1 -/

section Concat
variable {α : Type} {R : Nat}

/-- The four pieces with their shapes, in order. -/
abbrev pieces4 (c0 c1 c2 c3 : (⟨2, ![R, 1]⟩ : Shape).Idx → α) : List ((s : Shape) × (s.Idx → α)) :=
  [⟨⟨2, ![R, 1]⟩, c0⟩, ⟨⟨2, ![R, 1]⟩, c1⟩, ⟨⟨2, ![R, 1]⟩, c2⟩, ⟨⟨2, ![R, 1]⟩, c3⟩]

/-- Column k (k = 0, 1, 2, 3) of the joined table at row n is piece k at row n: the pieces before it fill k columns. -/
theorem concat4_col (c0 c1 c2 c3 : (⟨2, ![R, 1]⟩ : Shape).Idx → α)
    (h : Shape.Concatenates ((pieces4 c0 c1 c2 c3).map (·.1)) ⟨2, ![R, 4]⟩ 1) (n : Fin R)
    (k : Nat) (hk : k < 4) (ck : (⟨2, ![R, 1]⟩ : Shape).Idx → α)
    (hck : (pieces4 c0 c1 c2 c3)[k]'hk = ⟨⟨2, ![R, 1]⟩, ck⟩) :
    concatenate ⟨2, ![R, 4]⟩ 1 (pieces4 c0 c1 c2 c3) h (ix2 n ⟨k, hk⟩) = ck (ix2 n 0) := by
  refine concatenate_apply_piece (1 : Fin 2) (pieces4 c0 c1 c2 c3) h (ix2 n ⟨k, hk⟩) k hk ⟨2, ![R, 1]⟩ ck hck rfl k ?_
    (ix2 n 0) ?_ ?_
  · -- each earlier piece is one column wide
    have h4 : k = 0 ∨ k = 1 ∨ k = 2 ∨ k = 3 := by omega
    rcases h4 with rfl | rfl | rfl | rfl <;> rfl
  · intro b hb
    match b with
    | ⟨0, _⟩ => rfl
    | ⟨1, _⟩ => exact absurd rfl hb
  · show k + 0 = k
    rfl

/-- Column 0 of the joined table is the first piece. -/
theorem concat4_col0 (c0 c1 c2 c3 : (⟨2, ![R, 1]⟩ : Shape).Idx → α)
    (h : Shape.Concatenates ((pieces4 c0 c1 c2 c3).map (·.1)) ⟨2, ![R, 4]⟩ 1) (n : Fin R) :
    concatenate ⟨2, ![R, 4]⟩ 1 (pieces4 c0 c1 c2 c3) h (ix2 n 0) = c0 (ix2 n 0) :=
  concat4_col c0 c1 c2 c3 h n 0 (by decide) c0 rfl

/-- Column 1 of the joined table is the second piece. -/
theorem concat4_col1 (c0 c1 c2 c3 : (⟨2, ![R, 1]⟩ : Shape).Idx → α)
    (h : Shape.Concatenates ((pieces4 c0 c1 c2 c3).map (·.1)) ⟨2, ![R, 4]⟩ 1) (n : Fin R) :
    concatenate ⟨2, ![R, 4]⟩ 1 (pieces4 c0 c1 c2 c3) h (ix2 n 1) = c1 (ix2 n 0) :=
  concat4_col c0 c1 c2 c3 h n 1 (by decide) c1 rfl

/-- Column 2 of the joined table is the third piece. -/
theorem concat4_col2 (c0 c1 c2 c3 : (⟨2, ![R, 1]⟩ : Shape).Idx → α)
    (h : Shape.Concatenates ((pieces4 c0 c1 c2 c3).map (·.1)) ⟨2, ![R, 4]⟩ 1) (n : Fin R) :
    concatenate ⟨2, ![R, 4]⟩ 1 (pieces4 c0 c1 c2 c3) h (ix2 n 2) = c2 (ix2 n 0) :=
  concat4_col c0 c1 c2 c3 h n 2 (by decide) c2 rfl

/-- Column 3 of the joined table is the fourth piece. -/
theorem concat4_col3 (c0 c1 c2 c3 : (⟨2, ![R, 1]⟩ : Shape).Idx → α)
    (h : Shape.Concatenates ((pieces4 c0 c1 c2 c3).map (·.1)) ⟨2, ![R, 4]⟩ 1) (n : Fin R) :
    concatenate ⟨2, ![R, 4]⟩ 1 (pieces4 c0 c1 c2 c3) h (ix2 n 3) = c3 (ix2 n 0) :=
  concat4_col c0 c1 c2 c3 h n 3 (by decide) c3 rfl

end Concat

/-! ## The gather of windows -/

section Gather
variable {α : Type} {N0 N1 N2 N3 R z0 z1 z2 z3 w : Nat}

/-- On a start-indexed axis the start of the slice is the start index's component, read signed and clamped. -/
theorem start_of_mem {s si t : Shape} (d : GatherDims s si t) (j : t.Idx) (idx : IVec si w) (a : Fin s.rank)
    (ha : a ∈ d.startIndexMap) :
    d.start j idx a
      = min (idx (d.siIdx j ⟨d.startIndexMap.idxOf a, List.idxOf_lt_length_iff.2 ha⟩)).toInt.toNat (s.size a - d.sliceSizes a) := by
  unfold GatherDims.start
  rw [dif_pos ha]

/-- THE GATHER READ AT (n, o0, o1, o2, o3): the operand at the index whose coordinate on each axis is the clamped start
    index of row n for that axis plus the offset. The hypotheses on `d` fix its dimension numbers; the operand index is
    given by its four coordinates. -/
theorem gather_patch_apply
    (d : GatherDims ⟨4, ![N0, N1, N2, N3]⟩ ⟨2, ![R, 4]⟩ ⟨5, ![R, z0, z1, z2, z3]⟩)
    (hoff : d.offsetDims = [1, 2, 3, 4]) (hcoll : d.collapsedSliceDims = []) (hob : d.operandBatchingDims = [])
    (hsim : d.startIndexMap = [0, 1, 2, 3]) (hivd : d.indexVectorDim = 1) (hss : d.sliceSizes = ![z0, z1, z2, z3])
    (x : (⟨4, ![N0, N1, N2, N3]⟩ : Shape).Idx → α) (idx : IVec ⟨2, ![R, 4]⟩ w)
    (n : Fin R) (o0 : Fin z0) (o1 : Fin z1) (o2 : Fin z2) (o3 : Fin z3)
    (i : (⟨4, ![N0, N1, N2, N3]⟩ : Shape).Idx)
    (h0 : (i 0).val = min (idx (ix2 n 0)).toInt.toNat (N0 - z0) + o0.val)
    (h1 : (i 1).val = min (idx (ix2 n 1)).toInt.toNat (N1 - z1) + o1.val)
    (h2 : (i 2).val = min (idx (ix2 n 2)).toInt.toNat (N2 - z2) + o2.val)
    (h3 : (i 3).val = min (idx (ix2 n 3)).toInt.toNat (N3 - z3) + o3.val) :
    Host.gather d x idx (ix5 n o0 o1 o2 o3) = x i := by
  obtain ⟨od, cd, ob, sb, sm, iv, ss, wf⟩ := d
  simp only at hoff hcoll hob hsim hivd hss
  subst hoff hcoll hob hsim hivd hss
  unfold Host.gather
  congr 1
  funext a
  apply Fin.ext
  let D : GatherDims (⟨4, ![N0, N1, N2, N3]⟩ : Shape) ⟨2, ![R, 4]⟩ ⟨5, ![R, z0, z1, z2, z3]⟩ :=
    ⟨[1, 2, 3, 4], [], [], sb, [0, 1, 2, 3], 1, ![z0, z1, z2, z3], wf⟩
  -- the start-indices index of component c for row n is (n, c)
  have hsi : ∀ c : Fin 4, D.siIdx (ix5 n o0 o1 o2 o3) c = ix2 n c := by
    intro c
    funext b
    apply Fin.ext
    match b with
    | ⟨0, _⟩ => rfl
    | ⟨1, _⟩ => rfl
  -- no operand axis is a batching axis
  have hbc : ∀ a, D.batchCoord (ix5 n o0 o1 o2 o3) a = 0 := fun a =>
    GatherDims.batchCoord_eq_zero D _ a List.not_mem_nil
  match a with
  | ⟨0, _⟩ =>
    refine Eq.trans ?_ h0.symm
    show D.start (ix5 n o0 o1 o2 o3) idx 0 + D.batchCoord (ix5 n o0 o1 o2 o3) 0 + D.offCoord (ix5 n o0 o1 o2 o3) 0 = _
    rw [hbc, Nat.add_zero, start_of_mem D _ idx 0 (List.Mem.head _), hsi]
    rfl
  | ⟨1, _⟩ =>
    refine Eq.trans ?_ h1.symm
    show D.start (ix5 n o0 o1 o2 o3) idx 1 + D.batchCoord (ix5 n o0 o1 o2 o3) 1 + D.offCoord (ix5 n o0 o1 o2 o3) 1 = _
    rw [hbc, Nat.add_zero, start_of_mem D _ idx 1 (List.Mem.tail _ (List.Mem.head _)), hsi]
    rfl
  | ⟨2, _⟩ =>
    refine Eq.trans ?_ h2.symm
    show D.start (ix5 n o0 o1 o2 o3) idx 2 + D.batchCoord (ix5 n o0 o1 o2 o3) 2 + D.offCoord (ix5 n o0 o1 o2 o3) 2 = _
    rw [hbc, Nat.add_zero, start_of_mem D _ idx 2 (List.Mem.tail _ (List.Mem.tail _ (List.Mem.head _))), hsi]
    rfl
  | ⟨3, _⟩ =>
    refine Eq.trans ?_ h3.symm
    show D.start (ix5 n o0 o1 o2 o3) idx 3 + D.batchCoord (ix5 n o0 o1 o2 o3) 3 + D.offCoord (ix5 n o0 o1 o2 o3) 3 = _
    rw [hbc, Nat.add_zero, start_of_mem D _ idx 3 (List.Mem.tail _ (List.Mem.tail _ (List.Mem.tail _ (List.Mem.head _)))), hsi]
    rfl

end Gather

/-! ## Words below 2^31 -/

/-- A word below 2^31 is not negative: a select on "the word is negative" takes its second branch. -/
theorem select_slt_zero_of_lt {α : Type} (v : BitVec 32) (a b : α) (hv : v.toNat < 2 ^ 31) :
    Scalar.select (IntOp.cmpi .slt v 0#32) a b = b := by
  have hne : ¬ IntOp.cmpi .slt v 0#32 = 1#1 := by
    rw [StableHlo.Predicate.slt_iff_toNat hv (by decide)]
    exact Nat.not_lt_zero _
  exact if_neg hne

/-- A word below 2^31 read as a signed integer is its unsigned value. -/
theorem toInt_toNat_of_lt (v : BitVec 32) (hv : v.toNat < 2 ^ 31) : v.toInt.toNat = v.toNat := by
  rw [StableHlo.Predicate.toInt_eq_toNat_of_lt hv]
  exact Int.toNat_natCast _

end Cert.LibPatchGather
-- ==== Proof.RefValue.lean ====
/-
  The reference's run read back: its result array is the specification's function of the input and the table
  when every row of the table is in range.

  The reference slices the table's three columns (batch word b, block row h, block column w), multiplies h and w
  by 14, wraps each of the three words as a negative index would be wrapped (add the axis's extent when the word is
  negative), joins (b, 0, 14·h, 14·w) into a table of start indices [2048, 4] and gathers, for each row, the window
  of extents (1, 128, 16, 16) at that corner; a final reshape drops the unit axis. On an in-range row (b < 4,
  h, w < 18) no word is negative, 14·h and 14·w do not wrap, and the gather's clamp of each start index into
  [0, extent − window extent] = ([0, 3], [0, 0], [0, 240], [0, 240]) is the identity (14·17 = 238 ≤ 240); so
  element (n, c, i, j) is the input at (b_n, c, 14·h_n + i, 14·w_n + j), the specification's source index.
-/
import proofs.«427366_j67594195304879_1_alg».proof.Proof.Gen.ReferenceIdeal.Run
import proofs.«427366_j67594195304879_1_alg».proof.Proof.Gen.ReferenceIdeal.Read
import proofs.«427366_j67594195304879_1_alg».proof.Proof.PatchSpec
import proofs.«427366_j67594195304879_1_alg».proof.Proof.LibPatchGather

noncomputable section

namespace Cert.ReferenceIdeal.RefValue

open Cert.ReferenceIdeal Cert.ReferenceIdeal.Gen Cert.ReferenceIdeal.Read Idealize.ShloMosaic Idealize.ShloMosaic.ValueIdx
open Cert.PatchSpec Cert.LibPatchGather

variable {F : FTy → Type} [FloatOps F]

/-! ## The table's three columns as vectors -/

/-- The first column read as a vector is the batch word of each row. -/
theorem v1_at (x1 : (⟨S2048x3, .i32⟩ : BufTy).Contents (Elt F)) (n : Fin 2048) :
    val_main_v1 (F := F) x1 (ix1 n) = col x1 n 0 := by
  rw [val_main_v1_apply, val_main_v0_apply]
  refine congrArg x1 ?_
  funext a
  match a with
  | ⟨0, _⟩ => exact Fin.ext (Nat.div_one _)
  | ⟨1, _⟩ => rfl

/-- The second column read as a vector is the block row of each row. -/
theorem v3_at (x1 : (⟨S2048x3, .i32⟩ : BufTy).Contents (Elt F)) (n : Fin 2048) :
    val_main_v3 (F := F) x1 (ix1 n) = col x1 n 1 := by
  rw [val_main_v3_apply, val_main_v2_apply]
  refine congrArg x1 ?_
  funext a
  match a with
  | ⟨0, _⟩ => exact Fin.ext (Nat.div_one _)
  | ⟨1, _⟩ => rfl

/-- The third column read as a vector is the block column of each row. -/
theorem v7_at (x1 : (⟨S2048x3, .i32⟩ : BufTy).Contents (Elt F)) (n : Fin 2048) :
    val_main_v7 (F := F) x1 (ix1 n) = col x1 n 2 := by
  rw [val_main_v7_apply, val_main_v6_apply]
  refine congrArg x1 ?_
  funext a
  match a with
  | ⟨0, _⟩ => exact Fin.ext (Nat.div_one _)
  | ⟨1, _⟩ => rfl

/-- The block row times 14, as a word. -/
theorem v5_at (x1 : (⟨S2048x3, .i32⟩ : BufTy).Contents (Elt F)) (n : Fin 2048) :
    val_main_v5 (F := F) x1 (ix1 n) = col x1 n 1 * 14#32 := by
  rw [val_main_v5_apply, v3_at, val_main_v4_apply, val_main_c_apply]
  rfl

/-- The block column times 14, as a word. -/
theorem v9_at (x1 : (⟨S2048x3, .i32⟩ : BufTy).Contents (Elt F)) (n : Fin 2048) :
    val_main_v9 (F := F) x1 (ix1 n) = col x1 n 2 * 14#32 := by
  rw [val_main_v9_apply, v7_at, val_main_v8_apply, val_main_c_0_apply]
  rfl

/-! ## The wrap of negative indices leaves a word below 2^31 alone -/

/-- The batch word after the wrap "add 4 when negative". -/
theorem v14_at (x1 : (⟨S2048x3, .i32⟩ : BufTy).Contents (Elt F)) (n : Fin 2048) (h : (col x1 n 0).toNat < 2 ^ 31) :
    val_main_v14 (F := F) x1 (ix1 n) = col x1 n 0 := by
  rw [val_main_v14_apply, val_main_v11_apply, v1_at, val_main_v10_apply, val_main_c_1_apply]
  exact select_slt_zero_of_lt _ _ _ h

/-- The row offset after the wrap "add 256 when negative". -/
theorem v19_at (x1 : (⟨S2048x3, .i32⟩ : BufTy).Contents (Elt F)) (n : Fin 2048) (h : (col x1 n 1 * 14#32).toNat < 2 ^ 31) :
    val_main_v19 (F := F) x1 (ix1 n) = col x1 n 1 * 14#32 := by
  rw [val_main_v19_apply, val_main_v16_apply, v5_at, val_main_v15_apply, val_main_c_3_apply]
  exact select_slt_zero_of_lt _ _ _ h

/-- The column offset after the wrap "add 256 when negative". -/
theorem v24_at (x1 : (⟨S2048x3, .i32⟩ : BufTy).Contents (Elt F)) (n : Fin 2048) (h : (col x1 n 2 * 14#32).toNat < 2 ^ 31) :
    val_main_v24 (F := F) x1 (ix1 n) = col x1 n 2 * 14#32 := by
  rw [val_main_v24_apply, val_main_v21_apply, v9_at, val_main_v20_apply, val_main_c_5_apply]
  exact select_slt_zero_of_lt _ _ _ h

/-! ## The start-index table, column by column -/

/-- Column 0 of the start-index table: the batch word. -/
theorem v29_col0 (x1 : (⟨S2048x3, .i32⟩ : BufTy).Contents (Elt F)) (n : Fin 2048) (h : (col x1 n 0).toNat < 2 ^ 31) :
    val_main_v29 (F := F) x1 (ix2 n 0) = col x1 n 0 := by
  unfold val_main_v29
  refine (concat4_col0 _ _ _ _ _ n).trans ?_
  rw [val_main_v25_apply]
  have e : idx_main_v25 (ix2 n (0 : Fin 1)) = ix1 n := by
    funext a
    match a with
    | ⟨0, _⟩ => rfl
  rw [e]
  exact v14_at x1 n h

/-- Column 1 of the start-index table: zero (the window takes every channel). -/
theorem v29_col1 (x1 : (⟨S2048x3, .i32⟩ : BufTy).Contents (Elt F)) (n : Fin 2048) :
    val_main_v29 (F := F) x1 (ix2 n 1) = 0#32 := by
  unfold val_main_v29
  refine (concat4_col1 _ _ _ _ _ n).trans ?_
  rw [val_main_v26_apply, val_main_c_7_apply]

/-- Column 2 of the start-index table: the row offset. -/
theorem v29_col2 (x1 : (⟨S2048x3, .i32⟩ : BufTy).Contents (Elt F)) (n : Fin 2048) (h : (col x1 n 1 * 14#32).toNat < 2 ^ 31) :
    val_main_v29 (F := F) x1 (ix2 n 2) = col x1 n 1 * 14#32 := by
  unfold val_main_v29
  refine (concat4_col2 _ _ _ _ _ n).trans ?_
  rw [val_main_v27_apply]
  have e : idx_main_v27 (ix2 n (0 : Fin 1)) = ix1 n := by
    funext a
    match a with
    | ⟨0, _⟩ => rfl
  rw [e]
  exact v19_at x1 n h

/-- Column 3 of the start-index table: the column offset. -/
theorem v29_col3 (x1 : (⟨S2048x3, .i32⟩ : BufTy).Contents (Elt F)) (n : Fin 2048) (h : (col x1 n 2 * 14#32).toNat < 2 ^ 31) :
    val_main_v29 (F := F) x1 (ix2 n 3) = col x1 n 2 * 14#32 := by
  unfold val_main_v29
  refine (concat4_col3 _ _ _ _ _ n).trans ?_
  rw [val_main_v28_apply]
  have e : idx_main_v28 (ix2 n (0 : Fin 1)) = ix1 n := by
    funext a
    match a with
    | ⟨0, _⟩ => rfl
  rw [e]
  exact v24_at x1 n h

/-! ## The gather at an in-range row -/

/-- On an in-range row every clamp is the identity (3 = 4 − 1, 0 = 128 − 128, 238 ≤ 240 = 256 − 16), so the gathered
    element (n, 0, c, i, j) is the input at the specification's source index. -/
theorem v30_at (x0 : (⟨S4x128x256x256, .f32⟩ : BufTy).Contents (Elt F)) (x1 : (⟨S2048x3, .i32⟩ : BufTy).Contents (Elt F))
    (n : Fin 2048) (c : Fin 128) (i j : Fin 16) (hrow : RowOk x1 n) :
    val_main_v30 (F := F) x0 x1 (ix5 n (0 : Fin 1) c i j) = x0 (src x1 n c i j) := by
  obtain ⟨s0, s1, s2, s3⟩ := src_val x1 n hrow c i j
  obtain ⟨hb, hh, hw⟩ := hrow
  have eh : (col x1 n 1 * 14#32).toNat = 14 * (col x1 n 1).toNat := off14_eq _ hh
  have ew : (col x1 n 2 * 14#32).toNat = 14 * (col x1 n 2).toNat := off14_eq _ hw
  have e0 : (val_main_v29 (F := F) x1 (ix2 n 0)).toInt.toNat = (col x1 n 0).toNat := by
    rw [v29_col0 x1 n (by omega)]
    exact toInt_toNat_of_lt _ (by omega)
  have e1 : (val_main_v29 (F := F) x1 (ix2 n 1)).toInt.toNat = 0 := by
    rw [v29_col1 x1 n]
    rfl
  have e2 : (val_main_v29 (F := F) x1 (ix2 n 2)).toInt.toNat = 14 * (col x1 n 1).toNat := by
    rw [v29_col2 x1 n (by omega), toInt_toNat_of_lt _ (by omega), eh]
  have e3 : (val_main_v29 (F := F) x1 (ix2 n 3)).toInt.toNat = 14 * (col x1 n 2).toNat := by
    rw [v29_col3 x1 n (by omega), toInt_toNat_of_lt _ (by omega), ew]
  have hi := i.isLt
  have hj := j.isLt
  unfold val_main_v30
  refine gather_patch_apply _ rfl rfl rfl rfl rfl rfl x0 _ n (0 : Fin 1) c i j (src x1 n c i j) ?_ ?_ ?_ ?_
  · refine s0.trans ?_
    rw [e0]
    show _ = min _ (4 - 1) + 0
    omega
  · refine s1.trans ?_
    rw [e1]
    show _ = min 0 (128 - 128) + c.val
    omega
  · refine s2.trans ?_
    rw [e2]
    show _ = min _ (256 - 16) + i.val
    omega
  · refine s3.trans ?_
    rw [e3]
    show _ = min _ (256 - 16) + j.val
    omega

/-! ## The result -/

/-- Dropping the unit axis: result index (n, c, i, j) reads the gathered array at (n, 0, c, i, j). -/
theorem idx31_eq (o : S2048x128x16x16.Idx) :
    idx_main_v31 o = ix5 (o 0 : Fin 2048) (0 : Fin 1) (o 1 : Fin 128) (o 2 : Fin 16) (o 3 : Fin 16) := by
  have h0 : (o 0).val < 2048 := (o 0).isLt
  have h1 : (o 1).val < 128 := (o 1).isLt
  have h2 : (o 2).val < 16 := (o 2).isLt
  have h3 : (o 3).val < 16 := (o 3).isLt
  funext a
  match a with
  | ⟨0, _⟩ =>
    refine Fin.ext ?_
    show ((((o 0).val * 128 + (o 1).val) * 16 + (o 2).val) * 16 + (o 3).val) / 32768 = (o 0).val
    omega
  | ⟨1, _⟩ => rfl
  | ⟨2, _⟩ =>
    refine Fin.ext ?_
    show ((((o 0).val * 128 + (o 1).val) * 16 + (o 2).val) * 16 + (o 3).val) / 256 % 128 = (o 1).val
    omega
  | ⟨3, _⟩ =>
    refine Fin.ext ?_
    show ((((o 0).val * 128 + (o 1).val) * 16 + (o 2).val) * 16 + (o 3).val) / 16 % 16 = (o 2).val
    omega
  | ⟨4, _⟩ =>
    refine Fin.ext ?_
    show ((((o 0).val * 128 + (o 1).val) * 16 + (o 2).val) * 16 + (o 3).val) % 16 = (o 3).val
    omega

/-- THE REFERENCE'S RESULT on an in-range table is the specification's function of the input and the table. -/
theorem ref_is_G {F : FTy → Type} [FloatOps F] [Cert.ReferenceIdeal.Facts]
    (x0 : (⟨Cert.ReferenceIdeal.S4x128x256x256, .f32⟩ : BufTy).Contents (Elt F))
    (x1 : (⟨Cert.ReferenceIdeal.S2048x3, .i32⟩ : BufTy).Contents (Elt F))
    (hok : Cert.PatchSpec.TableOk x1) :
    Cert.ReferenceIdeal.Read.val_main_v31 (F := F) x0 x1 = Cert.PatchSpec.G x0 x1 := by
  funext o
  rw [val_main_v31_apply, idx31_eq]
  exact v30_at x0 x1 (o 0) (o 1) (o 2) (o 3) (hok (o 0))

end Cert.ReferenceIdeal.RefValue

end
-- ==== Proof.KDefs.lean ====
/-
  One grid step of the gather, in the vocabulary the proofs share. A step copies sixteen patches: trip k of its first
  loop reads row 16·t + k of the index table, starts a copy of that row's 128 × 16 × 16 window of the input into slot k
  of the step's staging block on semaphore cell k; trip k of its second loop waits on cell k. Each patch is therefore in
  one of three states — not started (slot at any contents, cell at zero, its read token of the input whole), in flight
  (the cell's transfer pending, delivering the slot written with the window's contents and the window's elements of the
  token back), landed — and the two loops' invariants say which patches are in which state before trip n.
-/
import proofs.«427366_j67594195304879_1_alg».proof.Proof.Gen.Kernel.Loops
import proofs.«427366_j67594195304879_1_alg».proof.Proof.Gen.Kernel.Launch
import Idealize.ShloMosaic.Lib.Pipeline.Frame
import Idealize.ShloMosaic.Lib.ValueIdx
import Idealize.ShloMosaic.Lib.Batch
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

/-- The index table and the input as the body is handed them. -/
abbrev TM : Memref sig .tc .smem S2048x3 .i32 := Memref.whole main_arg1
abbrev XM : Memref sig .tc .hbm S4x128x256x256 .f32 := Memref.whole main_arg0

theorem trips1 : k0_t1_loop.trips = 16 := by decide
theorem trips2 : k0_t2_loop.trips = 16 := by decide
/-- Patch g of a grid step, as a trip of the first loop and as a trip of the second. -/
def c1 (g : Fin 16) : Fin k0_t1_loop.trips := ⟨g.val, trips1.symm ▸ g.isLt⟩
def c2 (g : Fin 16) : Fin k0_t2_loop.trips := ⟨g.val, trips2.symm ▸ g.isLt⟩
theorem c1_mk (k : Fin k0_t1_loop.trips) (h : k.val < 16) : c1 ⟨k.val, h⟩ = k := rfl
theorem c2_mk (k : Fin k0_t2_loop.trips) (h : k.val < 16) : c2 ⟨k.val, h⟩ = k := rfl

/-- Slot k of a staging buffer and cell k of the semaphore array, as each loop's body spells them. -/
def slot1 (arg3 : Memref sig .tc .vmem S16x128x16x16 .f32) (k : Fin k0_t1_loop.trips) : Memref sig .tc .vmem S128x16x16 .f32 :=
  (arg3.slice (Rect.unit (s := S16x128x16x16) (k0_off5 k) S1x128x16x16.size (k0_off5_inb k)) (fun _ => rfl)).squeeze S128x16x16 squeezes_S1x128x16x16_S128x16x16
def cell1 (k : Fin k0_t1_loop.trips) : DmaSem sig :=
  ((cc0_scratch0.slice (Rect.unit (s := S16) (k0_off4 k) S1.size (k0_off4_inb k))).squeeze S_ squeezes_S1_S_).sem
def cell2 (k : Fin k0_t2_loop.trips) : DmaSem sig :=
  ((cc0_scratch0.slice (Rect.unit (s := S16) (k0_off7 k) S1.size (k0_off7_inb k))).squeeze S_ squeezes_S1_S_).sem

section Fixed

variable (c : Dev nD) (i : grid0.Coords) (arg3 : Memref sig .tc .vmem S16x128x16x16 .f32)
  (xt : Buf (Elt F) (TM.view.loc (c : Thread nD τ))) (x : Buf (Elt F) (XM.view.loc (c : Thread nD τ)))

/-- The three words of the table row trip k reads, as the run spells its loads. -/
abbrev tw0 (k : Fin k0_t1_loop.trips) : Elt F .i32 :=
  View.readAt (Elt F) TM.view (Rect.unit (s := S2048x3) (k0_off1 i k) S1x1.size (k0_off1_inb i k)).toLoadRect xt (Shape.Idx.first (numel1_S1x1.symm ▸ Nat.one_pos))
abbrev tw1 (k : Fin k0_t1_loop.trips) : Elt F .i32 :=
  View.readAt (Elt F) TM.view (Rect.unit (s := S2048x3) (k0_off2 i k) S1x1.size (k0_off2_inb i k)).toLoadRect xt (Shape.Idx.first (numel1_S1x1.symm ▸ Nat.one_pos))
abbrev tw2 (k : Fin k0_t1_loop.trips) : Elt F .i32 :=
  View.readAt (Elt F) TM.view (Rect.unit (s := S2048x3) (k0_off3 i k) S1x1.size (k0_off3_inb i k)).toLoadRect xt (Shape.Idx.first (numel1_S1x1.symm ▸ Nat.one_pos))

variable (hchk : ∀ k, k0_chk1 (tw0 c i xt k) (tw1 c i xt k) (tw2 c i xt k))

/-- The input's window trip k copies from. -/
def srcM (k : Fin k0_t1_loop.trips) : Memref sig .tc .hbm S128x16x16 .f32 :=
  (XM.slice (Rect.unit (s := S4x128x256x256) (k0_off6 (tw0 c i xt k) (tw1 c i xt k) (tw2 c i xt k)) S1x128x16x16.size
    (k0_off6_inb _ _ _ (hchk k))) (fun _ => rfl)).squeeze S128x16x16 squeezes_S1x128x16x16_S128x16x16
/-- What lands in slot k: the input read through that window. -/
def pay (k : Fin k0_t1_loop.trips) : S128x16x16.Idx → Elt F .f32 := (srcM c i xt hchk k).view.read (Elt F) x

/-- Read token k of the input. -/
abbrev tok (k : Fin k0_t1_loop.trips) : PosShare TreeShare := Transfers.shareTokN fullShare k.val

/-- What transfer k delivers: slot k written whole with the window's contents, and the window's elements of token k. -/
def dlv (k : Fin k0_t1_loop.trips) (g : Buf (Elt F) ((slot1 arg3 k).view.loc (c : Thread nD τ))) : sProp 𝕄 :=
  iprop(((slot1 arg3 k).view.loc (c : Thread nD τ) ↦[(slot1 arg3 k).view.set]{fullShare}
        (slot1 arg3 k).view.writes (Elt F) g [⟨Rect.whole S128x16x16, pay c i xt x hchk k⟩])
      ∗ (XM.view.loc (c : Thread nD τ) ↦[(srcM c i xt hchk k).view.set]{tok k} x))
/-- Transfer k in flight on cell `cl`, beside the rest of token k. -/
def flying (cl : DmaSem sig) (k : Fin k0_t1_loop.trips) : sProp 𝕄 :=
  iprop((∃ g, Transfers.Flight (countersEmb (U := UD sig nD τ)) (c : Thread nD τ) (SemLoc.dma cl) default 32768 (dlv c i arg3 xt x hchk k g))
    ∗ (XM.view.loc (c : Thread nD τ) ↦[XM.view.set \ (srcM c i xt hchk k).view.set]{tok k} x))
/-- Patch k not started: its slot at some contents, its cell at zero, its token whole. -/
def ready (k : Fin k0_t1_loop.trips) : sProp 𝕄 :=
  iprop((∃ g, (slot1 arg3 k).view.loc (c : Thread nD τ) ↦[(slot1 arg3 k).view.set]{fullShare} g)
    ∗ semVal ((c : Thread nD τ), SemLoc.dma (cell1 k)) 0
    ∗ (XM.view.loc (c : Thread nD τ) ↦[XM.view.set]{tok k} x))
/-- Patch k landed: its slot written with the window's contents, its cell `cl` at zero, its token whole. -/
def landed (cl : DmaSem sig) (k : Fin k0_t1_loop.trips) : sProp 𝕄 :=
  iprop((∃ g, (slot1 arg3 k).view.loc (c : Thread nD τ) ↦[(slot1 arg3 k).view.set]{fullShare}
        (slot1 arg3 k).view.writes (Elt F) g [⟨Rect.whole S128x16x16, pay c i xt x hchk k⟩])
    ∗ semVal ((c : Thread nD τ), SemLoc.dma cl) 0
    ∗ (XM.view.loc (c : Thread nD τ) ↦[XM.view.set]{tok k} x))

/-- Before trip n of the first loop: patches below n in flight, the others not started; the table in hand. -/
def issueAt (n : ℕ) (_ : Unit) : sProp 𝕄 :=
  iprop((TM.view.loc (c : Thread nD τ) ↦{fullShare.right} xt)
    ∗ bigSep (Ring.rangeSet 16 0 n) (fun g => flying c i arg3 xt x hchk (cell1 (c1 g)) (c1 g))
    ∗ bigSep (Ring.rangeSet 16 n 16) (fun g => ready c arg3 x (c1 g)))
/-- Before trip n of the second loop: patches below n landed, the others in flight. -/
def drainAt (n : ℕ) (_ : Unit) : sProp 𝕄 :=
  iprop((∃ W, owes (c : Thread nD τ) 0 W)
    ∗ bigSep (Ring.rangeSet 16 0 n) (fun g => landed c i arg3 xt x hchk (cell2 (c2 g)) (c1 g))
    ∗ bigSep (Ring.rangeSet 16 n 16) (fun g => flying c i arg3 xt x hchk (cell2 (c2 g)) (c1 g)))

theorem bigSep_rangeSet_snoc {M : Type} [URA M] (Φ : Fin 16 → sProp M) {lo n : ℕ} (h : lo ≤ n) (hn : n < 16) :
    bigSep (Ring.rangeSet 16 lo (n + 1)) Φ = iprop(Φ ⟨n, hn⟩ ∗ bigSep (Ring.rangeSet 16 lo n) Φ) := by
  have := Ring.bigSep_rangeSet_last (NB := 16) (Φ := Φ) (lo := lo) (hi := n + 1) (by omega) (by omega)
  simpa using this

/-- What a grid step leaves in its staging block: slot g holds the window row 16·t + g names. -/
def blockX : S16x128x16x16.Idx → Elt F .f32 := fun y =>
  pay c i xt x hchk (c1 ⟨(y 0).val, (y 0).isLt⟩)
    (Idealize.ShloMosaic.ValueIdx.ix3 (⟨(y 1).val, (y 1).isLt⟩ : Fin 128) (⟨(y 2).val, (y 2).isLt⟩ : Fin 16) (⟨(y 3).val, (y 3).isLt⟩ : Fin 16))

/-- The staging buffer's contents after the step, over whatever it held before (`d`, overwritten everywhere). -/
def finalOf (d : Buf (Elt F) (arg3.view.loc (c : Thread nD τ))) : Buf (Elt F) (arg3.view.loc (c : Thread nD τ)) :=
  arg3.view.write (Elt F) d (blockX c i xt x hchk) Finset.univ

end Fixed

end Cert.Kernel.Body

end
-- ==== Proof.KData.lean ====
/-
  The launch-side vocabulary: what the one region finds in memory (the program is the region alone, so the launch
  contents), the index table read off it, the pipeline at that table, the kernel's sixteen semaphore cells, and the
  proof data — after grid step t the output window's staging block holds that step's sixteen patches.
-/
import proofs.«427366_j67594195304879_1_alg».proof.Proof.Gen.Kernel.Loops
import proofs.«427366_j67594195304879_1_alg».proof.Proof.Gen.Kernel.Launch
import proofs.«427366_j67594195304879_1_alg».proof.Proof.KDefs
import Idealize.ShloMosaic.Lib.Pipeline.Frame
import Idealize.ShloMosaic.Lib.Batch
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

section Launch

variable (m : (ℓ : Loc nD τ sig) → Buf (Elt F) ℓ) (ρ : Dev nD → PrngReg)

/-- Core c's buffers when the region is entered: as launched. -/
abbrev V (c : Dev nD) (b : Ref sig .tc) : Buf (Elt F) ((c : Thread nD τ).loc b) := m ((c : Thread nD τ).loc b)

/-- The prefetched table's contents (the program runs on one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

/-- The table as admissible contents (no window's index map reads it), and the pipeline at them. -/
abbrev adm : (pcfg0 (F := F)).Adm := ⟨tbl m, trivial⟩
abbrev cfgM : Pipeline.Cfg sig Λ₀ := cfg0 (adm m)

/-- The table and the input as the body reads them on core c. -/
abbrev xtOf (c : Dev nD) : Buf (Elt F) (TM.view.loc (c : Thread nD τ)) := tbl m 0
abbrev xOf (c : Dev nD) : Buf (Elt F) (XM.view.loc (c : Thread nD τ)) := V m c main_arg0

/-- Every window the kernel copies lies inside the input: at every grid step and trip, of the words read there. -/
def AllChk : Prop :=
  ∀ (c : Dev nD) (i : grid0.Coords) (k : Fin k0_t1_loop.trips), k0_chk1 (tw0 c i (xtOf m c) k) (tw1 c i (xtOf m c) k) (tw2 c i (xtOf m c) k)

/-- The kernel's own semaphore cells, patch by patch. -/
abbrev osem : Fin 16 → SemLoc sig := fun g => .dma (cell1 (c1 g))

/-- The proof data of the one pipeline on core c. -/
def dats (h : AllChk m) (_ : Fin 1) (c : Dev nD) : Pipeline.Dat τ (Elt F) Unit ℕ (UD sig nD τ) ℕ (cfgM m) c where
  A w := V m c (Pipeline.arrRef spec0 w)
  after w t := match w with
    | ⟨0, _⟩ => blockX c (grid0.coords t) (xtOf m c) (xOf m c) (h c (grid0.coords t))
  Φ _ := iprop(Pipeline.ΦD osem spec0 {main_arg0} (V m) c ∗ Pipeline.ΦT pre0 (tbl m) c)
  q _ := fullShare
  owed _ := 0

theorem A_eq (h : AllChk m) (c : Dev nD) (w : Fin (cfgM m).W) : (dats m h 0 c).A w = V m c (Pipeline.arrRef spec0 w) := by
  dsimp only [dats]
theorem after0 (h : AllChk m) (c : Dev nD) (t : Fin (cfgM m).N) :
    (dats m h 0 c).after 0 t = blockX c (grid0.coords t) (xtOf m c) (xOf m c) (h c (grid0.coords t)) := by
  dsimp only [dats]; try rfl

end Launch

end Cert.Kernel.Body

end
-- ==== Proof.KSteps.lean ====
/-
  One trip of each loop of a grid step, at a symbolic trip. Trip k of the first loop takes patch k from "not started"
  to "in flight": it reads the row's three words (in range by hypothesis, so the window lies in the input), and starts
  the copy on cell k, lending the window's elements of read token k. Trip k of the second loop takes patch k from "in
  flight" to "landed": the wait on cell k hands back the slot written with the window's contents and the token whole.
  The two loops spell cell k by different index chains; both are cell 2 + k of the program's semaphore pool.
-/
import proofs.«427366_j67594195304879_1_alg».proof.Proof.Gen.Kernel.Loops
import proofs.«427366_j67594195304879_1_alg».proof.Proof.Gen.Kernel.Launch
import proofs.«427366_j67594195304879_1_alg».proof.Proof.KDefs
import Idealize.ShloMosaic.Lib.Pipeline.Frame
import Idealize.ShloMosaic.Lib.Batch
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

section Fixed

variable (c : Dev nD) (i : grid0.Coords) (arg3 : Memref sig .tc .vmem S16x128x16x16 .f32)
  (xt : Buf (Elt F) (TM.view.loc (c : Thread nD τ))) (x : Buf (Elt F) (XM.view.loc (c : Thread nD τ)))
  (hchk : ∀ k, k0_chk1 (tw0 c i xt k) (tw1 c i xt k) (tw2 c i xt k))

/-- The two loops name the same cell for patch g. -/
theorem cell12 : ∀ g : Fin 16, cell1 (c1 g) = cell2 (c2 g) := by decide +kernel

/-- Trip k of the first loop: patch k goes from not started to in flight. -/
theorem issue_step [∀ e, Nonempty (Elt F e)] (harg3 : arg3.IsWhole) (k : Fin k0_t1_loop.trips) (acc : Unit) :
    issueAt c i arg3 xt x hchk k.val acc
      ⊢ wp frame (wpE defs₀ Variants.none (c : Thread nD τ) none) Set.univ
          (k0_t1_body (F := F) i TM (Memref.isWhole_whole _) XM (Memref.isWhole_whole _) arg3 harg3 cc0_scratch0 k acc)
          (issueAt c i arg3 xt x hchk (k.val + 1)) := by
  have hk : k.val < 16 := trips1 ▸ k.isLt
  unfold issueAt
  rw [Ring.bigSep_rangeSet_head (Φ := fun g => ready c arg3 x (c1 g)) (lo := k.val) (hi := 16) hk hk, c1_mk]
  unfold ready
  iintro ⟨HT, HFs, ⟨⟨%g, HS⟩, HC, HX⟩, HRs⟩
  have hw := hchk k
  unfold k0_t1_body
  sl_exec
  sl_step
  isplitl [HT]; · iexact HT
  isplitl [HFs HC HX]
  · rw [bigSep_rangeSet_snoc _ (Nat.zero_le _) hk, c1_mk]
    isplitl [HC HX]
    · unfold flying dlv
      isplitl [HC]; · iexists g; iexact HC
      iexact HX
    iexact HFs
  iexact HRs

/-- Trip k of the second loop: patch k goes from in flight to landed. -/
theorem drain_step [∀ e, Nonempty (Elt F e)] (harg3 : arg3.IsWhole) (k : Fin k0_t2_loop.trips) (acc : Unit) :
    drainAt c i arg3 xt x hchk k.val acc
      ⊢ wp frame (wpE defs₀ Variants.none (c : Thread nD τ) none) Set.univ
          (k0_t2_body (F := F) i TM (Memref.isWhole_whole _) XM (Memref.isWhole_whole _) arg3 harg3 cc0_scratch0 k acc)
          (drainAt c i arg3 xt x hchk (k.val + 1)) := by
  have hk : k.val < 16 := trips2 ▸ k.isLt
  unfold drainAt
  rw [Ring.bigSep_rangeSet_head (Φ := fun g => flying c i arg3 xt x hchk (cell2 (c2 g)) (c1 g)) (lo := k.val) (hi := 16) hk hk, c2_mk]
  unfold flying dlv srcM
  iintro ⟨⟨%W, HO⟩, HLs, ⟨⟨%g, HF⟩, HXr⟩, HFs⟩
  unfold k0_t2_body
  sl_exec
  sl_step
  isplitl [HO]; · iexists _; iexact HO
  isplitl [HLs HF_dst HXr HF]
  · rw [bigSep_rangeSet_snoc _ (Nat.zero_le _) hk, c2_mk]
    isplitl [HF_dst HXr HF]
    · unfold landed
      isplitl [HF_dst]; · iexists g; iexact HF_dst
      isplitl [HF]; · iexact HF
      iexact HXr
    iexact HLs
  iexact HFs

/-- After the first loop every patch is in flight; restated over the second loop's spelling of the cells. -/
theorem flying_cells :
    (fun g : Fin 16 => flying c i arg3 xt x hchk (cell1 (c1 g)) (c1 g))
      = (fun g : Fin 16 => flying c i arg3 xt x hchk (cell2 (c2 g)) (c1 g)) := by
  funext g; rw [cell12 g]

end Fixed

end Cert.Kernel.Body

end
-- ==== Proof.KGeom.lean ====
/-
  Where the sixteen slots of a grid step's staging buffer sit. Slot g is the buffer's elements whose leading
  coordinate is g: the unit rectangle at offsets (g, 0, 0, 0) of sizes 1 × 128 × 16 × 16, its leading axis then
  dropped. Distinct slots share no element, and the sixteen of them are the whole buffer; a slot written whole
  with its patch holds, on its own elements, what the step leaves in the buffer.
-/
import proofs.«427366_j67594195304879_1_alg».proof.Proof.Gen.Kernel.Loops
import proofs.«427366_j67594195304879_1_alg».proof.Proof.Gen.Kernel.Launch
import Idealize.ShloMosaic.Lib.Pipeline.Frame
import Idealize.ShloMosaic.Lib.ValueIdx
import Idealize.ShloMosaic.Lib.Batch
import Idealize.ShloMosaic.Lib.Ring
import Idealize.ShloMosaic.Lib.Tactic
import proofs.«427366_j67594195304879_1_alg».proof.Proof.KDefs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

/-! ### The rectangle a slot is cut from -/

/-- The rectangle of the staging buffer's shape that slot k is cut from. -/
abbrev slotR (k : Fin k0_t1_loop.trips) : Rect S16x128x16x16 :=
  Rect.unit (s := S16x128x16x16) (k0_off5 k) S1x128x16x16.size (k0_off5_inb k)

/-- An index of the staging buffer's shape is in slot k's rectangle exactly when its leading coordinate is k. -/
theorem mem_slotR (k : Fin k0_t1_loop.trips) (y : S16x128x16x16.Idx) : y ∈ (slotR k).set ↔ (y 0).val = k.val := by
  rw [Rect.mem_set_unit, k0_off5_eq]
  have h1 : (y 1).val < 128 := (y 1).isLt
  have h2 : (y 2).val < 16 := (y 2).isLt
  have h3 : (y 3).val < 16 := (y 3).isLt
  constructor
  · intro H
    have h0 : k.val ≤ (y 0).val ∧ (y 0).val < k.val + 1 := H 0
    omega
  · intro H a
    fin_cases a
    · show k.val ≤ (y 0).val ∧ (y 0).val < k.val + 1
      omega
    · show 0 ≤ (y 1).val ∧ (y 1).val < 0 + 128
      omega
    · show 0 ≤ (y 2).val ∧ (y 2).val < 0 + 16
      omega
    · show 0 ≤ (y 3).val ∧ (y 3).val < 0 + 16
      omega

/-- Where slot k's index z sits in the staging buffer's shape: behind a leading zero in the 1 × 128 × 16 × 16
    rectangle, then at the rectangle's offsets. -/
def slotY (k : Fin k0_t1_loop.trips) (z : S128x16x16.Idx) : S16x128x16x16.Idx :=
  (slotR k).emb (Shape.reshapeEquiv (s := S1x128x16x16) (s' := S128x16x16) squeezes_S1x128x16x16_S128x16x16.numel_eq z)

/-- Slot k places its index z where the staging memref places that index of its own shape. -/
theorem slot1_emb (arg3 : Memref sig .tc .vmem S16x128x16x16 .f32) (k : Fin k0_t1_loop.trips) (z : S128x16x16.Idx) :
    (slot1 arg3 k).view.emb z = arg3.view.emb (slotY k z) := rfl

/-- Dropping the leading axis of size one puts z behind the coordinate zero. -/
theorem squeeze_eq (z : S128x16x16.Idx) :
    Shape.reshapeEquiv (s := S1x128x16x16) (s' := S128x16x16) squeezes_S1x128x16x16_S128x16x16.numel_eq z
      = (Fin.cons (⟨0, Nat.one_pos⟩ : Fin 1) z : S1x128x16x16.Idx) :=
  Shape.reshapeEquiv_cons_one _ z

theorem slotY_val (k : Fin k0_t1_loop.trips) (z : S128x16x16.Idx) (a : Fin 4) :
    (slotY k z a).val = (![k.val, 0, 0, 0] : Fin 4 → ℕ) a + ((Fin.cons (⟨0, Nat.one_pos⟩ : Fin 1) z : S1x128x16x16.Idx) a).val := by
  unfold slotY
  rw [squeeze_eq]
  show k0_off5 k a + 1 * _ = _
  rw [k0_off5_eq, Nat.one_mul]

theorem slotY_0 (k : Fin k0_t1_loop.trips) (z : S128x16x16.Idx) : (slotY k z 0).val = k.val := by
  rw [slotY_val]; rfl
theorem slotY_1 (k : Fin k0_t1_loop.trips) (z : S128x16x16.Idx) : (slotY k z 1).val = (z 0).val := by
  rw [slotY_val]; show 0 + (z 0).val = _; omega
theorem slotY_2 (k : Fin k0_t1_loop.trips) (z : S128x16x16.Idx) : (slotY k z 2).val = (z 1).val := by
  rw [slotY_val]; show 0 + (z 1).val = _; omega
theorem slotY_3 (k : Fin k0_t1_loop.trips) (z : S128x16x16.Idx) : (slotY k z 3).val = (z 2).val := by
  rw [slotY_val]; show 0 + (z 2).val = _; omega

/-! ### The slots as a cut of the buffer -/

/-- Slot g's elements of the staging buffer. -/
abbrev slotI (c : Dev nD) (arg3 : Memref sig .tc .vmem S16x128x16x16 .f32) (g : Fin 16) :
    Finset (Idx (arg3.view.loc (c : Thread nD τ))) := (slot1 arg3 (c1 g)).view.set

/-- Slot g's elements are its rectangle's indices, placed as the staging memref places them. -/
theorem slotI_eq (c : Dev nD) (arg3 : Memref sig .tc .vmem S16x128x16x16 .f32) (g : Fin 16) :
    slotI c arg3 g = (slotR (c1 g)).set.map arg3.view.emb :=
  (View.set_reshape _ _).trans (View.set_slice _ _)

/-- Two slots' leading coordinates differ, so they share no element. -/
theorem slotI_disjoint (c : Dev nD) (arg3 : Memref sig .tc .vmem S16x128x16x16 .f32) :
    ∀ g g' : Fin 16, g ≠ g' → Disjoint (slotI c arg3 g) (slotI c arg3 g') := by
  intro g g' hne
  rw [slotI_eq, slotI_eq, Finset.disjoint_map, Finset.disjoint_left]
  intro y hy hy'
  rw [mem_slotR] at hy hy'
  exact hne (Fin.ext (hy.symm.trans hy'))

/-- Every element of a whole buffer has a leading coordinate, and is in that slot. -/
theorem slotI_cover (c : Dev nD) (arg3 : Memref sig .tc .vmem S16x128x16x16 .f32) (harg3 : arg3.IsWhole) :
    Finset.univ.biUnion (slotI c arg3) = Finset.univ := by
  ext idx
  simp only [Finset.mem_biUnion, Finset.mem_univ, true_and, iff_true]
  have hidx : idx ∈ arg3.view.set := by rw [harg3.set_eq_univ]; exact Finset.mem_univ _
  obtain ⟨y, -, rfl⟩ := Finset.mem_map.mp hidx
  refine ⟨⟨(y 0).val, (y 0).isLt⟩, ?_⟩
  rw [slotI_eq]
  exact Finset.mem_map_of_mem _ ((mem_slotR _ _).mpr rfl)

/-! ### What a landed slot holds -/

section Fixed

variable (c : Dev nD) (i : grid0.Coords) (arg3 : Memref sig .tc .vmem S16x128x16x16 .f32)
  (xt : Buf (Elt F) (TM.view.loc (c : Thread nD τ))) (x : Buf (Elt F) (XM.view.loc (c : Thread nD τ)))
  (hchk : ∀ k, k0_chk1 (tw0 c i xt k) (tw1 c i xt k) (tw2 c i xt k))

/-- The step's block, at the place of slot k's index z, is patch k at z. -/
theorem blockX_slotY (k : Fin k0_t1_loop.trips) (z : S128x16x16.Idx) :
    blockX c i xt x hchk (slotY k z) = pay c i xt x hchk k z := by
  unfold blockX
  have hk : c1 ⟨(slotY k z 0).val, (slotY k z 0).isLt⟩ = k := Fin.ext (slotY_0 k z)
  have hz : Idealize.ShloMosaic.ValueIdx.ix3 (⟨(slotY k z 1).val, (slotY k z 1).isLt⟩ : Fin 128)
      (⟨(slotY k z 2).val, (slotY k z 2).isLt⟩ : Fin 16) (⟨(slotY k z 3).val, (slotY k z 3).isLt⟩ : Fin 16) = z := by
    funext a
    match a with
    | ⟨0, _⟩ => exact Fin.ext (slotY_1 k z)
    | ⟨1, _⟩ => exact Fin.ext (slotY_2 k z)
    | ⟨2, _⟩ => exact Fin.ext (slotY_3 k z)
  rw [hk, hz]

end Fixed

/-- Written whole through a view with the payload w, the element the view places z at holds w at z. -/
theorem writes_whole_emb {κ : Kind} {sp : Space} {s : Shape} {e : EltTy} {Val : EltTy → Type} (v : View sig κ sp s e)
    (f : v.ty.Contents Val) (w : s.Idx → Val e) (z : s.Idx) :
    v.writes Val f [⟨Rect.whole s, w⟩] (v.emb z) = cast (congrArg Val v.elt_eq.symm) (w z) := by
  have e1 : v.emb z = (v.slice (Rect.whole s)).emb z := congrArg v.emb (Rect.emb_whole_apply s z).symm
  rw [View.writes_cons, View.writes_nil, e1]
  exact View.write_emb_of_mem _ _ (Finset.mem_univ _)

/-- A slot written whole with its patch agrees, on the slot's elements, with the step's final contents (whatever was there before). -/
theorem landed_eq_final (c : Dev nD) (i : grid0.Coords) (arg3 : Memref sig .tc .vmem S16x128x16x16 .f32) (harg3 : arg3.IsWhole)
    (xt : Buf (Elt F) (TM.view.loc (c : Thread nD τ))) (x : Buf (Elt F) (XM.view.loc (c : Thread nD τ)))
    (hchk : ∀ k, k0_chk1 (tw0 c i xt k) (tw1 c i xt k) (tw2 c i xt k))
    (d g' : Buf (Elt F) (arg3.view.loc (c : Thread nD τ))) (g : Fin 16) :
    ∀ idx ∈ slotI c arg3 g,
      (slot1 arg3 (c1 g)).view.writes (Elt F) g' [⟨Rect.whole S128x16x16, pay c i xt x hchk (c1 g)⟩] idx
        = finalOf c i arg3 xt x hchk d idx := by
  intro idx hidx
  obtain ⟨z, -, rfl⟩ := Finset.mem_map.mp hidx
  -- the left side: the one piece is the whole slot, so the element under z takes the patch at z
  refine (writes_whole_emb (slot1 arg3 (c1 g)).view g' (pay c i xt x hchk (c1 g)) z).trans ?_
  -- the right side: the same element is the staging memref's at leading coordinate g, where the block is that patch
  have hR : finalOf c i arg3 xt x hchk d (arg3.view.emb (slotY (c1 g) z))
      = cast (congrArg (Elt F) arg3.view.elt_eq.symm) (pay c i xt x hchk (c1 g) z) := by
    unfold finalOf
    refine (View.write_emb_of_mem _ _ (Finset.mem_univ _)).trans ?_
    rw [blockX_slotY]
  exact hR.symm

/-- The step's final contents read through the staging memref are the block. -/
theorem read_finalOf (c : Dev nD) (i : grid0.Coords) (arg3 : Memref sig .tc .vmem S16x128x16x16 .f32)
    (xt : Buf (Elt F) (TM.view.loc (c : Thread nD τ))) (x : Buf (Elt F) (XM.view.loc (c : Thread nD τ)))
    (hchk : ∀ k, k0_chk1 (tw0 c i xt k) (tw1 c i xt k) (tw2 c i xt k))
    (d : Buf (Elt F) (arg3.view.loc (c : Thread nD τ))) :
    arg3.view.read (Elt F) (finalOf c i arg3 xt x hchk d) = blockX c i xt x hchk := by
  unfold finalOf
  exact View.read_write_univ _ _

end Cert.Kernel.Body

end
-- ==== Proof.KBodyRun.lean ====
/-
  One grid step, whole. At entry the input is split into sixteen read tokens and the staging buffer into its sixteen
  slots, so every patch is "not started"; the first loop starts every patch, the second waits for every patch; at exit
  the tokens are joined back into the input and the slots — each written with its window — into the staging buffer,
  whose contents read back are the step's block.
-/
import proofs.«427366_j67594195304879_1_alg».proof.Proof.Gen.Kernel.Loops
import proofs.«427366_j67594195304879_1_alg».proof.Proof.Gen.Kernel.Launch
import proofs.«427366_j67594195304879_1_alg».proof.Proof.KSteps
import proofs.«427366_j67594195304879_1_alg».proof.Proof.KGeom
import Idealize.ShloMosaic.Lib.Pipeline.Frame
import Idealize.ShloMosaic.Lib.Batch
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

section Fixed

variable (c : Dev nD) (i : grid0.Coords) (arg3 : Memref sig .tc .vmem S16x128x16x16 .f32)
  (xt : Buf (Elt F) (TM.view.loc (c : Thread nD τ))) (x : Buf (Elt F) (XM.view.loc (c : Thread nD τ)))
  (hchk : ∀ k, k0_chk1 (tw0 c i xt k) (tw1 c i xt k) (tw2 c i xt k))

/-- Cell g at zero; the kernel's sixteen cells, each at zero. -/
abbrev cellZ (g : Fin 16) : sProp 𝕄 := semVal ((c : Thread nD τ), SemLoc.dma (cell1 (c1 g))) 0
abbrev cells0 : sProp 𝕄 := bigSep Finset.univ (cellZ (F := F) c)

/-- The three parts of a patch's state, family by family. -/
abbrev slotAny (g : Fin 16) : sProp 𝕄 :=
  iprop(∃ g', (slot1 arg3 (c1 g)).view.loc (c : Thread nD τ) ↦[(slot1 arg3 (c1 g)).view.set]{fullShare} g')
abbrev slotLanded (g : Fin 16) : sProp 𝕄 :=
  iprop(∃ g', (slot1 arg3 (c1 g)).view.loc (c : Thread nD τ) ↦[(slot1 arg3 (c1 g)).view.set]{fullShare}
    (slot1 arg3 (c1 g)).view.writes (Elt F) g' [⟨Rect.whole S128x16x16, pay c i xt x hchk (c1 g)⟩])
abbrev tokW (g : Fin 16) : sProp 𝕄 := XM.view.loc (c : Thread nD τ) ↦[XM.view.set]{tok (c1 g)} x

theorem ready_fam : (fun g : Fin 16 => ready c arg3 x (c1 g))
    = fun g : Fin 16 => iprop(slotAny c arg3 g ∗ (cellZ c g ∗ tokW c x g)) := by
  funext g; unfold ready; rfl
theorem landed_fam : (fun g : Fin 16 => landed c i arg3 xt x hchk (cell2 (c2 g)) (c1 g))
    = fun g : Fin 16 => iprop(slotLanded c i arg3 xt x hchk g ∗ (cellZ c g ∗ tokW c x g)) := by
  funext g; unfold landed; rw [← cell12 g]

/-- Every patch not started, family by family. -/
theorem ready_split :
    (bigSep (Ring.rangeSet 16 0 16) (fun g : Fin 16 => ready c arg3 x (c1 g)) : sProp 𝕄)
      = iprop(bigSep Finset.univ (slotAny c arg3) ∗ (cells0 (F := F) c ∗ bigSep Finset.univ (tokW c x))) := by
  rw [Ring.rangeSet_univ, ready_fam]
  exact (BI.bigSep_sep Finset.univ (slotAny c arg3) (fun g => iprop(cellZ c g ∗ tokW c x g))).trans
    (congrArg (fun P : sProp 𝕄 => iprop(bigSep Finset.univ (slotAny c arg3) ∗ P)) (BI.bigSep_sep Finset.univ (cellZ (F := F) c) (tokW c x)))
/-- Every patch landed, family by family. -/
theorem landed_split :
    (bigSep (Ring.rangeSet 16 0 16) (fun g : Fin 16 => landed c i arg3 xt x hchk (cell2 (c2 g)) (c1 g)) : sProp 𝕄)
      = iprop(bigSep Finset.univ (slotLanded c i arg3 xt x hchk) ∗ (cells0 (F := F) c ∗ bigSep Finset.univ (tokW c x))) := by
  rw [Ring.rangeSet_univ, landed_fam]
  exact (BI.bigSep_sep Finset.univ (slotLanded c i arg3 xt x hchk) (fun g => iprop(cellZ c g ∗ tokW c x g))).trans
    (congrArg (fun P : sProp 𝕄 => iprop(bigSep Finset.univ (slotLanded c i arg3 xt x hchk) ∗ P)) (BI.bigSep_sep Finset.univ (cellZ (F := F) c) (tokW c x)))

/-- The staging buffer held whole is its sixteen slots, each at some contents. -/
theorem slots_split (harg3 : arg3.IsWhole) (d : Buf (Elt F) (arg3.view.loc (c : Thread nD τ))) :
    (arg3.view.loc (c : Thread nD τ) ↦[arg3.view.set]{fullShare} d : sProp 𝕄) ⊢ bigSep Finset.univ (slotAny c arg3) := by
  rw [harg3.set_eq_univ]
  refine (Entails.of_eq (Ring.pointsTo_blocks (ℓ := arg3.view.loc (c : Thread nD τ)) (q := fullShare) (slotI c arg3)
    (slotI_disjoint c arg3) (slotI_cover c arg3 harg3) d)).trans (BI.bigSep_mono fun g _ => ?_)
  show (arg3.view.loc (c : Thread nD τ) ↦[slotI c arg3 g]{fullShare} d : sProp 𝕄) ⊢ slotAny c arg3 g
  iintro H; iexists d; iexact H

/-- The sixteen slots, each written with its patch, are the staging buffer held whole at the step's final contents. -/
theorem slots_join (harg3 : arg3.IsWhole) (d : Buf (Elt F) (arg3.view.loc (c : Thread nD τ))) :
    bigSep Finset.univ (slotLanded c i arg3 xt x hchk)
      ⊢ (arg3.view.loc (c : Thread nD τ) ↦[arg3.view.set]{fullShare} finalOf c i arg3 xt x hchk d : sProp 𝕄) := by
  rw [harg3.set_eq_univ]
  refine (BI.bigSep_mono fun g _ => ?_).trans (Entails.of_eq (Ring.pointsTo_blocks (ℓ := arg3.view.loc (c : Thread nD τ)) (q := fullShare) (slotI c arg3)
    (slotI_disjoint c arg3) (slotI_cover c arg3 harg3) (finalOf c i arg3 xt x hchk d)).symm)
  show slotLanded c i arg3 xt x hchk g ⊢ (arg3.view.loc (c : Thread nD τ) ↦[slotI c arg3 g]{fullShare} finalOf c i arg3 xt x hchk d : sProp 𝕄)
  iintro ⟨%g', H⟩
  rw [← pointsTo_congr (landed_eq_final c i arg3 harg3 xt x hchk d g' g)]
  iexact H

/-- At a step's entry: the input by read tokens, the staging buffer by slots; every patch not started. -/
theorem entry_split (harg3 : arg3.IsWhole) (d : Buf (Elt F) (arg3.view.loc (c : Thread nD τ))) :
    iprop((XM.view.loc (c : Thread nD τ) ↦{fullShare} x) ∗ (arg3.view.loc (c : Thread nD τ) ↦[arg3.view.set]{fullShare} d) ∗ cells0 (F := F) c)
      ⊢ iprop((XM.view.loc (c : Thread nD τ) ↦[XM.view.set]{Transfers.shareDrop fullShare 16} x)
          ∗ bigSep (Ring.rangeSet 16 0 16) (fun g => ready c arg3 x (c1 g))) := by
  rw [ready_split]
  iintro ⟨HX, HA, HC⟩
  ihave HX1 := (show (XM.view.loc (c : Thread nD τ) ↦{fullShare} x : sProp 𝕄) ⊢ XM.view.loc (c : Thread nD τ) ↦[XM.view.set]{fullShare} x from by
    rw [(Memref.isWhole_whole main_arg0).set_eq_univ]) $$ HX
  ihave HX2 := (Transfers.pointsTo_toks (ℓ := XM.view.loc (c : Thread nD τ)) (S := XM.view.set) (f := x) fullShare 16).1 $$ HX1
  icases HX2 with ⟨HXrest, HXt⟩
  isplitl [HXrest]; · iexact HXrest
  isplitl [HA]; · iapply (slots_split c arg3 harg3 d); iexact HA
  isplitl [HC]; · iexact HC
  iexact HXt

/-- At a step's exit: every patch landed; the input whole again, the staging buffer at the step's final contents. -/
theorem exit_join (harg3 : arg3.IsWhole) (d : Buf (Elt F) (arg3.view.loc (c : Thread nD τ))) :
    iprop((XM.view.loc (c : Thread nD τ) ↦[XM.view.set]{Transfers.shareDrop fullShare 16} x)
        ∗ bigSep (Ring.rangeSet 16 0 16) (fun g => landed c i arg3 xt x hchk (cell2 (c2 g)) (c1 g)))
      ⊢ iprop((XM.view.loc (c : Thread nD τ) ↦{fullShare} x)
          ∗ (arg3.view.loc (c : Thread nD τ) ↦[arg3.view.set]{fullShare} finalOf c i arg3 xt x hchk d) ∗ cells0 (F := F) c) := by
  rw [landed_split]
  iintro ⟨HXrest, HS, HC, HXt⟩
  isplitl [HXrest HXt]
  · iapply (show (XM.view.loc (c : Thread nD τ) ↦[XM.view.set]{fullShare} x : sProp 𝕄) ⊢ XM.view.loc (c : Thread nD τ) ↦{fullShare} x from by
      rw [(Memref.isWhole_whole main_arg0).set_eq_univ])
    iapply (Transfers.pointsTo_toks (ℓ := XM.view.loc (c : Thread nD τ)) (S := XM.view.set) (f := x) fullShare 16).2
    isplitl [HXrest]; · iexact HXrest
    iexact HXt
  isplitl [HS]; · iapply (slots_join c i arg3 xt x hchk harg3 d); iexact HS
  iexact HC

/-- THE BODY'S RUN at one grid step: from the table's half, the input whole, the staging buffer at any contents, the
    sixteen cells at zero and the core's record of waits, the kernel function runs to its return with the table and the
    input as they were, the staging buffer holding the step's sixteen patches, the cells at zero again. -/
theorem kernelRun [∀ e, Nonempty (Elt F e)] (harg3 : arg3.IsWhole) (d : Buf (Elt F) (arg3.view.loc (c : Thread nD τ)))
    (W : Waits sig Unit) (Q : PUnit → sProp 𝕄) :
    iprop((TM.view.loc (c : Thread nD τ) ↦{fullShare.right} xt) ∗ (XM.view.loc (c : Thread nD τ) ↦{fullShare} x)
        ∗ (arg3.view.loc (c : Thread nD τ) ↦[arg3.view.set]{fullShare} d) ∗ cells0 (F := F) c ∗ owes (c : Thread nD τ) 0 W
        ∗ (iprop((TM.view.loc (c : Thread nD τ) ↦{fullShare.right} xt) ∗ (XM.view.loc (c : Thread nD τ) ↦{fullShare} x)
              ∗ (arg3.view.loc (c : Thread nD τ) ↦[arg3.view.set]{fullShare} finalOf c i arg3 xt x hchk d) ∗ cells0 (F := F) c
              ∗ ∃ W, owes (c : Thread nD τ) 0 W) -∗ Q ⟨⟩))
      ⊢ wp frame (wpE defs₀ Variants.none (c : Thread nD τ) none) Set.univ
          (cc0__gather_kernel (F := F) i TM (Memref.isWhole_whole _) XM (Memref.isWhole_whole _) arg3 harg3 cc0_scratch0) Q := by
  iintro ⟨HT, HX, HA, HC, HO, Hk⟩
  ihave Hent := (entry_split c arg3 x harg3 d) $$ [HX HA HC]
  · isplitl [HX]; · iexact HX
    isplitl [HA]; · iexact HA
    iexact HC
  icases Hent with ⟨HXrest, Hready⟩
  simp only [cc0__gather_kernel_eq_skeleton]; unfold cc0__gather_kernel_skel
  -- the first loop: every patch started
  sl_for (issueAt c i arg3 xt x hchk) $$ [HT Hready]
  · intro k acc; exact issue_step c i arg3 xt x hchk harg3 k acc
  · unfold issueAt
    rw [Ring.bigSep_rangeSet_empty (Φ := fun g => flying c i arg3 xt x hchk (cell1 (c1 g)) (c1 g)) (le_refl 0)]
    isplitl [HT]; · iexact HT
    isplitr; · iempintro
    iexact Hready
  iintro %acc HL
  ihave HL' := (show issueAt c i arg3 xt x hchk k0_t1_loop.trips acc
      ⊢ iprop((TM.view.loc (c : Thread nD τ) ↦{fullShare.right} xt)
          ∗ bigSep (Ring.rangeSet 16 0 16) (fun g => flying c i arg3 xt x hchk (cell2 (c2 g)) (c1 g))) from by
    unfold issueAt
    rw [trips1, flying_cells, Ring.bigSep_rangeSet_empty (Φ := fun g => ready c arg3 x (c1 g)) (le_refl 16)]
    iintro ⟨HT, HF, -⟩
    isplitl [HT]; · iexact HT
    iexact HF) $$ HL
  icases HL' with ⟨HT, Hfly⟩
  -- the second loop: every patch waited for
  sl_for (drainAt c i arg3 xt x hchk) $$ [HO Hfly]
  · intro k acc; exact drain_step c i arg3 xt x hchk harg3 k acc
  · unfold drainAt
    rw [Ring.bigSep_rangeSet_empty (Φ := fun g => landed c i arg3 xt x hchk (cell2 (c2 g)) (c1 g)) (le_refl 0)]
    isplitl [HO]; · iexists W; iexact HO
    isplitr; · iempintro
    iexact Hfly
  iintro %acc2 HL2
  ihave HL2' := (show drainAt c i arg3 xt x hchk k0_t2_loop.trips acc2
      ⊢ iprop((∃ W, owes (c : Thread nD τ) 0 W)
          ∗ bigSep (Ring.rangeSet 16 0 16) (fun g => landed c i arg3 xt x hchk (cell2 (c2 g)) (c1 g))) from by
    unfold drainAt
    rw [trips2, Ring.bigSep_rangeSet_empty (Φ := fun g => flying c i arg3 xt x hchk (cell2 (c2 g)) (c1 g)) (le_refl 16)]
    iintro ⟨HO, HLd, -⟩
    isplitl [HO]; · iexact HO
    iexact HLd) $$ HL2
  icases HL2' with ⟨HO, Hland⟩
  sl_exec
  sl_step
  iapply Hk
  ihave Hex := (exit_join c i arg3 xt x hchk harg3 d) $$ [HXrest Hland]
  · isplitl [HXrest]; · iexact HXrest
    iexact Hland
  icases Hex with ⟨HX, HA, HC⟩
  isplitl [HT]; · iexact HT
  isplitl [HX]; · iexact HX
  isplitl [HA]; · iexact HA
  isplitl [HC]; · iexact HC
  iexact HO

end Fixed

end Cert.Kernel.Body

end
-- ==== Proof.KLaunch.lean ====
/-
  The launch. The program is one pipelined region over 128 grid steps with one output window; the kernel moves the
  input itself, within each step, on sixteen semaphore cells of its own, and reads a prefetched index table. So the
  region's invariant is the same at every step: the cells at zero, the input whole at its launch contents, the table's
  half. Each step's obligation is the body's run; the library's frame run for such kernels then gives termination, no
  fault, the arguments unchanged, and the output array as the steps' blocks written back one after the other.
-/
import proofs.«427366_j67594195304879_1_alg».proof.Proof.Gen.Kernel.Loops
import proofs.«427366_j67594195304879_1_alg».proof.Proof.Gen.Kernel.Launch
import proofs.«427366_j67594195304879_1_alg».proof.Proof.KData
import proofs.«427366_j67594195304879_1_alg».proof.Proof.KBodyRun
import Idealize.ShloMosaic.Lib.Pipeline.Kit
import Idealize.ShloMosaic.Lib.Pipeline.Frame
import Idealize.ShloMosaic.Lib.Batch
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

section Launch

variable (m : (ℓ : Loc nD τ sig) → Buf (Elt F) ℓ) (ρ : Dev nD → PrngReg)

/-- @main is the region alone. -/
theorem hmain (𝒱₀ : Variants) :
    Pipeline.HMainP (Ix := Unit) (Name := ℕ) (U := UD sig nD τ) (Lvl := ℕ) pcfgs 0 defs₀ 𝒱₀ m (main (F := F)) (V m) :=
  Pipeline.hmainP_region pcfgs 0 defs₀ 𝒱₀ m main fun c => (main_chain c).trans rfl

/-- The kernel's sixteen cells are scoped, distinct, and none a staging cell of the pipeline. -/
theorem ownSemFacts : Pipeline.OwnSemFacts spec0 osem := by decide +kernel

/-- The input is one of the unscoped buffers the pipeline does not stage. -/
theorem arg0_rest : ({main_arg0} : Finset (Ref sig .tc)) ⊆ Pipeline.restRefsP sig pre0 spec0 := by decide

/-- The staging memref the pipeline hands the body at point t, and the body as it is called there. -/
abbrev ms0 (t : Fin (cfgM m).N) : Memref sig .tc .vmem S16x128x16x16 .f32 := spec0_0.stage ((cfgM m).slots t 0)
abbrev hs0 (t : Fin (cfgM m).N) : (ms0 m t).IsWhole := hstage0_0 (((cfgM m).slots t 0).cast nbuf0_0)
abbrev bodyAt (t : Fin (cfgM m).N) : Prog (TpuEff nD τ sig (Elt F) Λ₀ .tc) PUnit :=
  cc0__gather_kernel (grid0.coords t) (Memref.whole main_arg1) (Memref.isWhole_whole _) (Memref.whole main_arg0) (Memref.isWhole_whole _)
    (spec0_0.stage ((cfgM m).slots t 0)) (hstage0_0 (((cfgM m).slots t 0).cast nbuf0_0)) cc0_scratch0

/-- The table's half the region hands the body. -/
theorem PhiT_eq (c : Dev nD) :
    (Pipeline.ΦT pre0 (tbl m) c : sProp 𝕄) = (TM.view.loc (c : Thread nD τ) ↦{fullShare.right} xtOf m c) := by
  unfold Pipeline.ΦT Pipeline.prefHeld
  rw [show (Finset.univ : Finset (Fin 1)) = {(0 : Fin 1)} from by decide, bigSep_singleton]
  rfl
/-- The region invariant, conjunct by conjunct: no scoped rest, the generator register, the cells at zero, the input. -/
theorem PhiD_eq (c : Dev nD) :
    (Pipeline.ΦD osem spec0 {main_arg0} (V m) c : sProp 𝕄)
      = iprop(emp ∗ (∃ r, prngReg c r) ∗ cells0 (F := F) c ∗ (XM.view.loc (c : Thread nD τ) ↦{fullShare} xOf m c)) := by
  rw [Pipeline.ΦD_eq, scopedRest0_eq, bigSep_singleton]
  rfl

def bodyPre (h : AllChk m) (c : Dev nD) (t : Fin (cfgM m).N) : sProp 𝕄 :=
  iprop((dats m h 0 c).Φ t.castSucc ∗ (dats m h 0 c).owesAt () t.castSucc
    ∗ (∃ d, owns (c : Thread nD τ) (ms0 m t) fullShare ((dats m h 0 c).before 0 t d)))
def bodyPost (h : AllChk m) (c : Dev nD) (t : Fin (cfgM m).N) : sProp 𝕄 :=
  iprop((dats m h 0 c).Φ t.succ ∗ (dats m h 0 c).owesAt () t.succ
    ∗ owns (c : Thread nD τ) (ms0 m t) fullShare ((dats m h 0 c).after 0 t))

/-- The body at any grid point: the invariant and the staging buffer taken apart, the body's run applied, its post
    reassembled; the staging buffer read back is that step's block. -/
theorem sound_body [∀ e, Nonempty (Elt F e)] (h : AllChk m) (c : Dev nD) (t : Fin (cfgM m).N) :
    bodyPre m h c t ⊢ wp frame (wpE (defs₀ (F := F)) Variants.none c none) Set.univ (bodyAt m t) (fun _ => bodyPost m h c t) := by
  unfold bodyPre bodyPost bodyAt
  rw [show (dats m h 0 c).Φ t.succ = (dats m h 0 c).Φ t.castSucc from rfl, after0]
  rw [show (dats m h 0 c).Φ t.castSucc = iprop(Pipeline.ΦD osem spec0 {main_arg0} (V m) c ∗ Pipeline.ΦT pre0 (tbl m) c) from rfl,
    PhiT_eq, PhiD_eq]
  unfold Pipeline.Dat.owesAt Pipeline.owesWithin
  rw [show (dats m h 0 c).owed t.castSucc = 0 from rfl, show (dats m h 0 c).owed t.succ = 0 from rfl]
  unfold owns
  iintro ⟨⟨⟨-, Hp, HC, HX⟩, HT⟩, ⟨%W, %hW, HO⟩, ⟨%d0, %f0, %hf0, H0⟩⟩
  iapply (kernelRun c (grid0.coords t) (ms0 m t) (xtOf m c) (xOf m c) (h c (grid0.coords t)) (hs0 m t) f0 W)
  isplitl [HT]; · iexact HT
  isplitl [HX]; · iexact HX
  isplitl [H0]; · iexact H0
  isplitl [HC]; · iexact HC
  isplitl [HO]; · iexact HO
  iintro ⟨HT, HX, H0, HC, ⟨%W', HO⟩⟩
  isplitl [Hp HC HX HT]
  · isplitl [Hp HC HX]
    · isplitr; · iempintro
      isplitl [Hp]; · iexact Hp
      isplitl [HC]; · iexact HC
      iexact HX
    iexact HT
  isplitl [HO]
  · iexists W'; isplitr; · ipureintro; exact fun _ _ => Or.inl trivial
    iexact HO
  iexists _; isplitr; swap; · iexact H0
  ipureintro; exact read_finalOf c (grid0.coords t) (ms0 m t) (xtOf m c) (xOf m c) (h c (grid0.coords t)) f0

/-- The library's body obligation, at every point. -/
theorem body_obligation [∀ e, Nonempty (Elt F e)] (h : AllChk m) (c : Dev nD) :
    Pipeline.BodyObligation (dats (F := F) m h 0 c) (defs₀ (F := F)) Variants.none () Set.univ := fun t => by
  rw [bigSep_W0, bigSep_W0]
  exact sound_body m h c t

set_option backward.isDefEq.respectTransparency.types false in
/-- THE RUN: every weakly fair execution of @main terminates, the output array at what the library computes from the
    proof data and every other unscoped buffer as the region found it. -/
theorem run_main [∀ e, Nonempty (Elt F e)] (h : AllChk m) :
    θ_run defs (onTc (τ := τ) (main (F := F))) (s₀ m ρ)
      (Pipeline.FramePost (Pipeline.pin pcfgs fun _ => adm m) (dats m h) 0 (V m)) :=
  Pipeline.θ_run_frameP_dma pcfgs (fun _ => adm m) (dats m h) (0 : Fin 1) launch0 osem defs₀ Variants.none ownSemFacts {main_arg0} arg0_rest
    m ρ main
    (hbody := fun c => (body_obligation m h c).loose) (hshare := fun c => (dats m h 0 c).share_full fun _ => rfl)
    (howed := fun _ _ => rfl) (V := V m) (hmain := hmain m Variants.none) (hA := A_eq m h) (hpf := V_pre m)
    (hin := fun _ => .rfl)
    (hout := fun c => by
      show iprop(Pipeline.ΦD osem spec0 {main_arg0} (V m) c ∗ Pipeline.ΦT pre0 (tbl m) c) ⊢ _
      iintro ⟨HD, -⟩; iexact HD)

/-- The run read at the program's three arrays: the result at the proof data's account, the arguments unchanged. -/
theorem run_arrays [∀ e, Nonempty (Elt F e)] (h : AllChk m) :
    θ_run defs (onTc (τ := τ) (main (F := F))) ⟨m, fun _ => 0, ρ⟩ (fun r => ∀ c : Dev nD,
      r.2.mem ((c.tc : Thread nD τ).loc main_v0) = (dats m h 0 c).arrAt 0 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ hp c => ⟨(hp c).1 0,
      (hp c).2 main_arg0 (by decide : main_arg0 ∈ Pipeline.restRefs sig spec0),
      (hp c).2 main_arg1 (by decide : main_arg1 ∈ Pipeline.restRefs sig spec0)⟩) (run_main m ρ h)

end Launch

end Cert.Kernel.Body

end
-- ==== Proof.KWords.lean ====
/-
  The words a trip of the first loop reads, and what its copy delivers, index by index. Trip k of grid step t reads
  row 16·t + k of the index table: its three loads are the table's entries at that row's three columns. When every row
  of the table is in range — the batch entry below 4, the two block positions below 18 — the window those words name,
  at offsets (b, 0, 14·h, 14·w) with sizes (1, 128, 16, 16), lies inside the input (14·17 + 16 = 254 ≤ 256), and the
  element (a, b', d) of the window is the input at (b, a, 14·h + b', 14·w + d): the specification's source index for
  that row. A grid step's sixteen windows, laid side by side, are therefore the specification's block for that step.
-/
import proofs.«427366_j67594195304879_1_alg».proof.Proof.Gen.Kernel.Loops
import proofs.«427366_j67594195304879_1_alg».proof.Proof.Gen.Kernel.Launch
import Idealize.ShloMosaic.Lib.Pipeline.Frame
import Idealize.ShloMosaic.Lib.ValueIdx
import Idealize.ShloMosaic.Lib.ValueLayout
import Idealize.ShloMosaic.Lib.Batch
import Idealize.ShloMosaic.Lib.Ring
import Idealize.ShloMosaic.Lib.Tactic
import proofs.«427366_j67594195304879_1_alg».proof.Proof.KDefs
import proofs.«427366_j67594195304879_1_alg».proof.Proof.PatchSpec

set_option maxRecDepth 16384

noncomputable section

namespace Cert.Kernel.Body

open Cert.Kernel Cert.Kernel.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

/-- The row trip k of grid step i reads. -/
def rowOf (i : grid0.Coords) (k : Fin k0_t1_loop.trips) : Fin 2048 :=
  ⟨16 * (i 0).val + k.val, by
    have h0 : (i 0).val < 128 := (i 0).isLt
    have hk : k.val < 16 := Nat.lt_of_lt_of_eq k.isLt trips1
    omega⟩

theorem rowOf_val (i : grid0.Coords) (k : Fin k0_t1_loop.trips) : (rowOf i k).val = 16 * (i 0).val + k.val := rfl

/-- The one index of a 1 × 1 rectangle of the table at offsets (n, j) is (n, j). -/
theorem unit_idx (n : Fin 2048) (j : Fin 3) (off : Fin 2 → Nat) (hoff : off = ![n.val, j.val])
    (inb : ∀ a, off a + S1x1.size a ≤ S2048x3.size a) (h1 : 0 < S1x1.numel) :
    (Rect.unit (s := S2048x3) off S1x1.size inb).toLoadRect.idx (Shape.Idx.first h1) = (ix2 n j : S2048x3.Idx) := by
  subst hoff
  funext a
  apply Fin.ext
  match a with
  | ⟨0, _⟩ => show n.val + 1 * 0 = n.val; omega
  | ⟨1, _⟩ => show j.val + 1 * 0 = j.val; omega

section Words

variable (c : Dev nD) (i : grid0.Coords)
  (xt : Buf (Elt F) (TM.view.loc (c : Thread nD τ))) (x : Buf (Elt F) (XM.view.loc (c : Thread nD τ)))

/-- The first word trip k loads is column 0 of its row: the load reads the table at the rectangle's one index. -/
theorem tw0_eq (k : Fin k0_t1_loop.trips) : tw0 c i xt k = Cert.PatchSpec.col xt (rowOf i k) 0 :=
  congrArg xt (unit_idx (rowOf i k) 0 _ (k0_off1_eq i k) _ _)
/-- The second is column 1. -/
theorem tw1_eq (k : Fin k0_t1_loop.trips) : tw1 c i xt k = Cert.PatchSpec.col xt (rowOf i k) 1 :=
  congrArg xt (unit_idx (rowOf i k) 1 _ (k0_off2_eq i k) _ _)
/-- The third is column 2. -/
theorem tw2_eq (k : Fin k0_t1_loop.trips) : tw2 c i xt k = Cert.PatchSpec.col xt (rowOf i k) 2 :=
  congrArg xt (unit_idx (rowOf i k) 2 _ (k0_off3_eq i k) _ _)

end Words

/-- Words in range name a window inside the input: the entry is below 4, each pixel offset is 14 times a block
    position below 18, so at most 238, and 238 + 16 ≤ 256. -/
theorem chk_words (w0 w1 w2 : BitVec 32) (h0 : w0.toNat < 4) (h1 : w1.toNat < 18) (h2 : w2.toNat < 18) :
    k0_chk1 w0 w1 w2 := by
  have e1 := Cert.PatchSpec.off14_eq w1 h1
  have e2 := Cert.PatchSpec.off14_eq w2 h2
  unfold k0_chk1
  intro a
  match a with
  | ⟨0, _⟩ => show w0.toNat + 1 ≤ 4; omega
  | ⟨1, _⟩ => show 0 + 128 ≤ 128; omega
  | ⟨2, _⟩ => show Cert.PatchSpec.off14 w1 + 16 ≤ 256; omega
  | ⟨3, _⟩ => show Cert.PatchSpec.off14 w2 + 16 ≤ 256; omega

section Fixed

variable (c : Dev nD) (i : grid0.Coords)
  (xt : Buf (Elt F) (TM.view.loc (c : Thread nD τ))) (x : Buf (Elt F) (XM.view.loc (c : Thread nD τ)))

/-- On an in-range table every trip's window lies inside the input. -/
theorem chk_of_ok (hok : Cert.PatchSpec.TableOk xt) :
    ∀ k, k0_chk1 (tw0 c i xt k) (tw1 c i xt k) (tw2 c i xt k) := by
  intro k
  obtain ⟨h0, h1, h2⟩ := hok (rowOf i k)
  rw [tw0_eq, tw1_eq, tw2_eq]
  exact chk_words _ _ _ h0 h1 h2

variable (hchk : ∀ k, k0_chk1 (tw0 c i xt k) (tw1 c i xt k) (tw2 c i xt k))

/-- Where element (a, b, d) of trip k's window sits in the input, axis by axis: the window drops its leading axis of
    extent one, so the element is (0, a, b, d) of the rectangle, and a unit-stride rectangle places a coordinate at its
    offset plus the coordinate. -/
theorem srcM_emb_val (k : Fin k0_t1_loop.trips) (a : Fin 128) (b d : Fin 16) (ax : Fin 4) :
    (((srcM c i xt hchk k).view.emb (ix3 a b d)) ax : Nat)
      = k0_off6 (tw0 c i xt k) (tw1 c i xt k) (tw2 c i xt k) ax + (ix4 (⟨0, Nat.one_pos⟩ : Fin 1) a b d ax).val := by
  have h := reshapeEquiv_ix3_1abc (a := 128) (b := 16) (c := 16) squeezes_S1x128x16x16_S128x16x16.numel_eq a b d
  show ((Rect.unit (s := S4x128x256x256) (k0_off6 (tw0 c i xt k) (tw1 c i xt k) (tw2 c i xt k)) S1x128x16x16.size
      (k0_off6_inb _ _ _ (hchk k))).emb (Shape.reshapeEquiv squeezes_S1x128x16x16_S128x16x16.numel_eq (ix3 a b d)) ax : Nat) = _
  rw [h, Rect.emb_apply]
  show _ + 1 * _ = _
  rw [Nat.one_mul]
  rfl

/-- On an in-range table that place is the specification's source index for the trip's row. -/
theorem srcM_emb (hok : Cert.PatchSpec.TableOk xt) (k : Fin k0_t1_loop.trips) (a : Fin 128) (b d : Fin 16) :
    (srcM c i xt hchk k).view.emb (ix3 a b d) = Cert.PatchSpec.src xt (rowOf i k) a b d := by
  obtain ⟨s0, s1, s2, s3⟩ := Cert.PatchSpec.src_val xt (rowOf i k) (hok (rowOf i k)) a b d
  obtain ⟨h0, h1, h2⟩ := hok (rowOf i k)
  have e1 := Cert.PatchSpec.off14_eq _ h1
  have e2 := Cert.PatchSpec.off14_eq _ h2
  have key : ∀ ax : Fin 4, (((srcM c i xt hchk k).view.emb (ix3 a b d)) ax : Nat)
      = ((Cert.PatchSpec.src xt (rowOf i k) a b d) ax).val := by
    intro ax
    rw [srcM_emb_val]
    match ax with
    | ⟨0, _⟩ =>
      show (tw0 c i xt k).toNat + 0 = ((Cert.PatchSpec.src xt (rowOf i k) a b d) 0).val
      rw [tw0_eq, s0, Nat.add_zero]
    | ⟨1, _⟩ =>
      show 0 + a.val = ((Cert.PatchSpec.src xt (rowOf i k) a b d) 1).val
      rw [s1, Nat.zero_add]
    | ⟨2, _⟩ =>
      show Cert.PatchSpec.off14 (tw1 c i xt k) + b.val = ((Cert.PatchSpec.src xt (rowOf i k) a b d) 2).val
      rw [tw1_eq, s2, e1]
    | ⟨3, _⟩ =>
      show Cert.PatchSpec.off14 (tw2 c i xt k) + d.val = ((Cert.PatchSpec.src xt (rowOf i k) a b d) 3).val
      rw [tw2_eq, s3, e2]
  funext ax
  exact Fin.ext (key ax)

/-- What lands in a slot, index by index: the input at the specification's source index. -/
theorem pay_apply (hok : Cert.PatchSpec.TableOk xt) (k : Fin k0_t1_loop.trips) (a : Fin 128) (b d : Fin 16) :
    pay c i xt x hchk k (ix3 a b d) = x (Cert.PatchSpec.src xt (rowOf i k) a b d) :=
  congrArg x (srcM_emb c i xt hchk hok k a b d)

/-- The step's block is the specification's: slot g of step t holds the window row 16·t + g names. -/
theorem blockX_eq (hok : Cert.PatchSpec.TableOk xt) (t : Fin 128) (hi : (i 0).val = t.val) :
    blockX c i xt x hchk = Cert.PatchSpec.blockOf x xt t := by
  funext y
  have hr : rowOf i (c1 ⟨(y 0).val, (y 0).isLt⟩)
      = (⟨16 * t.val + (y 0).val, by have h0 : (y 0).val < 16 := (y 0).isLt; have := t.isLt; omega⟩ : Fin 2048) :=
    Fin.ext (by show 16 * (i 0).val + (y 0).val = 16 * t.val + (y 0).val; rw [hi])
  show pay c i xt x hchk (c1 ⟨(y 0).val, (y 0).isLt⟩) (ix3 (⟨(y 1).val, (y 1).isLt⟩ : Fin 128) (⟨(y 2).val, (y 2).isLt⟩ : Fin 16) (⟨(y 3).val, (y 3).isLt⟩ : Fin 16))
    = x (Cert.PatchSpec.src xt ⟨16 * t.val + (y 0).val, _⟩ (y 1) (y 2) (y 3))
  rw [pay_apply c i xt x hchk hok, hr]
  rfl

end Fixed

end Cert.Kernel.Body

end
-- ==== Proof.KFrame.lean ====
/-
  The frame of the program under an in-range index table: on such a table every window the kernel copies lies inside
  the input, so every grid step's run applies, and the launch's run has the arguments unchanged at the end.
-/
import proofs.«427366_j67594195304879_1_alg».proof.Proof.Gen.Kernel.Loops
import proofs.«427366_j67594195304879_1_alg».proof.Proof.Gen.Kernel.Launch
import proofs.«427366_j67594195304879_1_alg».proof.Proof.KLaunch
import proofs.«427366_j67594195304879_1_alg».proof.Proof.KWords
import Idealize.ShloMosaic.Lib.Pipeline.Frame
import Idealize.ShloMosaic.Lib.Batch
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

section Frame

variable (m : (ℓ : Loc nD τ sig) → Buf (Elt F) ℓ) (ρ : Dev nD → PrngReg)

/-- On an in-range table every trip's window check holds, at every grid step. -/
theorem allChk_of_ok (hok : ∀ c : Dev nD, Cert.PatchSpec.TableOk (xtOf m c)) : AllChk m :=
  fun c i => chk_of_ok c i (xtOf m c) (hok c)

/-- THE FRAME: every weakly fair execution of @main terminates, nothing faults, the two arguments end unchanged. -/
theorem frame_of_ok [∀ e, Nonempty (Elt F e)] (hok : ∀ c : Dev nD, Cert.PatchSpec.TableOk (xtOf m c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ hp c => (hp c).2) (run_arrays m ρ (allChk_of_ok m hok))

end Frame

end Cert.Kernel.Body

end
-- ==== Proof.KIDefs.lean ====
/-
  One grid step of the gather, in the vocabulary the proofs share. A step copies sixteen patches: trip k of its first
  loop reads row 16·t + k of the index table, starts a copy of that row's 128 × 16 × 16 window of the input into slot k
  of the step's staging block on semaphore cell k; trip k of its second loop waits on cell k. Each patch is therefore in
  one of three states — not started (slot at any contents, cell at zero, its read token of the input whole), in flight
  (the cell's transfer pending, delivering the slot written with the window's contents and the window's elements of the
  token back), landed — and the two loops' invariants say which patches are in which state before trip n.
-/
import proofs.«427366_j67594195304879_1_alg».proof.Proof.Gen.KernelIdeal.Loops
import proofs.«427366_j67594195304879_1_alg».proof.Proof.Gen.KernelIdeal.Launch
import Idealize.ShloMosaic.Lib.Pipeline.Frame
import Idealize.ShloMosaic.Lib.ValueIdx
import Idealize.ShloMosaic.Lib.Batch
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

/-- The index table and the input as the body is handed them. -/
abbrev TM : Memref sig .tc .smem S2048x3 .i32 := Memref.whole main_arg1
abbrev XM : Memref sig .tc .hbm S4x128x256x256 .f32 := Memref.whole main_arg0

theorem trips1 : k0_t1_loop.trips = 16 := by decide
theorem trips2 : k0_t2_loop.trips = 16 := by decide
/-- Patch g of a grid step, as a trip of the first loop and as a trip of the second. -/
def c1 (g : Fin 16) : Fin k0_t1_loop.trips := ⟨g.val, trips1.symm ▸ g.isLt⟩
def c2 (g : Fin 16) : Fin k0_t2_loop.trips := ⟨g.val, trips2.symm ▸ g.isLt⟩
theorem c1_mk (k : Fin k0_t1_loop.trips) (h : k.val < 16) : c1 ⟨k.val, h⟩ = k := rfl
theorem c2_mk (k : Fin k0_t2_loop.trips) (h : k.val < 16) : c2 ⟨k.val, h⟩ = k := rfl

/-- Slot k of a staging buffer and cell k of the semaphore array, as each loop's body spells them. -/
def slot1 (arg3 : Memref sig .tc .vmem S16x128x16x16 .f32) (k : Fin k0_t1_loop.trips) : Memref sig .tc .vmem S128x16x16 .f32 :=
  (arg3.slice (Rect.unit (s := S16x128x16x16) (k0_off5 k) S1x128x16x16.size (k0_off5_inb k)) (fun _ => rfl)).squeeze S128x16x16 squeezes_S1x128x16x16_S128x16x16
def cell1 (k : Fin k0_t1_loop.trips) : DmaSem sig :=
  ((cc0_scratch0.slice (Rect.unit (s := S16) (k0_off4 k) S1.size (k0_off4_inb k))).squeeze S_ squeezes_S1_S_).sem
def cell2 (k : Fin k0_t2_loop.trips) : DmaSem sig :=
  ((cc0_scratch0.slice (Rect.unit (s := S16) (k0_off7 k) S1.size (k0_off7_inb k))).squeeze S_ squeezes_S1_S_).sem

section Fixed

variable (c : Dev nD) (i : grid0.Coords) (arg3 : Memref sig .tc .vmem S16x128x16x16 .f32)
  (xt : Buf (Elt F) (TM.view.loc (c : Thread nD τ))) (x : Buf (Elt F) (XM.view.loc (c : Thread nD τ)))

/-- The three words of the table row trip k reads, as the run spells its loads. -/
abbrev tw0 (k : Fin k0_t1_loop.trips) : Elt F .i32 :=
  View.readAt (Elt F) TM.view (Rect.unit (s := S2048x3) (k0_off1 i k) S1x1.size (k0_off1_inb i k)).toLoadRect xt (Shape.Idx.first (numel1_S1x1.symm ▸ Nat.one_pos))
abbrev tw1 (k : Fin k0_t1_loop.trips) : Elt F .i32 :=
  View.readAt (Elt F) TM.view (Rect.unit (s := S2048x3) (k0_off2 i k) S1x1.size (k0_off2_inb i k)).toLoadRect xt (Shape.Idx.first (numel1_S1x1.symm ▸ Nat.one_pos))
abbrev tw2 (k : Fin k0_t1_loop.trips) : Elt F .i32 :=
  View.readAt (Elt F) TM.view (Rect.unit (s := S2048x3) (k0_off3 i k) S1x1.size (k0_off3_inb i k)).toLoadRect xt (Shape.Idx.first (numel1_S1x1.symm ▸ Nat.one_pos))

variable (hchk : ∀ k, k0_chk1 (tw0 c i xt k) (tw1 c i xt k) (tw2 c i xt k))

/-- The input's window trip k copies from. -/
def srcM (k : Fin k0_t1_loop.trips) : Memref sig .tc .hbm S128x16x16 .f32 :=
  (XM.slice (Rect.unit (s := S4x128x256x256) (k0_off6 (tw0 c i xt k) (tw1 c i xt k) (tw2 c i xt k)) S1x128x16x16.size
    (k0_off6_inb _ _ _ (hchk k))) (fun _ => rfl)).squeeze S128x16x16 squeezes_S1x128x16x16_S128x16x16
/-- What lands in slot k: the input read through that window. -/
def pay (k : Fin k0_t1_loop.trips) : S128x16x16.Idx → Elt F .f32 := (srcM c i xt hchk k).view.read (Elt F) x

/-- Read token k of the input. -/
abbrev tok (k : Fin k0_t1_loop.trips) : PosShare TreeShare := Transfers.shareTokN fullShare k.val

/-- What transfer k delivers: slot k written whole with the window's contents, and the window's elements of token k. -/
def dlv (k : Fin k0_t1_loop.trips) (g : Buf (Elt F) ((slot1 arg3 k).view.loc (c : Thread nD τ))) : sProp 𝕄 :=
  iprop(((slot1 arg3 k).view.loc (c : Thread nD τ) ↦[(slot1 arg3 k).view.set]{fullShare}
        (slot1 arg3 k).view.writes (Elt F) g [⟨Rect.whole S128x16x16, pay c i xt x hchk k⟩])
      ∗ (XM.view.loc (c : Thread nD τ) ↦[(srcM c i xt hchk k).view.set]{tok k} x))
/-- Transfer k in flight on cell `cl`, beside the rest of token k. -/
def flying (cl : DmaSem sig) (k : Fin k0_t1_loop.trips) : sProp 𝕄 :=
  iprop((∃ g, Transfers.Flight (countersEmb (U := UD sig nD τ)) (c : Thread nD τ) (SemLoc.dma cl) default 32768 (dlv c i arg3 xt x hchk k g))
    ∗ (XM.view.loc (c : Thread nD τ) ↦[XM.view.set \ (srcM c i xt hchk k).view.set]{tok k} x))
/-- Patch k not started: its slot at some contents, its cell at zero, its token whole. -/
def ready (k : Fin k0_t1_loop.trips) : sProp 𝕄 :=
  iprop((∃ g, (slot1 arg3 k).view.loc (c : Thread nD τ) ↦[(slot1 arg3 k).view.set]{fullShare} g)
    ∗ semVal ((c : Thread nD τ), SemLoc.dma (cell1 k)) 0
    ∗ (XM.view.loc (c : Thread nD τ) ↦[XM.view.set]{tok k} x))
/-- Patch k landed: its slot written with the window's contents, its cell `cl` at zero, its token whole. -/
def landed (cl : DmaSem sig) (k : Fin k0_t1_loop.trips) : sProp 𝕄 :=
  iprop((∃ g, (slot1 arg3 k).view.loc (c : Thread nD τ) ↦[(slot1 arg3 k).view.set]{fullShare}
        (slot1 arg3 k).view.writes (Elt F) g [⟨Rect.whole S128x16x16, pay c i xt x hchk k⟩])
    ∗ semVal ((c : Thread nD τ), SemLoc.dma cl) 0
    ∗ (XM.view.loc (c : Thread nD τ) ↦[XM.view.set]{tok k} x))

/-- Before trip n of the first loop: patches below n in flight, the others not started; the table in hand. -/
def issueAt (n : ℕ) (_ : Unit) : sProp 𝕄 :=
  iprop((TM.view.loc (c : Thread nD τ) ↦{fullShare.right} xt)
    ∗ bigSep (Ring.rangeSet 16 0 n) (fun g => flying c i arg3 xt x hchk (cell1 (c1 g)) (c1 g))
    ∗ bigSep (Ring.rangeSet 16 n 16) (fun g => ready c arg3 x (c1 g)))
/-- Before trip n of the second loop: patches below n landed, the others in flight. -/
def drainAt (n : ℕ) (_ : Unit) : sProp 𝕄 :=
  iprop((∃ W, owes (c : Thread nD τ) 0 W)
    ∗ bigSep (Ring.rangeSet 16 0 n) (fun g => landed c i arg3 xt x hchk (cell2 (c2 g)) (c1 g))
    ∗ bigSep (Ring.rangeSet 16 n 16) (fun g => flying c i arg3 xt x hchk (cell2 (c2 g)) (c1 g)))

theorem bigSep_rangeSet_snoc {M : Type} [URA M] (Φ : Fin 16 → sProp M) {lo n : ℕ} (h : lo ≤ n) (hn : n < 16) :
    bigSep (Ring.rangeSet 16 lo (n + 1)) Φ = iprop(Φ ⟨n, hn⟩ ∗ bigSep (Ring.rangeSet 16 lo n) Φ) := by
  have := Ring.bigSep_rangeSet_last (NB := 16) (Φ := Φ) (lo := lo) (hi := n + 1) (by omega) (by omega)
  simpa using this

/-- What a grid step leaves in its staging block: slot g holds the window row 16·t + g names. -/
def blockX : S16x128x16x16.Idx → Elt F .f32 := fun y =>
  pay c i xt x hchk (c1 ⟨(y 0).val, (y 0).isLt⟩)
    (Idealize.ShloMosaic.ValueIdx.ix3 (⟨(y 1).val, (y 1).isLt⟩ : Fin 128) (⟨(y 2).val, (y 2).isLt⟩ : Fin 16) (⟨(y 3).val, (y 3).isLt⟩ : Fin 16))

/-- The staging buffer's contents after the step, over whatever it held before (`d`, overwritten everywhere). -/
def finalOf (d : Buf (Elt F) (arg3.view.loc (c : Thread nD τ))) : Buf (Elt F) (arg3.view.loc (c : Thread nD τ)) :=
  arg3.view.write (Elt F) d (blockX c i xt x hchk) Finset.univ

end Fixed

end Cert.KernelIdeal.Body

end
-- ==== Proof.KIData.lean ====
/-
  The launch-side vocabulary: what the one region finds in memory (the program is the region alone, so the launch
  contents), the index table read off it, the pipeline at that table, the kernel's sixteen semaphore cells, and the
  proof data — after grid step t the output window's staging block holds that step's sixteen patches.
-/
import proofs.«427366_j67594195304879_1_alg».proof.Proof.Gen.KernelIdeal.Loops
import proofs.«427366_j67594195304879_1_alg».proof.Proof.Gen.KernelIdeal.Launch
import proofs.«427366_j67594195304879_1_alg».proof.Proof.KIDefs
import Idealize.ShloMosaic.Lib.Pipeline.Frame
import Idealize.ShloMosaic.Lib.Batch
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

section Launch

variable (m : (ℓ : Loc nD τ sig) → Buf (Elt F) ℓ) (ρ : Dev nD → PrngReg)

/-- Core c's buffers when the region is entered: as launched. -/
abbrev V (c : Dev nD) (b : Ref sig .tc) : Buf (Elt F) ((c : Thread nD τ).loc b) := m ((c : Thread nD τ).loc b)

/-- The prefetched table's contents (the program runs on one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

/-- The table as admissible contents (no window's index map reads it), and the pipeline at them. -/
abbrev adm : (pcfg0 (F := F)).Adm := ⟨tbl m, trivial⟩
abbrev cfgM : Pipeline.Cfg sig Λ₀ := cfg0 (adm m)

/-- The table and the input as the body reads them on core c. -/
abbrev xtOf (c : Dev nD) : Buf (Elt F) (TM.view.loc (c : Thread nD τ)) := tbl m 0
abbrev xOf (c : Dev nD) : Buf (Elt F) (XM.view.loc (c : Thread nD τ)) := V m c main_arg0

/-- Every window the kernel copies lies inside the input: at every grid step and trip, of the words read there. -/
def AllChk : Prop :=
  ∀ (c : Dev nD) (i : grid0.Coords) (k : Fin k0_t1_loop.trips), k0_chk1 (tw0 c i (xtOf m c) k) (tw1 c i (xtOf m c) k) (tw2 c i (xtOf m c) k)

/-- The kernel's own semaphore cells, patch by patch. -/
abbrev osem : Fin 16 → SemLoc sig := fun g => .dma (cell1 (c1 g))

/-- The proof data of the one pipeline on core c. -/
def dats (h : AllChk m) (_ : Fin 1) (c : Dev nD) : Pipeline.Dat τ (Elt F) Unit ℕ (UD sig nD τ) ℕ (cfgM m) c where
  A w := V m c (Pipeline.arrRef spec0 w)
  after w t := match w with
    | ⟨0, _⟩ => blockX c (grid0.coords t) (xtOf m c) (xOf m c) (h c (grid0.coords t))
  Φ _ := iprop(Pipeline.ΦD osem spec0 {main_arg0} (V m) c ∗ Pipeline.ΦT pre0 (tbl m) c)
  q _ := fullShare
  owed _ := 0

theorem A_eq (h : AllChk m) (c : Dev nD) (w : Fin (cfgM m).W) : (dats m h 0 c).A w = V m c (Pipeline.arrRef spec0 w) := by
  dsimp only [dats]
theorem after0 (h : AllChk m) (c : Dev nD) (t : Fin (cfgM m).N) :
    (dats m h 0 c).after 0 t = blockX c (grid0.coords t) (xtOf m c) (xOf m c) (h c (grid0.coords t)) := by
  dsimp only [dats]; try rfl

end Launch

end Cert.KernelIdeal.Body

end
-- ==== Proof.KISteps.lean ====
/-
  One trip of each loop of a grid step, at a symbolic trip. Trip k of the first loop takes patch k from "not started"
  to "in flight": it reads the row's three words (in range by hypothesis, so the window lies in the input), and starts
  the copy on cell k, lending the window's elements of read token k. Trip k of the second loop takes patch k from "in
  flight" to "landed": the wait on cell k hands back the slot written with the window's contents and the token whole.
  The two loops spell cell k by different index chains; both are cell 2 + k of the program's semaphore pool.
-/
import proofs.«427366_j67594195304879_1_alg».proof.Proof.Gen.KernelIdeal.Loops
import proofs.«427366_j67594195304879_1_alg».proof.Proof.Gen.KernelIdeal.Launch
import proofs.«427366_j67594195304879_1_alg».proof.Proof.KIDefs
import Idealize.ShloMosaic.Lib.Pipeline.Frame
import Idealize.ShloMosaic.Lib.Batch
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

section Fixed

variable (c : Dev nD) (i : grid0.Coords) (arg3 : Memref sig .tc .vmem S16x128x16x16 .f32)
  (xt : Buf (Elt F) (TM.view.loc (c : Thread nD τ))) (x : Buf (Elt F) (XM.view.loc (c : Thread nD τ)))
  (hchk : ∀ k, k0_chk1 (tw0 c i xt k) (tw1 c i xt k) (tw2 c i xt k))

/-- The two loops name the same cell for patch g. -/
theorem cell12 : ∀ g : Fin 16, cell1 (c1 g) = cell2 (c2 g) := by decide +kernel

/-- Trip k of the first loop: patch k goes from not started to in flight. -/
theorem issue_step [∀ e, Nonempty (Elt F e)] (harg3 : arg3.IsWhole) (k : Fin k0_t1_loop.trips) (acc : Unit) :
    issueAt c i arg3 xt x hchk k.val acc
      ⊢ wp frame (wpE defs₀ Variants.none (c : Thread nD τ) none) Set.univ
          (k0_t1_body (F := F) i TM (Memref.isWhole_whole _) XM (Memref.isWhole_whole _) arg3 harg3 cc0_scratch0 k acc)
          (issueAt c i arg3 xt x hchk (k.val + 1)) := by
  have hk : k.val < 16 := trips1 ▸ k.isLt
  unfold issueAt
  rw [Ring.bigSep_rangeSet_head (Φ := fun g => ready c arg3 x (c1 g)) (lo := k.val) (hi := 16) hk hk, c1_mk]
  unfold ready
  iintro ⟨HT, HFs, ⟨⟨%g, HS⟩, HC, HX⟩, HRs⟩
  have hw := hchk k
  unfold k0_t1_body
  sl_exec
  sl_step
  isplitl [HT]; · iexact HT
  isplitl [HFs HC HX]
  · rw [bigSep_rangeSet_snoc _ (Nat.zero_le _) hk, c1_mk]
    isplitl [HC HX]
    · unfold flying dlv
      isplitl [HC]; · iexists g; iexact HC
      iexact HX
    iexact HFs
  iexact HRs

/-- Trip k of the second loop: patch k goes from in flight to landed. -/
theorem drain_step [∀ e, Nonempty (Elt F e)] (harg3 : arg3.IsWhole) (k : Fin k0_t2_loop.trips) (acc : Unit) :
    drainAt c i arg3 xt x hchk k.val acc
      ⊢ wp frame (wpE defs₀ Variants.none (c : Thread nD τ) none) Set.univ
          (k0_t2_body (F := F) i TM (Memref.isWhole_whole _) XM (Memref.isWhole_whole _) arg3 harg3 cc0_scratch0 k acc)
          (drainAt c i arg3 xt x hchk (k.val + 1)) := by
  have hk : k.val < 16 := trips2 ▸ k.isLt
  unfold drainAt
  rw [Ring.bigSep_rangeSet_head (Φ := fun g => flying c i arg3 xt x hchk (cell2 (c2 g)) (c1 g)) (lo := k.val) (hi := 16) hk hk, c2_mk]
  unfold flying dlv srcM
  iintro ⟨⟨%W, HO⟩, HLs, ⟨⟨%g, HF⟩, HXr⟩, HFs⟩
  unfold k0_t2_body
  sl_exec
  sl_step
  isplitl [HO]; · iexists _; iexact HO
  isplitl [HLs HF_dst HXr HF]
  · rw [bigSep_rangeSet_snoc _ (Nat.zero_le _) hk, c2_mk]
    isplitl [HF_dst HXr HF]
    · unfold landed
      isplitl [HF_dst]; · iexists g; iexact HF_dst
      isplitl [HF]; · iexact HF
      iexact HXr
    iexact HLs
  iexact HFs

/-- After the first loop every patch is in flight; restated over the second loop's spelling of the cells. -/
theorem flying_cells :
    (fun g : Fin 16 => flying c i arg3 xt x hchk (cell1 (c1 g)) (c1 g))
      = (fun g : Fin 16 => flying c i arg3 xt x hchk (cell2 (c2 g)) (c1 g)) := by
  funext g; rw [cell12 g]

end Fixed

end Cert.KernelIdeal.Body

end
-- ==== Proof.KIGeom.lean ====
/-
  Where the sixteen slots of a grid step's staging buffer sit. Slot g is the buffer's elements whose leading
  coordinate is g: the unit rectangle at offsets (g, 0, 0, 0) of sizes 1 × 128 × 16 × 16, its leading axis then
  dropped. Distinct slots share no element, and the sixteen of them are the whole buffer; a slot written whole
  with its patch holds, on its own elements, what the step leaves in the buffer.
-/
import proofs.«427366_j67594195304879_1_alg».proof.Proof.Gen.KernelIdeal.Loops
import proofs.«427366_j67594195304879_1_alg».proof.Proof.Gen.KernelIdeal.Launch
import Idealize.ShloMosaic.Lib.Pipeline.Frame
import Idealize.ShloMosaic.Lib.ValueIdx
import Idealize.ShloMosaic.Lib.Batch
import Idealize.ShloMosaic.Lib.Ring
import Idealize.ShloMosaic.Lib.Tactic
import proofs.«427366_j67594195304879_1_alg».proof.Proof.KIDefs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

/-! ### The rectangle a slot is cut from -/

/-- The rectangle of the staging buffer's shape that slot k is cut from. -/
abbrev slotR (k : Fin k0_t1_loop.trips) : Rect S16x128x16x16 :=
  Rect.unit (s := S16x128x16x16) (k0_off5 k) S1x128x16x16.size (k0_off5_inb k)

/-- An index of the staging buffer's shape is in slot k's rectangle exactly when its leading coordinate is k. -/
theorem mem_slotR (k : Fin k0_t1_loop.trips) (y : S16x128x16x16.Idx) : y ∈ (slotR k).set ↔ (y 0).val = k.val := by
  rw [Rect.mem_set_unit, k0_off5_eq]
  have h1 : (y 1).val < 128 := (y 1).isLt
  have h2 : (y 2).val < 16 := (y 2).isLt
  have h3 : (y 3).val < 16 := (y 3).isLt
  constructor
  · intro H
    have h0 : k.val ≤ (y 0).val ∧ (y 0).val < k.val + 1 := H 0
    omega
  · intro H a
    fin_cases a
    · show k.val ≤ (y 0).val ∧ (y 0).val < k.val + 1
      omega
    · show 0 ≤ (y 1).val ∧ (y 1).val < 0 + 128
      omega
    · show 0 ≤ (y 2).val ∧ (y 2).val < 0 + 16
      omega
    · show 0 ≤ (y 3).val ∧ (y 3).val < 0 + 16
      omega

/-- Where slot k's index z sits in the staging buffer's shape: behind a leading zero in the 1 × 128 × 16 × 16
    rectangle, then at the rectangle's offsets. -/
def slotY (k : Fin k0_t1_loop.trips) (z : S128x16x16.Idx) : S16x128x16x16.Idx :=
  (slotR k).emb (Shape.reshapeEquiv (s := S1x128x16x16) (s' := S128x16x16) squeezes_S1x128x16x16_S128x16x16.numel_eq z)

/-- Slot k places its index z where the staging memref places that index of its own shape. -/
theorem slot1_emb (arg3 : Memref sig .tc .vmem S16x128x16x16 .f32) (k : Fin k0_t1_loop.trips) (z : S128x16x16.Idx) :
    (slot1 arg3 k).view.emb z = arg3.view.emb (slotY k z) := rfl

/-- Dropping the leading axis of size one puts z behind the coordinate zero. -/
theorem squeeze_eq (z : S128x16x16.Idx) :
    Shape.reshapeEquiv (s := S1x128x16x16) (s' := S128x16x16) squeezes_S1x128x16x16_S128x16x16.numel_eq z
      = (Fin.cons (⟨0, Nat.one_pos⟩ : Fin 1) z : S1x128x16x16.Idx) :=
  Shape.reshapeEquiv_cons_one _ z

theorem slotY_val (k : Fin k0_t1_loop.trips) (z : S128x16x16.Idx) (a : Fin 4) :
    (slotY k z a).val = (![k.val, 0, 0, 0] : Fin 4 → ℕ) a + ((Fin.cons (⟨0, Nat.one_pos⟩ : Fin 1) z : S1x128x16x16.Idx) a).val := by
  unfold slotY
  rw [squeeze_eq]
  show k0_off5 k a + 1 * _ = _
  rw [k0_off5_eq, Nat.one_mul]

theorem slotY_0 (k : Fin k0_t1_loop.trips) (z : S128x16x16.Idx) : (slotY k z 0).val = k.val := by
  rw [slotY_val]; rfl
theorem slotY_1 (k : Fin k0_t1_loop.trips) (z : S128x16x16.Idx) : (slotY k z 1).val = (z 0).val := by
  rw [slotY_val]; show 0 + (z 0).val = _; omega
theorem slotY_2 (k : Fin k0_t1_loop.trips) (z : S128x16x16.Idx) : (slotY k z 2).val = (z 1).val := by
  rw [slotY_val]; show 0 + (z 1).val = _; omega
theorem slotY_3 (k : Fin k0_t1_loop.trips) (z : S128x16x16.Idx) : (slotY k z 3).val = (z 2).val := by
  rw [slotY_val]; show 0 + (z 2).val = _; omega

/-! ### The slots as a cut of the buffer -/

/-- Slot g's elements of the staging buffer. -/
abbrev slotI (c : Dev nD) (arg3 : Memref sig .tc .vmem S16x128x16x16 .f32) (g : Fin 16) :
    Finset (Idx (arg3.view.loc (c : Thread nD τ))) := (slot1 arg3 (c1 g)).view.set

/-- Slot g's elements are its rectangle's indices, placed as the staging memref places them. -/
theorem slotI_eq (c : Dev nD) (arg3 : Memref sig .tc .vmem S16x128x16x16 .f32) (g : Fin 16) :
    slotI c arg3 g = (slotR (c1 g)).set.map arg3.view.emb :=
  (View.set_reshape _ _).trans (View.set_slice _ _)

/-- Two slots' leading coordinates differ, so they share no element. -/
theorem slotI_disjoint (c : Dev nD) (arg3 : Memref sig .tc .vmem S16x128x16x16 .f32) :
    ∀ g g' : Fin 16, g ≠ g' → Disjoint (slotI c arg3 g) (slotI c arg3 g') := by
  intro g g' hne
  rw [slotI_eq, slotI_eq, Finset.disjoint_map, Finset.disjoint_left]
  intro y hy hy'
  rw [mem_slotR] at hy hy'
  exact hne (Fin.ext (hy.symm.trans hy'))

/-- Every element of a whole buffer has a leading coordinate, and is in that slot. -/
theorem slotI_cover (c : Dev nD) (arg3 : Memref sig .tc .vmem S16x128x16x16 .f32) (harg3 : arg3.IsWhole) :
    Finset.univ.biUnion (slotI c arg3) = Finset.univ := by
  ext idx
  simp only [Finset.mem_biUnion, Finset.mem_univ, true_and, iff_true]
  have hidx : idx ∈ arg3.view.set := by rw [harg3.set_eq_univ]; exact Finset.mem_univ _
  obtain ⟨y, -, rfl⟩ := Finset.mem_map.mp hidx
  refine ⟨⟨(y 0).val, (y 0).isLt⟩, ?_⟩
  rw [slotI_eq]
  exact Finset.mem_map_of_mem _ ((mem_slotR _ _).mpr rfl)

/-! ### What a landed slot holds -/

section Fixed

variable (c : Dev nD) (i : grid0.Coords) (arg3 : Memref sig .tc .vmem S16x128x16x16 .f32)
  (xt : Buf (Elt F) (TM.view.loc (c : Thread nD τ))) (x : Buf (Elt F) (XM.view.loc (c : Thread nD τ)))
  (hchk : ∀ k, k0_chk1 (tw0 c i xt k) (tw1 c i xt k) (tw2 c i xt k))

/-- The step's block, at the place of slot k's index z, is patch k at z. -/
theorem blockX_slotY (k : Fin k0_t1_loop.trips) (z : S128x16x16.Idx) :
    blockX c i xt x hchk (slotY k z) = pay c i xt x hchk k z := by
  unfold blockX
  have hk : c1 ⟨(slotY k z 0).val, (slotY k z 0).isLt⟩ = k := Fin.ext (slotY_0 k z)
  have hz : Idealize.ShloMosaic.ValueIdx.ix3 (⟨(slotY k z 1).val, (slotY k z 1).isLt⟩ : Fin 128)
      (⟨(slotY k z 2).val, (slotY k z 2).isLt⟩ : Fin 16) (⟨(slotY k z 3).val, (slotY k z 3).isLt⟩ : Fin 16) = z := by
    funext a
    match a with
    | ⟨0, _⟩ => exact Fin.ext (slotY_1 k z)
    | ⟨1, _⟩ => exact Fin.ext (slotY_2 k z)
    | ⟨2, _⟩ => exact Fin.ext (slotY_3 k z)
  rw [hk, hz]

end Fixed

/-- Written whole through a view with the payload w, the element the view places z at holds w at z. -/
theorem writes_whole_emb {κ : Kind} {sp : Space} {s : Shape} {e : EltTy} {Val : EltTy → Type} (v : View sig κ sp s e)
    (f : v.ty.Contents Val) (w : s.Idx → Val e) (z : s.Idx) :
    v.writes Val f [⟨Rect.whole s, w⟩] (v.emb z) = cast (congrArg Val v.elt_eq.symm) (w z) := by
  have e1 : v.emb z = (v.slice (Rect.whole s)).emb z := congrArg v.emb (Rect.emb_whole_apply s z).symm
  rw [View.writes_cons, View.writes_nil, e1]
  exact View.write_emb_of_mem _ _ (Finset.mem_univ _)

/-- A slot written whole with its patch agrees, on the slot's elements, with the step's final contents (whatever was there before). -/
theorem landed_eq_final (c : Dev nD) (i : grid0.Coords) (arg3 : Memref sig .tc .vmem S16x128x16x16 .f32) (harg3 : arg3.IsWhole)
    (xt : Buf (Elt F) (TM.view.loc (c : Thread nD τ))) (x : Buf (Elt F) (XM.view.loc (c : Thread nD τ)))
    (hchk : ∀ k, k0_chk1 (tw0 c i xt k) (tw1 c i xt k) (tw2 c i xt k))
    (d g' : Buf (Elt F) (arg3.view.loc (c : Thread nD τ))) (g : Fin 16) :
    ∀ idx ∈ slotI c arg3 g,
      (slot1 arg3 (c1 g)).view.writes (Elt F) g' [⟨Rect.whole S128x16x16, pay c i xt x hchk (c1 g)⟩] idx
        = finalOf c i arg3 xt x hchk d idx := by
  intro idx hidx
  obtain ⟨z, -, rfl⟩ := Finset.mem_map.mp hidx
  -- the left side: the one piece is the whole slot, so the element under z takes the patch at z
  refine (writes_whole_emb (slot1 arg3 (c1 g)).view g' (pay c i xt x hchk (c1 g)) z).trans ?_
  -- the right side: the same element is the staging memref's at leading coordinate g, where the block is that patch
  have hR : finalOf c i arg3 xt x hchk d (arg3.view.emb (slotY (c1 g) z))
      = cast (congrArg (Elt F) arg3.view.elt_eq.symm) (pay c i xt x hchk (c1 g) z) := by
    unfold finalOf
    refine (View.write_emb_of_mem _ _ (Finset.mem_univ _)).trans ?_
    rw [blockX_slotY]
  exact hR.symm

/-- The step's final contents read through the staging memref are the block. -/
theorem read_finalOf (c : Dev nD) (i : grid0.Coords) (arg3 : Memref sig .tc .vmem S16x128x16x16 .f32)
    (xt : Buf (Elt F) (TM.view.loc (c : Thread nD τ))) (x : Buf (Elt F) (XM.view.loc (c : Thread nD τ)))
    (hchk : ∀ k, k0_chk1 (tw0 c i xt k) (tw1 c i xt k) (tw2 c i xt k))
    (d : Buf (Elt F) (arg3.view.loc (c : Thread nD τ))) :
    arg3.view.read (Elt F) (finalOf c i arg3 xt x hchk d) = blockX c i xt x hchk := by
  unfold finalOf
  exact View.read_write_univ _ _

end Cert.KernelIdeal.Body

end
-- ==== Proof.KIBodyRun.lean ====
/-
  One grid step, whole. At entry the input is split into sixteen read tokens and the staging buffer into its sixteen
  slots, so every patch is "not started"; the first loop starts every patch, the second waits for every patch; at exit
  the tokens are joined back into the input and the slots — each written with its window — into the staging buffer,
  whose contents read back are the step's block.
-/
import proofs.«427366_j67594195304879_1_alg».proof.Proof.Gen.KernelIdeal.Loops
import proofs.«427366_j67594195304879_1_alg».proof.Proof.Gen.KernelIdeal.Launch
import proofs.«427366_j67594195304879_1_alg».proof.Proof.KISteps
import proofs.«427366_j67594195304879_1_alg».proof.Proof.KIGeom
import Idealize.ShloMosaic.Lib.Pipeline.Frame
import Idealize.ShloMosaic.Lib.Batch
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

section Fixed

variable (c : Dev nD) (i : grid0.Coords) (arg3 : Memref sig .tc .vmem S16x128x16x16 .f32)
  (xt : Buf (Elt F) (TM.view.loc (c : Thread nD τ))) (x : Buf (Elt F) (XM.view.loc (c : Thread nD τ)))
  (hchk : ∀ k, k0_chk1 (tw0 c i xt k) (tw1 c i xt k) (tw2 c i xt k))

/-- Cell g at zero; the kernel's sixteen cells, each at zero. -/
abbrev cellZ (g : Fin 16) : sProp 𝕄 := semVal ((c : Thread nD τ), SemLoc.dma (cell1 (c1 g))) 0
abbrev cells0 : sProp 𝕄 := bigSep Finset.univ (cellZ (F := F) c)

/-- The three parts of a patch's state, family by family. -/
abbrev slotAny (g : Fin 16) : sProp 𝕄 :=
  iprop(∃ g', (slot1 arg3 (c1 g)).view.loc (c : Thread nD τ) ↦[(slot1 arg3 (c1 g)).view.set]{fullShare} g')
abbrev slotLanded (g : Fin 16) : sProp 𝕄 :=
  iprop(∃ g', (slot1 arg3 (c1 g)).view.loc (c : Thread nD τ) ↦[(slot1 arg3 (c1 g)).view.set]{fullShare}
    (slot1 arg3 (c1 g)).view.writes (Elt F) g' [⟨Rect.whole S128x16x16, pay c i xt x hchk (c1 g)⟩])
abbrev tokW (g : Fin 16) : sProp 𝕄 := XM.view.loc (c : Thread nD τ) ↦[XM.view.set]{tok (c1 g)} x

theorem ready_fam : (fun g : Fin 16 => ready c arg3 x (c1 g))
    = fun g : Fin 16 => iprop(slotAny c arg3 g ∗ (cellZ c g ∗ tokW c x g)) := by
  funext g; unfold ready; rfl
theorem landed_fam : (fun g : Fin 16 => landed c i arg3 xt x hchk (cell2 (c2 g)) (c1 g))
    = fun g : Fin 16 => iprop(slotLanded c i arg3 xt x hchk g ∗ (cellZ c g ∗ tokW c x g)) := by
  funext g; unfold landed; rw [← cell12 g]

/-- Every patch not started, family by family. -/
theorem ready_split :
    (bigSep (Ring.rangeSet 16 0 16) (fun g : Fin 16 => ready c arg3 x (c1 g)) : sProp 𝕄)
      = iprop(bigSep Finset.univ (slotAny c arg3) ∗ (cells0 (F := F) c ∗ bigSep Finset.univ (tokW c x))) := by
  rw [Ring.rangeSet_univ, ready_fam]
  exact (BI.bigSep_sep Finset.univ (slotAny c arg3) (fun g => iprop(cellZ c g ∗ tokW c x g))).trans
    (congrArg (fun P : sProp 𝕄 => iprop(bigSep Finset.univ (slotAny c arg3) ∗ P)) (BI.bigSep_sep Finset.univ (cellZ (F := F) c) (tokW c x)))
/-- Every patch landed, family by family. -/
theorem landed_split :
    (bigSep (Ring.rangeSet 16 0 16) (fun g : Fin 16 => landed c i arg3 xt x hchk (cell2 (c2 g)) (c1 g)) : sProp 𝕄)
      = iprop(bigSep Finset.univ (slotLanded c i arg3 xt x hchk) ∗ (cells0 (F := F) c ∗ bigSep Finset.univ (tokW c x))) := by
  rw [Ring.rangeSet_univ, landed_fam]
  exact (BI.bigSep_sep Finset.univ (slotLanded c i arg3 xt x hchk) (fun g => iprop(cellZ c g ∗ tokW c x g))).trans
    (congrArg (fun P : sProp 𝕄 => iprop(bigSep Finset.univ (slotLanded c i arg3 xt x hchk) ∗ P)) (BI.bigSep_sep Finset.univ (cellZ (F := F) c) (tokW c x)))

/-- The staging buffer held whole is its sixteen slots, each at some contents. -/
theorem slots_split (harg3 : arg3.IsWhole) (d : Buf (Elt F) (arg3.view.loc (c : Thread nD τ))) :
    (arg3.view.loc (c : Thread nD τ) ↦[arg3.view.set]{fullShare} d : sProp 𝕄) ⊢ bigSep Finset.univ (slotAny c arg3) := by
  rw [harg3.set_eq_univ]
  refine (Entails.of_eq (Ring.pointsTo_blocks (ℓ := arg3.view.loc (c : Thread nD τ)) (q := fullShare) (slotI c arg3)
    (slotI_disjoint c arg3) (slotI_cover c arg3 harg3) d)).trans (BI.bigSep_mono fun g _ => ?_)
  show (arg3.view.loc (c : Thread nD τ) ↦[slotI c arg3 g]{fullShare} d : sProp 𝕄) ⊢ slotAny c arg3 g
  iintro H; iexists d; iexact H

/-- The sixteen slots, each written with its patch, are the staging buffer held whole at the step's final contents. -/
theorem slots_join (harg3 : arg3.IsWhole) (d : Buf (Elt F) (arg3.view.loc (c : Thread nD τ))) :
    bigSep Finset.univ (slotLanded c i arg3 xt x hchk)
      ⊢ (arg3.view.loc (c : Thread nD τ) ↦[arg3.view.set]{fullShare} finalOf c i arg3 xt x hchk d : sProp 𝕄) := by
  rw [harg3.set_eq_univ]
  refine (BI.bigSep_mono fun g _ => ?_).trans (Entails.of_eq (Ring.pointsTo_blocks (ℓ := arg3.view.loc (c : Thread nD τ)) (q := fullShare) (slotI c arg3)
    (slotI_disjoint c arg3) (slotI_cover c arg3 harg3) (finalOf c i arg3 xt x hchk d)).symm)
  show slotLanded c i arg3 xt x hchk g ⊢ (arg3.view.loc (c : Thread nD τ) ↦[slotI c arg3 g]{fullShare} finalOf c i arg3 xt x hchk d : sProp 𝕄)
  iintro ⟨%g', H⟩
  rw [← pointsTo_congr (landed_eq_final c i arg3 harg3 xt x hchk d g' g)]
  iexact H

/-- At a step's entry: the input by read tokens, the staging buffer by slots; every patch not started. -/
theorem entry_split (harg3 : arg3.IsWhole) (d : Buf (Elt F) (arg3.view.loc (c : Thread nD τ))) :
    iprop((XM.view.loc (c : Thread nD τ) ↦{fullShare} x) ∗ (arg3.view.loc (c : Thread nD τ) ↦[arg3.view.set]{fullShare} d) ∗ cells0 (F := F) c)
      ⊢ iprop((XM.view.loc (c : Thread nD τ) ↦[XM.view.set]{Transfers.shareDrop fullShare 16} x)
          ∗ bigSep (Ring.rangeSet 16 0 16) (fun g => ready c arg3 x (c1 g))) := by
  rw [ready_split]
  iintro ⟨HX, HA, HC⟩
  ihave HX1 := (show (XM.view.loc (c : Thread nD τ) ↦{fullShare} x : sProp 𝕄) ⊢ XM.view.loc (c : Thread nD τ) ↦[XM.view.set]{fullShare} x from by
    rw [(Memref.isWhole_whole main_arg0).set_eq_univ]) $$ HX
  ihave HX2 := (Transfers.pointsTo_toks (ℓ := XM.view.loc (c : Thread nD τ)) (S := XM.view.set) (f := x) fullShare 16).1 $$ HX1
  icases HX2 with ⟨HXrest, HXt⟩
  isplitl [HXrest]; · iexact HXrest
  isplitl [HA]; · iapply (slots_split c arg3 harg3 d); iexact HA
  isplitl [HC]; · iexact HC
  iexact HXt

/-- At a step's exit: every patch landed; the input whole again, the staging buffer at the step's final contents. -/
theorem exit_join (harg3 : arg3.IsWhole) (d : Buf (Elt F) (arg3.view.loc (c : Thread nD τ))) :
    iprop((XM.view.loc (c : Thread nD τ) ↦[XM.view.set]{Transfers.shareDrop fullShare 16} x)
        ∗ bigSep (Ring.rangeSet 16 0 16) (fun g => landed c i arg3 xt x hchk (cell2 (c2 g)) (c1 g)))
      ⊢ iprop((XM.view.loc (c : Thread nD τ) ↦{fullShare} x)
          ∗ (arg3.view.loc (c : Thread nD τ) ↦[arg3.view.set]{fullShare} finalOf c i arg3 xt x hchk d) ∗ cells0 (F := F) c) := by
  rw [landed_split]
  iintro ⟨HXrest, HS, HC, HXt⟩
  isplitl [HXrest HXt]
  · iapply (show (XM.view.loc (c : Thread nD τ) ↦[XM.view.set]{fullShare} x : sProp 𝕄) ⊢ XM.view.loc (c : Thread nD τ) ↦{fullShare} x from by
      rw [(Memref.isWhole_whole main_arg0).set_eq_univ])
    iapply (Transfers.pointsTo_toks (ℓ := XM.view.loc (c : Thread nD τ)) (S := XM.view.set) (f := x) fullShare 16).2
    isplitl [HXrest]; · iexact HXrest
    iexact HXt
  isplitl [HS]; · iapply (slots_join c i arg3 xt x hchk harg3 d); iexact HS
  iexact HC

/-- THE BODY'S RUN at one grid step: from the table's half, the input whole, the staging buffer at any contents, the
    sixteen cells at zero and the core's record of waits, the kernel function runs to its return with the table and the
    input as they were, the staging buffer holding the step's sixteen patches, the cells at zero again. -/
theorem kernelRun [∀ e, Nonempty (Elt F e)] (harg3 : arg3.IsWhole) (d : Buf (Elt F) (arg3.view.loc (c : Thread nD τ)))
    (W : Waits sig Unit) (Q : PUnit → sProp 𝕄) :
    iprop((TM.view.loc (c : Thread nD τ) ↦{fullShare.right} xt) ∗ (XM.view.loc (c : Thread nD τ) ↦{fullShare} x)
        ∗ (arg3.view.loc (c : Thread nD τ) ↦[arg3.view.set]{fullShare} d) ∗ cells0 (F := F) c ∗ owes (c : Thread nD τ) 0 W
        ∗ (iprop((TM.view.loc (c : Thread nD τ) ↦{fullShare.right} xt) ∗ (XM.view.loc (c : Thread nD τ) ↦{fullShare} x)
              ∗ (arg3.view.loc (c : Thread nD τ) ↦[arg3.view.set]{fullShare} finalOf c i arg3 xt x hchk d) ∗ cells0 (F := F) c
              ∗ ∃ W, owes (c : Thread nD τ) 0 W) -∗ Q ⟨⟩))
      ⊢ wp frame (wpE defs₀ Variants.none (c : Thread nD τ) none) Set.univ
          (cc0__gather_kernel (F := F) i TM (Memref.isWhole_whole _) XM (Memref.isWhole_whole _) arg3 harg3 cc0_scratch0) Q := by
  iintro ⟨HT, HX, HA, HC, HO, Hk⟩
  ihave Hent := (entry_split c arg3 x harg3 d) $$ [HX HA HC]
  · isplitl [HX]; · iexact HX
    isplitl [HA]; · iexact HA
    iexact HC
  icases Hent with ⟨HXrest, Hready⟩
  simp only [cc0__gather_kernel_eq_skeleton]; unfold cc0__gather_kernel_skel
  -- the first loop: every patch started
  sl_for (issueAt c i arg3 xt x hchk) $$ [HT Hready]
  · intro k acc; exact issue_step c i arg3 xt x hchk harg3 k acc
  · unfold issueAt
    rw [Ring.bigSep_rangeSet_empty (Φ := fun g => flying c i arg3 xt x hchk (cell1 (c1 g)) (c1 g)) (le_refl 0)]
    isplitl [HT]; · iexact HT
    isplitr; · iempintro
    iexact Hready
  iintro %acc HL
  ihave HL' := (show issueAt c i arg3 xt x hchk k0_t1_loop.trips acc
      ⊢ iprop((TM.view.loc (c : Thread nD τ) ↦{fullShare.right} xt)
          ∗ bigSep (Ring.rangeSet 16 0 16) (fun g => flying c i arg3 xt x hchk (cell2 (c2 g)) (c1 g))) from by
    unfold issueAt
    rw [trips1, flying_cells, Ring.bigSep_rangeSet_empty (Φ := fun g => ready c arg3 x (c1 g)) (le_refl 16)]
    iintro ⟨HT, HF, -⟩
    isplitl [HT]; · iexact HT
    iexact HF) $$ HL
  icases HL' with ⟨HT, Hfly⟩
  -- the second loop: every patch waited for
  sl_for (drainAt c i arg3 xt x hchk) $$ [HO Hfly]
  · intro k acc; exact drain_step c i arg3 xt x hchk harg3 k acc
  · unfold drainAt
    rw [Ring.bigSep_rangeSet_empty (Φ := fun g => landed c i arg3 xt x hchk (cell2 (c2 g)) (c1 g)) (le_refl 0)]
    isplitl [HO]; · iexists W; iexact HO
    isplitr; · iempintro
    iexact Hfly
  iintro %acc2 HL2
  ihave HL2' := (show drainAt c i arg3 xt x hchk k0_t2_loop.trips acc2
      ⊢ iprop((∃ W, owes (c : Thread nD τ) 0 W)
          ∗ bigSep (Ring.rangeSet 16 0 16) (fun g => landed c i arg3 xt x hchk (cell2 (c2 g)) (c1 g))) from by
    unfold drainAt
    rw [trips2, Ring.bigSep_rangeSet_empty (Φ := fun g => flying c i arg3 xt x hchk (cell2 (c2 g)) (c1 g)) (le_refl 16)]
    iintro ⟨HO, HLd, -⟩
    isplitl [HO]; · iexact HO
    iexact HLd) $$ HL2
  icases HL2' with ⟨HO, Hland⟩
  sl_exec
  sl_step
  iapply Hk
  ihave Hex := (exit_join c i arg3 xt x hchk harg3 d) $$ [HXrest Hland]
  · isplitl [HXrest]; · iexact HXrest
    iexact Hland
  icases Hex with ⟨HX, HA, HC⟩
  isplitl [HT]; · iexact HT
  isplitl [HX]; · iexact HX
  isplitl [HA]; · iexact HA
  isplitl [HC]; · iexact HC
  iexact HO

end Fixed

end Cert.KernelIdeal.Body

end
-- ==== Proof.KILaunch.lean ====
/-
  The launch. The program is one pipelined region over 128 grid steps with one output window; the kernel moves the
  input itself, within each step, on sixteen semaphore cells of its own, and reads a prefetched index table. So the
  region's invariant is the same at every step: the cells at zero, the input whole at its launch contents, the table's
  half. Each step's obligation is the body's run; the library's frame run for such kernels then gives termination, no
  fault, the arguments unchanged, and the output array as the steps' blocks written back one after the other.
-/
import proofs.«427366_j67594195304879_1_alg».proof.Proof.Gen.KernelIdeal.Loops
import proofs.«427366_j67594195304879_1_alg».proof.Proof.Gen.KernelIdeal.Launch
import proofs.«427366_j67594195304879_1_alg».proof.Proof.KIData
import proofs.«427366_j67594195304879_1_alg».proof.Proof.KIBodyRun
import Idealize.ShloMosaic.Lib.Pipeline.Kit
import Idealize.ShloMosaic.Lib.Pipeline.Frame
import Idealize.ShloMosaic.Lib.Batch
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

section Launch

variable (m : (ℓ : Loc nD τ sig) → Buf (Elt F) ℓ) (ρ : Dev nD → PrngReg)

/-- @main is the region alone. -/
theorem hmain (𝒱₀ : Variants) :
    Pipeline.HMainP (Ix := Unit) (Name := ℕ) (U := UD sig nD τ) (Lvl := ℕ) pcfgs 0 defs₀ 𝒱₀ m (main (F := F)) (V m) :=
  Pipeline.hmainP_region pcfgs 0 defs₀ 𝒱₀ m main fun c => (main_chain c).trans rfl

/-- The kernel's sixteen cells are scoped, distinct, and none a staging cell of the pipeline. -/
theorem ownSemFacts : Pipeline.OwnSemFacts spec0 osem := by decide +kernel

/-- The input is one of the unscoped buffers the pipeline does not stage. -/
theorem arg0_rest : ({main_arg0} : Finset (Ref sig .tc)) ⊆ Pipeline.restRefsP sig pre0 spec0 := by decide

/-- The staging memref the pipeline hands the body at point t, and the body as it is called there. -/
abbrev ms0 (t : Fin (cfgM m).N) : Memref sig .tc .vmem S16x128x16x16 .f32 := spec0_0.stage ((cfgM m).slots t 0)
abbrev hs0 (t : Fin (cfgM m).N) : (ms0 m t).IsWhole := hstage0_0 (((cfgM m).slots t 0).cast nbuf0_0)
abbrev bodyAt (t : Fin (cfgM m).N) : Prog (TpuEff nD τ sig (Elt F) Λ₀ .tc) PUnit :=
  cc0__gather_kernel (grid0.coords t) (Memref.whole main_arg1) (Memref.isWhole_whole _) (Memref.whole main_arg0) (Memref.isWhole_whole _)
    (spec0_0.stage ((cfgM m).slots t 0)) (hstage0_0 (((cfgM m).slots t 0).cast nbuf0_0)) cc0_scratch0

/-- The table's half the region hands the body. -/
theorem PhiT_eq (c : Dev nD) :
    (Pipeline.ΦT pre0 (tbl m) c : sProp 𝕄) = (TM.view.loc (c : Thread nD τ) ↦{fullShare.right} xtOf m c) := by
  unfold Pipeline.ΦT Pipeline.prefHeld
  rw [show (Finset.univ : Finset (Fin 1)) = {(0 : Fin 1)} from by decide, bigSep_singleton]
  rfl
/-- The region invariant, conjunct by conjunct: no scoped rest, the generator register, the cells at zero, the input. -/
theorem PhiD_eq (c : Dev nD) :
    (Pipeline.ΦD osem spec0 {main_arg0} (V m) c : sProp 𝕄)
      = iprop(emp ∗ (∃ r, prngReg c r) ∗ cells0 (F := F) c ∗ (XM.view.loc (c : Thread nD τ) ↦{fullShare} xOf m c)) := by
  rw [Pipeline.ΦD_eq, scopedRest0_eq, bigSep_singleton]
  rfl

def bodyPre (h : AllChk m) (c : Dev nD) (t : Fin (cfgM m).N) : sProp 𝕄 :=
  iprop((dats m h 0 c).Φ t.castSucc ∗ (dats m h 0 c).owesAt () t.castSucc
    ∗ (∃ d, owns (c : Thread nD τ) (ms0 m t) fullShare ((dats m h 0 c).before 0 t d)))
def bodyPost (h : AllChk m) (c : Dev nD) (t : Fin (cfgM m).N) : sProp 𝕄 :=
  iprop((dats m h 0 c).Φ t.succ ∗ (dats m h 0 c).owesAt () t.succ
    ∗ owns (c : Thread nD τ) (ms0 m t) fullShare ((dats m h 0 c).after 0 t))

/-- The body at any grid point: the invariant and the staging buffer taken apart, the body's run applied, its post
    reassembled; the staging buffer read back is that step's block. -/
theorem sound_body [∀ e, Nonempty (Elt F e)] (h : AllChk m) (c : Dev nD) (t : Fin (cfgM m).N) :
    bodyPre m h c t ⊢ wp frame (wpE (defs₀ (F := F)) Variants.none c none) Set.univ (bodyAt m t) (fun _ => bodyPost m h c t) := by
  unfold bodyPre bodyPost bodyAt
  rw [show (dats m h 0 c).Φ t.succ = (dats m h 0 c).Φ t.castSucc from rfl, after0]
  rw [show (dats m h 0 c).Φ t.castSucc = iprop(Pipeline.ΦD osem spec0 {main_arg0} (V m) c ∗ Pipeline.ΦT pre0 (tbl m) c) from rfl,
    PhiT_eq, PhiD_eq]
  unfold Pipeline.Dat.owesAt Pipeline.owesWithin
  rw [show (dats m h 0 c).owed t.castSucc = 0 from rfl, show (dats m h 0 c).owed t.succ = 0 from rfl]
  unfold owns
  iintro ⟨⟨⟨-, Hp, HC, HX⟩, HT⟩, ⟨%W, %hW, HO⟩, ⟨%d0, %f0, %hf0, H0⟩⟩
  iapply (kernelRun c (grid0.coords t) (ms0 m t) (xtOf m c) (xOf m c) (h c (grid0.coords t)) (hs0 m t) f0 W)
  isplitl [HT]; · iexact HT
  isplitl [HX]; · iexact HX
  isplitl [H0]; · iexact H0
  isplitl [HC]; · iexact HC
  isplitl [HO]; · iexact HO
  iintro ⟨HT, HX, H0, HC, ⟨%W', HO⟩⟩
  isplitl [Hp HC HX HT]
  · isplitl [Hp HC HX]
    · isplitr; · iempintro
      isplitl [Hp]; · iexact Hp
      isplitl [HC]; · iexact HC
      iexact HX
    iexact HT
  isplitl [HO]
  · iexists W'; isplitr; · ipureintro; exact fun _ _ => Or.inl trivial
    iexact HO
  iexists _; isplitr; swap; · iexact H0
  ipureintro; exact read_finalOf c (grid0.coords t) (ms0 m t) (xtOf m c) (xOf m c) (h c (grid0.coords t)) f0

/-- The library's body obligation, at every point. -/
theorem body_obligation [∀ e, Nonempty (Elt F e)] (h : AllChk m) (c : Dev nD) :
    Pipeline.BodyObligation (dats (F := F) m h 0 c) (defs₀ (F := F)) Variants.none () Set.univ := fun t => by
  rw [bigSep_W0, bigSep_W0]
  exact sound_body m h c t

set_option backward.isDefEq.respectTransparency.types false in
/-- THE RUN: every weakly fair execution of @main terminates, the output array at what the library computes from the
    proof data and every other unscoped buffer as the region found it. -/
theorem run_main [∀ e, Nonempty (Elt F e)] (h : AllChk m) :
    θ_run defs (onTc (τ := τ) (main (F := F))) (s₀ m ρ)
      (Pipeline.FramePost (Pipeline.pin pcfgs fun _ => adm m) (dats m h) 0 (V m)) :=
  Pipeline.θ_run_frameP_dma pcfgs (fun _ => adm m) (dats m h) (0 : Fin 1) launch0 osem defs₀ Variants.none ownSemFacts {main_arg0} arg0_rest
    m ρ main
    (hbody := fun c => (body_obligation m h c).loose) (hshare := fun c => (dats m h 0 c).share_full fun _ => rfl)
    (howed := fun _ _ => rfl) (V := V m) (hmain := hmain m Variants.none) (hA := A_eq m h) (hpf := V_pre m)
    (hin := fun _ => .rfl)
    (hout := fun c => by
      show iprop(Pipeline.ΦD osem spec0 {main_arg0} (V m) c ∗ Pipeline.ΦT pre0 (tbl m) c) ⊢ _
      iintro ⟨HD, -⟩; iexact HD)

/-- The run read at the program's three arrays: the result at the proof data's account, the arguments unchanged. -/
theorem run_arrays [∀ e, Nonempty (Elt F e)] (h : AllChk m) :
    θ_run defs (onTc (τ := τ) (main (F := F))) ⟨m, fun _ => 0, ρ⟩ (fun r => ∀ c : Dev nD,
      r.2.mem ((c.tc : Thread nD τ).loc main_v0) = (dats m h 0 c).arrAt 0 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ hp c => ⟨(hp c).1 0,
      (hp c).2 main_arg0 (by decide : main_arg0 ∈ Pipeline.restRefs sig spec0),
      (hp c).2 main_arg1 (by decide : main_arg1 ∈ Pipeline.restRefs sig spec0)⟩) (run_main m ρ h)

end Launch

end Cert.KernelIdeal.Body

end
-- ==== Proof.KIWords.lean ====
/-
  The words a trip of the first loop reads, and what its copy delivers, index by index. Trip k of grid step t reads
  row 16·t + k of the index table: its three loads are the table's entries at that row's three columns. When every row
  of the table is in range — the batch entry below 4, the two block positions below 18 — the window those words name,
  at offsets (b, 0, 14·h, 14·w) with sizes (1, 128, 16, 16), lies inside the input (14·17 + 16 = 254 ≤ 256), and the
  element (a, b', d) of the window is the input at (b, a, 14·h + b', 14·w + d): the specification's source index for
  that row. A grid step's sixteen windows, laid side by side, are therefore the specification's block for that step.
-/
import proofs.«427366_j67594195304879_1_alg».proof.Proof.Gen.KernelIdeal.Loops
import proofs.«427366_j67594195304879_1_alg».proof.Proof.Gen.KernelIdeal.Launch
import Idealize.ShloMosaic.Lib.Pipeline.Frame
import Idealize.ShloMosaic.Lib.ValueIdx
import Idealize.ShloMosaic.Lib.ValueLayout
import Idealize.ShloMosaic.Lib.Batch
import Idealize.ShloMosaic.Lib.Ring
import Idealize.ShloMosaic.Lib.Tactic
import proofs.«427366_j67594195304879_1_alg».proof.Proof.KIDefs
import proofs.«427366_j67594195304879_1_alg».proof.Proof.PatchSpec

set_option maxRecDepth 16384

noncomputable section

namespace Cert.KernelIdeal.Body

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

/-- The row trip k of grid step i reads. -/
def rowOf (i : grid0.Coords) (k : Fin k0_t1_loop.trips) : Fin 2048 :=
  ⟨16 * (i 0).val + k.val, by
    have h0 : (i 0).val < 128 := (i 0).isLt
    have hk : k.val < 16 := Nat.lt_of_lt_of_eq k.isLt trips1
    omega⟩

theorem rowOf_val (i : grid0.Coords) (k : Fin k0_t1_loop.trips) : (rowOf i k).val = 16 * (i 0).val + k.val := rfl

/-- The one index of a 1 × 1 rectangle of the table at offsets (n, j) is (n, j). -/
theorem unit_idx (n : Fin 2048) (j : Fin 3) (off : Fin 2 → Nat) (hoff : off = ![n.val, j.val])
    (inb : ∀ a, off a + S1x1.size a ≤ S2048x3.size a) (h1 : 0 < S1x1.numel) :
    (Rect.unit (s := S2048x3) off S1x1.size inb).toLoadRect.idx (Shape.Idx.first h1) = (ix2 n j : S2048x3.Idx) := by
  subst hoff
  funext a
  apply Fin.ext
  match a with
  | ⟨0, _⟩ => show n.val + 1 * 0 = n.val; omega
  | ⟨1, _⟩ => show j.val + 1 * 0 = j.val; omega

section Words

variable (c : Dev nD) (i : grid0.Coords)
  (xt : Buf (Elt F) (TM.view.loc (c : Thread nD τ))) (x : Buf (Elt F) (XM.view.loc (c : Thread nD τ)))

/-- The first word trip k loads is column 0 of its row: the load reads the table at the rectangle's one index. -/
theorem tw0_eq (k : Fin k0_t1_loop.trips) : tw0 c i xt k = Cert.PatchSpec.col xt (rowOf i k) 0 :=
  congrArg xt (unit_idx (rowOf i k) 0 _ (k0_off1_eq i k) _ _)
/-- The second is column 1. -/
theorem tw1_eq (k : Fin k0_t1_loop.trips) : tw1 c i xt k = Cert.PatchSpec.col xt (rowOf i k) 1 :=
  congrArg xt (unit_idx (rowOf i k) 1 _ (k0_off2_eq i k) _ _)
/-- The third is column 2. -/
theorem tw2_eq (k : Fin k0_t1_loop.trips) : tw2 c i xt k = Cert.PatchSpec.col xt (rowOf i k) 2 :=
  congrArg xt (unit_idx (rowOf i k) 2 _ (k0_off3_eq i k) _ _)

end Words

/-- Words in range name a window inside the input: the entry is below 4, each pixel offset is 14 times a block
    position below 18, so at most 238, and 238 + 16 ≤ 256. -/
theorem chk_words (w0 w1 w2 : BitVec 32) (h0 : w0.toNat < 4) (h1 : w1.toNat < 18) (h2 : w2.toNat < 18) :
    k0_chk1 w0 w1 w2 := by
  have e1 := Cert.PatchSpec.off14_eq w1 h1
  have e2 := Cert.PatchSpec.off14_eq w2 h2
  unfold k0_chk1
  intro a
  match a with
  | ⟨0, _⟩ => show w0.toNat + 1 ≤ 4; omega
  | ⟨1, _⟩ => show 0 + 128 ≤ 128; omega
  | ⟨2, _⟩ => show Cert.PatchSpec.off14 w1 + 16 ≤ 256; omega
  | ⟨3, _⟩ => show Cert.PatchSpec.off14 w2 + 16 ≤ 256; omega

section Fixed

variable (c : Dev nD) (i : grid0.Coords)
  (xt : Buf (Elt F) (TM.view.loc (c : Thread nD τ))) (x : Buf (Elt F) (XM.view.loc (c : Thread nD τ)))

/-- On an in-range table every trip's window lies inside the input. -/
theorem chk_of_ok (hok : Cert.PatchSpec.TableOk xt) :
    ∀ k, k0_chk1 (tw0 c i xt k) (tw1 c i xt k) (tw2 c i xt k) := by
  intro k
  obtain ⟨h0, h1, h2⟩ := hok (rowOf i k)
  rw [tw0_eq, tw1_eq, tw2_eq]
  exact chk_words _ _ _ h0 h1 h2

variable (hchk : ∀ k, k0_chk1 (tw0 c i xt k) (tw1 c i xt k) (tw2 c i xt k))

/-- Where element (a, b, d) of trip k's window sits in the input, axis by axis: the window drops its leading axis of
    extent one, so the element is (0, a, b, d) of the rectangle, and a unit-stride rectangle places a coordinate at its
    offset plus the coordinate. -/
theorem srcM_emb_val (k : Fin k0_t1_loop.trips) (a : Fin 128) (b d : Fin 16) (ax : Fin 4) :
    (((srcM c i xt hchk k).view.emb (ix3 a b d)) ax : Nat)
      = k0_off6 (tw0 c i xt k) (tw1 c i xt k) (tw2 c i xt k) ax + (ix4 (⟨0, Nat.one_pos⟩ : Fin 1) a b d ax).val := by
  have h := reshapeEquiv_ix3_1abc (a := 128) (b := 16) (c := 16) squeezes_S1x128x16x16_S128x16x16.numel_eq a b d
  show ((Rect.unit (s := S4x128x256x256) (k0_off6 (tw0 c i xt k) (tw1 c i xt k) (tw2 c i xt k)) S1x128x16x16.size
      (k0_off6_inb _ _ _ (hchk k))).emb (Shape.reshapeEquiv squeezes_S1x128x16x16_S128x16x16.numel_eq (ix3 a b d)) ax : Nat) = _
  rw [h, Rect.emb_apply]
  show _ + 1 * _ = _
  rw [Nat.one_mul]
  rfl

/-- On an in-range table that place is the specification's source index for the trip's row. -/
theorem srcM_emb (hok : Cert.PatchSpec.TableOk xt) (k : Fin k0_t1_loop.trips) (a : Fin 128) (b d : Fin 16) :
    (srcM c i xt hchk k).view.emb (ix3 a b d) = Cert.PatchSpec.src xt (rowOf i k) a b d := by
  obtain ⟨s0, s1, s2, s3⟩ := Cert.PatchSpec.src_val xt (rowOf i k) (hok (rowOf i k)) a b d
  obtain ⟨h0, h1, h2⟩ := hok (rowOf i k)
  have e1 := Cert.PatchSpec.off14_eq _ h1
  have e2 := Cert.PatchSpec.off14_eq _ h2
  have key : ∀ ax : Fin 4, (((srcM c i xt hchk k).view.emb (ix3 a b d)) ax : Nat)
      = ((Cert.PatchSpec.src xt (rowOf i k) a b d) ax).val := by
    intro ax
    rw [srcM_emb_val]
    match ax with
    | ⟨0, _⟩ =>
      show (tw0 c i xt k).toNat + 0 = ((Cert.PatchSpec.src xt (rowOf i k) a b d) 0).val
      rw [tw0_eq, s0, Nat.add_zero]
    | ⟨1, _⟩ =>
      show 0 + a.val = ((Cert.PatchSpec.src xt (rowOf i k) a b d) 1).val
      rw [s1, Nat.zero_add]
    | ⟨2, _⟩ =>
      show Cert.PatchSpec.off14 (tw1 c i xt k) + b.val = ((Cert.PatchSpec.src xt (rowOf i k) a b d) 2).val
      rw [tw1_eq, s2, e1]
    | ⟨3, _⟩ =>
      show Cert.PatchSpec.off14 (tw2 c i xt k) + d.val = ((Cert.PatchSpec.src xt (rowOf i k) a b d) 3).val
      rw [tw2_eq, s3, e2]
  funext ax
  exact Fin.ext (key ax)

/-- What lands in a slot, index by index: the input at the specification's source index. -/
theorem pay_apply (hok : Cert.PatchSpec.TableOk xt) (k : Fin k0_t1_loop.trips) (a : Fin 128) (b d : Fin 16) :
    pay c i xt x hchk k (ix3 a b d) = x (Cert.PatchSpec.src xt (rowOf i k) a b d) :=
  congrArg x (srcM_emb c i xt hchk hok k a b d)

/-- The step's block is the specification's: slot g of step t holds the window row 16·t + g names. -/
theorem blockX_eq (hok : Cert.PatchSpec.TableOk xt) (t : Fin 128) (hi : (i 0).val = t.val) :
    blockX c i xt x hchk = Cert.PatchSpec.blockOf x xt t := by
  funext y
  have hr : rowOf i (c1 ⟨(y 0).val, (y 0).isLt⟩)
      = (⟨16 * t.val + (y 0).val, by have h0 : (y 0).val < 16 := (y 0).isLt; have := t.isLt; omega⟩ : Fin 2048) :=
    Fin.ext (by show 16 * (i 0).val + (y 0).val = 16 * t.val + (y 0).val; rw [hi])
  show pay c i xt x hchk (c1 ⟨(y 0).val, (y 0).isLt⟩) (ix3 (⟨(y 1).val, (y 1).isLt⟩ : Fin 128) (⟨(y 2).val, (y 2).isLt⟩ : Fin 16) (⟨(y 3).val, (y 3).isLt⟩ : Fin 16))
    = x (Cert.PatchSpec.src xt ⟨16 * t.val + (y 0).val, _⟩ (y 1) (y 2) (y 3))
  rw [pay_apply c i xt x hchk hok, hr]
  rfl

end Fixed

end Cert.KernelIdeal.Body

end
-- ==== Proof.KIFrame.lean ====
/-
  The frame of the program under an in-range index table: on such a table every window the kernel copies lies inside
  the input, so every grid step's run applies, and the launch's run has the arguments unchanged at the end.
-/
import proofs.«427366_j67594195304879_1_alg».proof.Proof.Gen.KernelIdeal.Loops
import proofs.«427366_j67594195304879_1_alg».proof.Proof.Gen.KernelIdeal.Launch
import proofs.«427366_j67594195304879_1_alg».proof.Proof.KILaunch
import proofs.«427366_j67594195304879_1_alg».proof.Proof.KIWords
import Idealize.ShloMosaic.Lib.Pipeline.Frame
import Idealize.ShloMosaic.Lib.Batch
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

section Frame

variable (m : (ℓ : Loc nD τ sig) → Buf (Elt F) ℓ) (ρ : Dev nD → PrngReg)

/-- On an in-range table every trip's window check holds, at every grid step. -/
theorem allChk_of_ok (hok : ∀ c : Dev nD, Cert.PatchSpec.TableOk (xtOf m c)) : AllChk m :=
  fun c i => chk_of_ok c i (xtOf m c) (hok c)

/-- THE FRAME: every weakly fair execution of @main terminates, nothing faults, the two arguments end unchanged. -/
theorem frame_of_ok [∀ e, Nonempty (Elt F e)] (hok : ∀ c : Dev nD, Cert.PatchSpec.TableOk (xtOf m c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ hp c => (hp c).2) (run_arrays m ρ (allChk_of_ok m hok))

end Frame

end Cert.KernelIdeal.Body

end
-- ==== Proof.KIFinal.lean ====
/-
  From the grid steps' blocks to the whole result array. The result is written through one window: its block at grid
  step t is rows 16·t … 16·t + 15 of the array, whole on the three other axes, and it is written back at every step. The
  128 blocks tile the array, so once every step's block is the specification's block of that step the array after the
  run is the specification's function: the entry (n, c, i, j) lies in the block of step n / 16, at row n − 16·(n / 16).
-/
import proofs.«427366_j67594195304879_1_alg».proof.Proof.Gen.KernelIdeal.Loops
import proofs.«427366_j67594195304879_1_alg».proof.Proof.Gen.KernelIdeal.Launch
import proofs.«427366_j67594195304879_1_alg».proof.Proof.KIDefs
import proofs.«427366_j67594195304879_1_alg».proof.Proof.KIData
import proofs.«427366_j67594195304879_1_alg».proof.Proof.PatchSpec
import Idealize.ShloMosaic.Lib.Pipeline.Frame
import Idealize.ShloMosaic.Lib.Pipeline.Value
import Idealize.ShloMosaic.Lib.Batch
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

/-! ## The specification read block by block -/

/-- The source index depends only on the values of the four coordinates. -/
theorem src_congr (tb : Cert.PatchSpec.ST.Idx → BitVec 32) {n n' : Fin 2048} {k k' : Fin 128} {i i' j j' : Fin 16}
    (hn : n.val = n'.val) (hk : k.val = k'.val) (hi : i.val = i'.val) (hj : j.val = j'.val) :
    Cert.PatchSpec.src tb n k i j = Cert.PatchSpec.src tb n' k' i' j' := by
  obtain rfl : n = n' := Fin.ext hn
  obtain rfl : k = k' := Fin.ext hk
  obtain rfl : i = i' := Fin.ext hi
  obtain rfl : j = j' := Fin.ext hj
  rfl

/-- The result at (16·t + y₀, y₁, y₂, y₃) is step t's block at y. -/
theorem G_block {α : Type} (x : Cert.PatchSpec.SX.Idx → α) (tb : Cert.PatchSpec.ST.Idx → BitVec 32) (t : Fin 128)
    (y : Cert.PatchSpec.SB.Idx) (o : Cert.PatchSpec.SO.Idx)
    (h0 : (o 0).val = 16 * t.val + (y 0).val) (h1 : (o 1).val = (y 1).val) (h2 : (o 2).val = (y 2).val)
    (h3 : (o 3).val = (y 3).val) : Cert.PatchSpec.G x tb o = Cert.PatchSpec.blockOf x tb t y := by
  unfold Cert.PatchSpec.G Cert.PatchSpec.blockOf
  refine congrArg x ?_
  refine src_congr tb ?_ ?_ ?_ ?_
  · exact h0
  · exact h1
  · exact h2
  · exact h3

/-! ## The grid and the window's geometry -/

/-- The grid has one axis of 128 points: a point's coordinate on it is the point's number. -/
theorem coords_val (t : Fin grid0.N) : ((grid0.coords t) 0).val = t.val := by
  have ht : t.val < 128 := lt_of_lt_of_eq t.isLt N_0
  have h1 : grid0.stride 0 = 1 := by decide
  have h2 : grid0.bound 0 = 128 := rfl
  show t.val / grid0.stride 0 % grid0.bound 0 = t.val
  rw [h1, h2, Nat.div_one, Nat.mod_eq_of_lt ht]

/-- The window's index map: the grid coordinate on the first axis, zero on the others. -/
theorem transform_eq (i : grid0.Coords) : cc0_transform_1 i = ![(i 0).val, 0, 0, 0] := by
  have hi : (i 0).val < 128 := (i 0).isLt
  have e : (BitVec.ofNat 32 (i 0).val).toNat = (i 0).val := by
    rw [BitVec.toNat_ofNat]; exact Nat.mod_eq_of_lt (by omega)
  unfold cc0_transform_1
  dsimp only
  rw [e]
  rfl

section Window

variable (a : (pcfg0 (F := F)).Adm)

/-- The window is written back at every grid step, whatever the table holds (its index map reads no table). -/
theorem flush_all : ∀ t : Fin (cfg0 a).N, ((cfg0 a).win 0).flush t = true :=
  (by decide +kernel : ∀ t : Fin grid0.N, Pipeline.Window.flushOf grid0 true cc0_transform_1 t = true)

/-- The block index at step t is (t, 0, 0, 0). -/
theorem index_facts (t : Fin (cfg0 a).N) :
    ((cfg0 a).win 0).index t (0 : Fin 4) = t.val ∧ ((cfg0 a).win 0).index t (1 : Fin 4) = 0
      ∧ ((cfg0 a).win 0).index t (2 : Fin 4) = 0 ∧ ((cfg0 a).win 0).index t (3 : Fin 4) = 0 := by
  have e : ((cfg0 a).win 0).index t = ![t.val, 0, 0, 0] := by
    show cc0_transform_1 (grid0.coords t) = _
    rw [transform_eq, coords_val]
  exact ⟨congrFun e (0 : Fin 4), congrFun e (1 : Fin 4), congrFun e (2 : Fin 4), congrFun e (3 : Fin 4)⟩

/-- An entry of the array whose first coordinate is in rows 16·t … 16·t + 15 lies in step t's block. -/
theorem mem_blk (t : Fin (cfg0 a).N) (i : S2048x128x16x16.Idx)
    (h : 16 * t.val ≤ (i 0).val ∧ (i 0).val < 16 * t.val + 16) : i ∈ (((cfg0 a).win 0).blk t).view.set := by
  obtain ⟨e0, e1, e2, e3⟩ := index_facts a t
  have h1 : (i 1).val < 128 := (i 1).isLt
  have h2 : (i 2).val < 16 := (i 2).isLt
  have h3 : (i 3).val < 16 := (i 3).isLt
  have hs : (((cfg0 a).win 0).blk t).view.set = (((cfg0 a).win 0).rect t).set := View.set_slice_whole main_v0 _
  refine Eq.mpr (congrArg (fun S : Finset S2048x128x16x16.Idx => i ∈ S) hs) ?_
  refine Rect.mem_set_unit.mpr ?_
  intro ax
  match ax with
  | ⟨0, _⟩ =>
    show ((cfg0 a).win 0).index t (0 : Fin 4) * 16 ≤ (i 0).val ∧ (i 0).val < ((cfg0 a).win 0).index t (0 : Fin 4) * 16 + 16
    rw [e0]; omega
  | ⟨1, _⟩ =>
    show ((cfg0 a).win 0).index t (1 : Fin 4) * 128 ≤ (i 1).val ∧ (i 1).val < ((cfg0 a).win 0).index t (1 : Fin 4) * 128 + 128
    rw [e1]; omega
  | ⟨2, _⟩ =>
    show ((cfg0 a).win 0).index t (2 : Fin 4) * 16 ≤ (i 2).val ∧ (i 2).val < ((cfg0 a).win 0).index t (2 : Fin 4) * 16 + 16
    rw [e2]; omega
  | ⟨3, _⟩ =>
    show ((cfg0 a).win 0).index t (3 : Fin 4) * 16 ≤ (i 3).val ∧ (i 3).val < ((cfg0 a).win 0).index t (3 : Fin 4) * 16 + 16
    rw [e3]; omega

/-- The blocks cover the array: the entry (n, …) lies in the block of step n / 16. -/
theorem cover (i : S2048x128x16x16.Idx) :
    ∃ t : Fin (cfg0 a).N, ((cfg0 a).win 0).flush t = true ∧ i ∈ (((cfg0 a).win 0).blk t).view.set := by
  have hi : (i 0).val < 2048 := (i 0).isLt
  have hN : (cfg0 a).N = 128 := N_0
  refine ⟨⟨(i 0).val / 16, by rw [hN]; omega⟩, flush_all a _, mem_blk a _ i ?_⟩
  show 16 * ((i 0).val / 16) ≤ (i 0).val ∧ (i 0).val < 16 * ((i 0).val / 16) + 16
  omega

end Window

/-! ## The result array after the run -/

section Launch

variable (m : (ℓ : Loc nD τ sig) → Buf (Elt F) ℓ)

/-- Grid point t as a step number below 128. -/
def stepOf (t : Fin (cfgM m).N) : Fin 128 := ⟨t.val, lt_of_lt_of_eq t.isLt N_0⟩

theorem coords_stepOf (t : Fin (cfgM m).N) : ((grid0.coords t) 0).val = (stepOf m t).val := coords_val t

/-- What step t writes back is block t of the specification's function, given that what the step left in its staging
    block is the specification's block: row y₀ of the block is row 16·t + y₀ of the array, the other coordinates kept. -/
theorem flushed_eq (h : AllChk m) (c : Dev nD)
    (hblk : ∀ t : Fin (cfgM m).N, blockX c (grid0.coords t) (xtOf m c) (xOf m c) (h c (grid0.coords t))
      = Cert.PatchSpec.blockOf (xOf m c) (xtOf m c) (stepOf m t))
    (t : Fin (cfgM m).N) :
    (dats m h 0 c).flushed 0 t
      = (((cfgM m).win 0).blk t).view.read (Elt F) (Cert.PatchSpec.G (xOf m c) (xtOf m c)) := by
  obtain ⟨e0, e1, e2, e3⟩ := index_facts (adm m) t
  show ((cfgM m).win 0).cut (grid0.coords t) ((dats m h 0 c).after 0 t) = _
  rw [after0, hblk]
  funext y
  show Cert.PatchSpec.blockOf (xOf m c) (xtOf m c) (stepOf m t) (((cfgM m).win 0).xinj (grid0.coords t) y)
    = Cert.PatchSpec.G (xOf m c) (xtOf m c) ((((cfgM m).win 0).blk t).view.emb y)
  refine (G_block (xOf m c) (xtOf m c) (stepOf m t) (((cfgM m).win 0).xinj (grid0.coords t) y)
    ((((cfgM m).win 0).blk t).view.emb y) ?_ ?_ ?_ ?_).symm
  · show ((cfgM m).win 0).index t (0 : Fin 4) * 16 + 1 * (y (0 : Fin 4)).val = 16 * t.val + (y (0 : Fin 4)).val
    rw [e0]; omega
  · show ((cfgM m).win 0).index t (1 : Fin 4) * 128 + 1 * (y (1 : Fin 4)).val = (y (1 : Fin 4)).val
    rw [e1]; omega
  · show ((cfgM m).win 0).index t (2 : Fin 4) * 16 + 1 * (y (2 : Fin 4)).val = (y (2 : Fin 4)).val
    rw [e2]; omega
  · show ((cfgM m).win 0).index t (3 : Fin 4) * 16 + 1 * (y (3 : Fin 4)).val = (y (3 : Fin 4)).val
    rw [e3]; omega

/-- The result array after the run is the specification's function, given that every step's block is the specification's. -/
theorem final_eq (h : AllChk m) (c : Dev nD)
    (hblk : ∀ t : Fin (cfgM m).N, blockX c (grid0.coords t) (xtOf m c) (xOf m c) (h c (grid0.coords t))
      = Cert.PatchSpec.blockOf (xOf m c) (xtOf m c) (stepOf m t)) :
    (dats m h 0 c).arrAt 0 (cfgM m).N = Cert.PatchSpec.G (xOf m c) (xtOf m c) :=
  (dats m h 0 c).arrAt_eq_of_cover 0 (Cert.PatchSpec.G (xOf m c) (xtOf m c))
    (fun t _ => flushed_eq m h c hblk t) (fun i => cover (adm m) i)

end Launch

end Cert.KernelIdeal.Body

end
-- ==== Proof.KIValue.lean ====
/-
  The value of the idealized program's run under an in-range index table: the result array ends as the
  specification's function of the input and the table. Each grid step's block is the specification's block (the
  window a row names, read index by index), and the steps' blocks, written back one after the other, tile the array.
-/
import proofs.«427366_j67594195304879_1_alg».proof.Proof.Gen.KernelIdeal.Loops
import proofs.«427366_j67594195304879_1_alg».proof.Proof.Gen.KernelIdeal.Launch
import proofs.«427366_j67594195304879_1_alg».proof.Proof.KIFrame
import proofs.«427366_j67594195304879_1_alg».proof.Proof.KIFinal
import Idealize.ShloMosaic.Lib.Pipeline.Frame
import Idealize.ShloMosaic.Lib.Batch
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

section Value

variable (m : (ℓ : Loc nD τ sig) → Buf (Elt F) ℓ) (ρ : Dev nD → PrngReg)

/-- THE VALUE RUN: every weakly fair execution of @main terminates with the result at the specification's array of the
    launch contents, and the two arguments unchanged. -/
theorem run_value [∀ e, Nonempty (Elt F e)] (hok : ∀ c : Dev nD, Cert.PatchSpec.TableOk (xtOf m c)) :
    θ_run defs (onTc (τ := τ) (main (F := F))) ⟨m, fun _ => 0, ρ⟩ (fun r => ∀ c : Dev nD,
      r.2.mem ((c.tc : Thread nD τ).loc main_v0) = Cert.PatchSpec.G (xOf m c) (xtOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ hp c => ⟨((hp c).1).trans (final_eq m (allChk_of_ok m hok) c fun t =>
      blockX_eq c (grid0.coords t) (xtOf m c) (xOf m c) (allChk_of_ok m hok c (grid0.coords t)) (hok c) (stepOf m t) (coords_stepOf m t)),
    (hp c).2⟩) (run_arrays m ρ (allChk_of_ok m hok))

end Value

end Cert.KernelIdeal.Body

end
-- ==== Proof.lean ====
/-
  The certificate of a patch gather. The kernel, on a grid of 128 steps of sixteen patches, reads row n = (b, h, w) of an
  int32 table [2048, 3] and copies the 128 × 16 × 16 window of entry b of the input [4, 128, 256, 256] whose corner is
  (14·h, 14·w) into patch n of the result, by one copy per patch started in a first loop and waited for in a second.
  The reference takes the same windows by a batched dynamic slice. Under the precondition — the input finite and every
  row in range, 0 ≤ b < 4 and 0 ≤ h, w < 18, so that each window lies inside the 256 × 256 plane — both results are
  out[n, c, i, j] = input[b_n, c, 14·h_n + i, 14·w_n + j]: on an in-range row the reference's wrap of negative indices
  and its clamp of the start index are the identity, and the kernel's window check holds, so every copy is issued.
  No arithmetic is done on the data, so the equality holds on all extended reals and finiteness is not used.
  The idealization rewrote no operation: the preservation claim is trivial.
-/
import proofs.«427366_j67594195304879_1_alg».proof.Defs
import proofs.«427366_j67594195304879_1_alg».proof.Proof.Gen.Kernel
import proofs.«427366_j67594195304879_1_alg».proof.Proof.Gen.KernelIdeal
import proofs.«427366_j67594195304879_1_alg».proof.Proof.Gen.ReferenceIdeal
import proofs.«427366_j67594195304879_1_alg».proof.Proof.Gen.Pre_finite_inputs
import proofs.«427366_j67594195304879_1_alg».proof.Proof.Gen.ReferenceIdeal.Run
import proofs.«427366_j67594195304879_1_alg».proof.Proof.Gen.ReferenceIdeal.Read
import proofs.«427366_j67594195304879_1_alg».proof.Proof.PreDecode
import proofs.«427366_j67594195304879_1_alg».proof.Proof.RefValue
import proofs.«427366_j67594195304879_1_alg».proof.Proof.KFrame
import proofs.«427366_j67594195304879_1_alg».proof.Proof.KIFrame
import proofs.«427366_j67594195304879_1_alg».proof.Proof.KIValue

noncomputable section

namespace Cert.Proof

open Idealize.ShloMosaic Idealize.ShloMosaic.TcCoe Idealize.SL.Sem

/-- The precondition puts every row of the table in range: at the word-level program, -/
theorem tableOk_K (m : (ℓ : Loc Cert.Kernel.nD Cert.Kernel.τ Cert.Kernel.sig) → Buf (Elt Bits) ℓ) (h : Cert.Pre_Kernel m)
    (c : Dev Cert.Kernel.nD) : Cert.PatchSpec.TableOk (Cert.Kernel.Body.xtOf m c) :=
  Cert.PreDecode.tableOk_of_pre (F := Bits) _ _ (h 0)

/-- and at the idealized one. -/
theorem tableOk_KI (m : (ℓ : Loc Cert.KernelIdeal.nD Cert.KernelIdeal.τ Cert.KernelIdeal.sig) → Buf (Elt Ideal) ℓ) (h : Cert.Pre_KernelIdeal m)
    (c : Dev Cert.KernelIdeal.nD) : Cert.PatchSpec.TableOk (Cert.KernelIdeal.Body.xtOf m c) :=
  Cert.PreDecode.tableOk_of_pre (F := Ideal) _ _ (h 0)

theorem frame_p : Cert.frame_Kernel := fun m ρ h => Cert.Kernel.Body.frame_of_ok m ρ (tableOk_K m h)
theorem frame_pi : Cert.frame_KernelIdeal := fun m ρ h => Cert.KernelIdeal.Body.frame_of_ok m ρ (tableOk_KI m h)
/-- The reference runs whatever the table holds: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the specification's array of the (agreeing) arguments. -/
theorem algebraic : Cert.algebraic_KernelIdeal_ReferenceIdeal := by
  intro m ρ m' ρ' hpre hagree
  have hok := tableOk_KI m hpre
  refine ⟨fun c => Cert.PatchSpec.G (Cert.KernelIdeal.Body.xOf m c) (Cert.KernelIdeal.Body.xtOf m c),
    Cert.KernelIdeal.Body.run_value m ρ hok, ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim _ _
  rw [(hagree 0).1, (hagree 0).2]
  exact (Cert.ReferenceIdeal.Read.val_main_v31_eq _ _).trans (Cert.ReferenceIdeal.RefValue.ref_is_G _ _ (hok 0))

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
